-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1 : Shape := ⟨2, ![100000, 1]⟩
abbrev S1600000 : Shape := ⟨1, ![1600000]⟩
abbrev S384x128 : Shape := ⟨2, ![384, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S100000x1 .f32) (main_arg2 : IVec S1600000 32) (main_arg3 : IVec S1600000 32) (main_arg4 : FVec F S384x128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S100000x1 : Shape := ⟨2, ![100000, 1]⟩
abbrev S1600000 : Shape := ⟨1, ![1600000]⟩
abbrev S384x128 : Shape := ⟨2, ![384, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x384 : Shape := ⟨2, ![100000, 384]⟩
abbrev S1x128 : Shape := ⟨2, ![1, 128]⟩
abbrev S2000x384 : Shape := ⟨2, ![2000, 384]⟩
abbrev S2000x1 : Shape := ⟨2, ![2000, 1]⟩
abbrev S2000x128 : Shape := ⟨2, ![2000, 128]⟩

abbrev nBuf : Space → Nat
  | .hbm => 88
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S1600000, .i32⟩
  | .hbm, ⟨3, _⟩ => ⟨S1600000, .i32⟩
  | .hbm, ⟨4, _⟩ => ⟨S384x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x128, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x384, .f32⟩
  | .hbm, ⟨72, _⟩ => ⟨S384x128, .bf16⟩
  | .hbm, ⟨73, _⟩ => ⟨S1x128, .f32⟩
  | .hbm, ⟨74, _⟩ => ⟨S100000x128, .f32⟩
  | .hbm, ⟨75, _⟩ => ⟨S1x128, .f32⟩
  | .hbm, ⟨76, _⟩ => ⟨S1x128, .f32⟩
  | .hbm, ⟨77, _⟩ => ⟨S_, .f32⟩
  | .hbm, ⟨78, _⟩ => ⟨S1x128, .f32⟩
  | .hbm, ⟨79, _⟩ => ⟨S1x128, .f32⟩
  | .hbm, ⟨80, _⟩ => ⟨S_, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S100000x128, .f32⟩
  | .local _ .vmem, ⟨0, _⟩ => ⟨S2000x384, .f32⟩
  | .local _ .vmem, ⟨1, _⟩ => ⟨S2000x384, .f32⟩
  | .local _ .vmem, ⟨2, _⟩ => ⟨S384x128, .bf16⟩
  | .local _ .vmem, ⟨3, _⟩ => ⟨S1x128, .f32⟩
  | .local _ .vmem, ⟨4, _⟩ => ⟨S2000x1, .f32⟩
  | .local _ .vmem, ⟨5, _⟩ => ⟨S2000x1, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50_0 : Ref sig .tc := ⟨.hbm, 74, rfl⟩
abbrev main_v50_1 : Ref sig .tc := ⟨.hbm, 75, rfl⟩
abbrev main_v50_2 : Ref sig .tc := ⟨.hbm, 76, rfl⟩
abbrev main_cst_12 : Ref sig .tc := ⟨.hbm, 77, rfl⟩
abbrev main_v51 : Ref sig .tc := ⟨.hbm, 78, rfl⟩
abbrev main_v52 : Ref sig .tc := ⟨.hbm, 79, rfl⟩
abbrev main_cst_13 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v32 : BitVec 1 := Scalar.cmpi .eq arg0 c49_i32
  let v33 : BitVec 32 := Scalar.extui v32
  let c0_i32_20 : BitVec 32 := 0#32
  let v34 : BitVec 1 := Scalar.cmpi .ne v33 c0_i32_20
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  bitsLt_bf16_f32 : FTy.bits .bf16 < FTy.bits .f32
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  reduces_S2000x128_S128 : S2000x128.Reduces [0] S128
  bcast_S_S1x128 : S_.BroadcastsInDim S1x128 (![] : Fin 0 → Fin S1x128.rank)
  shapeCasts_S2000x128_S2000x128 : S2000x128.ShapeCasts S2000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x384.size a ≤ S100000x384.size a
  hwx0_0 : ∀ i : grid0.Coords, EltTy.bits .f32 = 32 ∨ (Rect.block (s := S100000x384) S2000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .bf16 = 32 ∨ (Rect.block (s := S384x128) S384x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_v47) S2000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v50_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v50_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v50_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v50_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x1 : Shape := ⟨2, ![100000, 1]⟩
abbrev S1600000 : Shape := ⟨1, ![1600000]⟩
abbrev S384x128 : Shape := ⟨2, ![384, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x384 : Shape := ⟨2, ![100000, 384]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S1600000, .i32⟩
  | .hbm, ⟨3, _⟩ => ⟨S1600000, .i32⟩
  | .hbm, ⟨4, _⟩ => ⟨S384x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x128, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x384, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S128, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S1x128, .f32⟩
  | .hbm, ⟨103, _⟩ => ⟨S100000x128, .f32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_call1_cst : Ref sig .tc := ⟨.hbm, 108, rfl⟩
abbrev main_call1_v0 : Ref sig .tc := ⟨.hbm, 109, rfl⟩
abbrev main_v79 : Ref sig .tc := ⟨.hbm, 110, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x384_S384x128_S100000x128_1_0_0_1_n_n_wf : DotDims.WF S100000x384 S384x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.KernelFrame.Common.lean ====
/-
  What the two kernel regions' proofs share. The first kernel (the linear layer, the graph norm and the running
  column sums) branches twice on the grid coordinate: it clears its two accumulators at the first row block and
  copies them into the two sum outputs at the last one; so a grid point is in one of three cases — first, middle,
  last — and the two sum outputs are idle (neither stored nor written back) everywhere but at the last point.
  Here: those two conditions in closed form over the 50 row blocks, where each window is idle, names for the
  staging and scratch memrefs at a point, and the class invariant with the two accumulators spelt as owned memrefs.
-/
import proofs.«102301_j38998303048417_1_alg».proof.Proof.Gen.Kernel.Launch
import proofs.«102301_j38998303048417_1_alg».proof.Proof.Gen.Kernel.Skeleton
import proofs.«102301_j38998303048417_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first kernel's two branch conditions -/

/-- "This is the first row block": the condition under which the accumulators are cleared. -/
abbrev cond0_0 (i : grid0.Coords) : Prop :=
  (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- "This is the last row block": the condition under which the accumulators are copied to the sum outputs. -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the first kernel's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last row block the two sum outputs are idle and not written back. -/
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
/-- At the last row block they are stored. -/
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-! ## The memrefs a point's body is called with -/

abbrev ms0_0 (t : Fin cfg0.N) : Memref sig .tc .vmem S2000x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2000x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
/-- The two accumulators: whole scoped buffers of the kernel's own. -/
abbrev scM0_0 : Memref sig .tc .vmem S1x128 .f32 := Memref.whole cc0_scratch0
abbrev scM0_1 : Memref sig .tc .vmem S1x128 .f32 := Memref.whole cc0_scratch1
/-- Views through which buffer contents are read back (any staging buffer of the window would do). -/
abbrev VS0_0 : View sig .tc .vmem S1x128 .f32 := scM0_0.view
abbrev VS0_1 : View sig .tc .vmem S1x128 .f32 := scM0_1.view
abbrev VO0_4 : View sig .tc .vmem S2000x128 .f32 := (Memref.whole cc0_stg4_0 : Memref sig .tc .vmem S2000x128 .f32).view
abbrev VO0_5 : View sig .tc .vmem S1x128 .f32 := (Memref.whole cc0_stg5_0 : Memref sig .tc .vmem S1x128 .f32).view
abbrev VO0_6 : View sig .tc .vmem S1x128 .f32 := (Memref.whole cc0_stg6_0 : Memref sig .tc .vmem S1x128 .f32).view

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x128 .f32 := win1_5.stage (cfg1.slots t 5)
abbrev hs1_5 (t : Fin cfg1.N) : (ms1_5 t).IsWhole := hstage1_5 ((cfg1.slots t 5).cast nbuf1_5)
abbrev VO1_5 : View sig .tc .vmem S2000x128 .f32 := (Memref.whole cc1_stg5_0 : Memref sig .tc .vmem S2000x128 .f32).view

/-! ## The class invariants, the scratch spelt out -/

/-- The second kernel's staging buffers: scoped buffers the first region neither stages nor touches, each whole at some
    contents. They ride through the first region inside its invariant. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The first region's invariant before its first point: the two accumulators at anything, the second kernel's staging
    buffers, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.Kernel.Frame

end
-- ==== Proof.KernelFrame.RunA.lean ====
/-
  The first kernel's body at the FIRST row block, run whole: the accumulators are cleared, the block of the linear layer's
  scaled output is stored, each accumulator takes that block's column sums, and the two sum outputs are left as found.
  What each written buffer ends with is recorded as the list of pieces the run stored (last first).
-/
import proofs.«102301_j38998303048417_1_alg».proof.Proof.KernelFrame.Common

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S2000x384 .f32) (x1 : Vec F S384x128 .bf16) (x2 : Vec F S1x128 .f32) (x3 : Vec F S2000x1 .f32) :
    Σ' (L4 : List (View.Piece (Elt F) S2000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__linear_graphnorm_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__linear_graphnorm_kernel_eq_skeleton]; unfold cc0__linear_graphnorm_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Frame

end
-- ==== Proof.KernelFrame.RunB.lean ====
/-
  The first kernel's body at a MIDDLE row block, run whole: nothing is cleared and nothing copied out; the block of the
  linear layer's scaled output is stored and each accumulator, found at what the block before left, takes this
  block's column sums on top. The two sum outputs are left as found.
-/
import proofs.«102301_j38998303048417_1_alg».proof.Proof.KernelFrame.RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S2000x384 .f32) (x1 : Vec F S384x128 .bf16) (x2 : Vec F S1x128 .f32) (x3 : Vec F S2000x1 .f32) (xs0 xs1 : Vec F S1x128 .f32) :
    Σ' (L4 : List (View.Piece (Elt F) S2000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__linear_graphnorm_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__linear_graphnorm_kernel_eq_skeleton]; unfold cc0__linear_graphnorm_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Frame

end
-- ==== Proof.KernelFrame.RunC.lean ====
/-
  The first kernel's body at the LAST row block, run whole: as at a middle block, and then each accumulator is copied
  into its sum output, whose staging buffer (at anything before) ends holding it.
-/
import proofs.«102301_j38998303048417_1_alg».proof.Proof.KernelFrame.RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S2000x384 .f32) (x1 : Vec F S384x128 .bf16) (x2 : Vec F S1x128 .f32) (x3 : Vec F S2000x1 .f32) (xs0 xs1 : Vec F S1x128 .f32) :
    Σ' (L4 : List (View.Piece (Elt F) S2000x128 .f32)) (L5 L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__linear_graphnorm_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__linear_graphnorm_kernel_eq_skeleton]; unfold cc0__linear_graphnorm_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Frame

end
-- ==== Proof.KernelFrame.Data0.lean ====
/-
  The first region's proof data, at the contents `V` the region is entered with.
  After the body at row block t: the block of the scaled linear output in the first output's buffer; in the two
  accumulators the running column sums (of the entries, of their squares) over blocks 0..t — each point's case run at
  what the point before left; and at the last block the accumulators copied into the two sum outputs' buffers.
  The region's invariant between points carries the two accumulators at exactly those contents (beside the second
  kernel's untouched staging buffers and the generator register); before the first point they hold anything.
  The body obligation is the three cases' runs, chosen by the block number.
-/
import proofs.«102301_j38998303048417_1_alg».proof.Proof.KernelFrame.RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at row block `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The runs' pieces cover the buffers they write -/

theorem cover0_A_4 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S2000x384 .f32) (x1 : Vec F S384x128 .bf16) (x2 : Vec F S1x128 .f32) (x3 : Vec F S2000x1 .f32)  (y : S2000x128.Idx) :
    ∃ pc ∈ (kernelRun0_A c i arg1 harg1 arg2 harg2 arg3 harg3 arg4 harg4 arg5 harg5 arg6 harg6 arg7 harg7 arg8 harg8 arg9 harg9 hc0 hc1 x0 x1 x2 x3 ).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 ).1 S2000x128.size (by sl_kernel_rfl) y
theorem scover0_A_0 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S2000x384 .f32) (x1 : Vec F S384x128 .bf16) (x2 : Vec F S1x128 .f32) (x3 : Vec F S2000x1 .f32)  (y : S1x128.Idx) :
    ∃ pc ∈ (kernelRun0_A c i arg1 harg1 arg2 harg2 arg3 harg3 arg4 harg4 arg5 harg5 arg6 harg6 arg7 harg7 arg8 harg8 arg9 harg9 hc0 hc1 x0 x1 x2 x3 ).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 ).2.1 S1x128.size (by sl_kernel_rfl) y
theorem scover0_A_1 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S2000x384 .f32) (x1 : Vec F S384x128 .bf16) (x2 : Vec F S1x128 .f32) (x3 : Vec F S2000x1 .f32)  (y : S1x128.Idx) :
    ∃ pc ∈ (kernelRun0_A c i arg1 harg1 arg2 harg2 arg3 harg3 arg4 harg4 arg5 harg5 arg6 harg6 arg7 harg7 arg8 harg8 arg9 harg9 hc0 hc1 x0 x1 x2 x3 ).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 ).2.2.1 S1x128.size (by sl_kernel_rfl) y
theorem cover0_B_4 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S2000x384 .f32) (x1 : Vec F S384x128 .bf16) (x2 : Vec F S1x128 .f32) (x3 : Vec F S2000x1 .f32) (xs0 xs1 : Vec F S1x128 .f32) (y : S2000x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).1 S2000x128.size (by sl_kernel_rfl) y
theorem scover0_B_0 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S2000x384 .f32) (x1 : Vec F S384x128 .bf16) (x2 : Vec F S1x128 .f32) (x3 : Vec F S2000x1 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y
theorem scover0_B_1 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S2000x384 .f32) (x1 : Vec F S384x128 .bf16) (x2 : Vec F S1x128 .f32) (x3 : Vec F S2000x1 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y
theorem cover0_C_4 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S2000x384 .f32) (x1 : Vec F S384x128 .bf16) (x2 : Vec F S1x128 .f32) (x3 : Vec F S2000x1 .f32) (xs0 xs1 : Vec F S1x128 .f32) (y : S2000x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).1 S2000x128.size (by sl_kernel_rfl) y
theorem cover0_C_5 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S2000x384 .f32) (x1 : Vec F S384x128 .bf16) (x2 : Vec F S1x128 .f32) (x3 : Vec F S2000x1 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y
theorem cover0_C_6 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S2000x384 .f32) (x1 : Vec F S384x128 .bf16) (x2 : Vec F S1x128 .f32) (x3 : Vec F S2000x1 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y
theorem scover0_C_0 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S2000x384 .f32) (x1 : Vec F S384x128 .bf16) (x2 : Vec F S1x128 .f32) (x3 : Vec F S2000x1 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y
theorem scover0_C_1 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S2000x384 .f32) (x1 : Vec F S384x128 .bf16) (x2 : Vec F S1x128 .f32) (x3 : Vec F S2000x1 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-! ## What a point leaves, case by case -/

/-- What a point leaves: the first output's block, the two sum outputs' buffers, the two accumulators. -/
abbrev Left (F : FTy → Type) : Type := Vec F S2000x128 .f32 × Vec F S1x128 .f32 × Vec F S1x128 .f32 × Vec F S1x128 .f32 × Vec F S1x128 .f32

/-- At the first row block. The sum outputs are idle: placeholders nothing consults. -/
def leftA (c : Dev nD) (t : Fin cfg0.N) (hc0 : cond0_0 (grid0.coords t)) (hc1 : ¬cond0_1 (grid0.coords t)) : Left F :=
  (VO0_4.read (Elt F) (VO0_4.writes (Elt F) VO0_4.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t)).1),
   VO0_5.read (Elt F) (VO0_5.writes (Elt F) VO0_5.junk []),
   VO0_6.read (Elt F) (VO0_6.writes (Elt F) VO0_6.junk []),
   VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t)).2.1),
   VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t)).2.2.1))

/-- At a middle row block, over the accumulators `xs0`, `xs1` the block before left. -/
def leftB (c : Dev nD) (t : Fin cfg0.N) (hc0 : ¬cond0_0 (grid0.coords t)) (hc1 : ¬cond0_1 (grid0.coords t)) (xs0 xs1 : Vec F S1x128 .f32) : Left F :=
  (VO0_4.read (Elt F) (VO0_4.writes (Elt F) VO0_4.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).1),
   VO0_5.read (Elt F) (VO0_5.writes (Elt F) VO0_5.junk []),
   VO0_6.read (Elt F) (VO0_6.writes (Elt F) VO0_6.junk []),
   VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.1),
   VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.2.1))

/-- At the last row block, over the accumulators the block before left. -/
def leftC (c : Dev nD) (t : Fin cfg0.N) (hc0 : ¬cond0_0 (grid0.coords t)) (hc1 : cond0_1 (grid0.coords t)) (xs0 xs1 : Vec F S1x128 .f32) : Left F :=
  (VO0_4.read (Elt F) (VO0_4.writes (Elt F) VO0_4.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).1),
   VO0_5.read (Elt F) (VO0_5.writes (Elt F) VO0_5.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.1),
   VO0_6.read (Elt F) (VO0_6.writes (Elt F) VO0_6.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.2.1),
   VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.2.2.1),
   VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.2.2.2.1))

/-- A row block after the first is not the first. -/
theorem ncond0_0_succ (n : ℕ) (hn : n + 1 < cfg0.N) : ¬cond0_0 (grid0.coords ⟨n + 1, hn⟩) := fun h => by
  have h' := (hcond0_0 ⟨n + 1, hn⟩).mp h
  have hN : n + 1 < 50 := lt_of_lt_of_eq hn (show cfg0.N = 50 from N_0)
  (try dsimp only at h'); omega

/-- THE ACCUMULATION: what the buffers hold after the body at row block `n`, by recursion on `n` — the first block's
    case at 0; afterwards the middle or the last block's case over the accumulators block `n - 1` left. -/
def outsAt0 (c : Dev nD) : (n : ℕ) → n < cfg0.N → Left F
  | 0, hn => leftA V c ⟨0, hn⟩ ((hcond0_0 ⟨0, hn⟩).mpr (Nat.zero_mod _)) (fun h => (fun h => by (try dsimp only at h); omega) ((hcond0_1 ⟨0, hn⟩).mp h))
  | n + 1, hn =>
    if h1 : (n + 1) % 50 = 49 then
      leftC V c ⟨n + 1, hn⟩ (ncond0_0_succ n hn) ((hcond0_1 ⟨n + 1, hn⟩).mpr h1) (outsAt0 c n (Nat.lt_of_succ_lt hn)).2.2.2.1 (outsAt0 c n (Nat.lt_of_succ_lt hn)).2.2.2.2
    else
      leftB V c ⟨n + 1, hn⟩ (ncond0_0_succ n hn) (fun h => h1 ((hcond0_1 ⟨n + 1, hn⟩).mp h)) (outsAt0 c n (Nat.lt_of_succ_lt hn)).2.2.2.1 (outsAt0 c n (Nat.lt_of_succ_lt hn)).2.2.2.2

theorem outsAt0_A (c : Dev nD) (t : Fin cfg0.N) (h0 : t.val % 50 = 0) (h1 : ¬t.val % 50 = 49) :
    outsAt0 V c t.val t.isLt = leftA V c t ((hcond0_0 t).mpr h0) (fun h => h1 ((hcond0_1 t).mp h)) := by
  obtain ⟨n, hn⟩ := t
  cases n with
  | zero => exact rfl
  | succ n =>
    exfalso
    have hN : n + 1 < 50 := lt_of_lt_of_eq hn (show cfg0.N = 50 from N_0)
    (try dsimp only at h0); omega

theorem outsAt0_B (c : Dev nD) (t : Fin cfg0.N) (h0 : ¬t.val % 50 = 0) (h1 : ¬t.val % 50 = 49) :
    outsAt0 V c t.val t.isLt = leftB V c t (fun h => h0 ((hcond0_0 t).mp h)) (fun h => h1 ((hcond0_1 t).mp h))
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 50 = 0) (h1 : t.val % 50 = 49) :
    outsAt0 V c t.val t.isLt = leftC V c t (fun h => h0 ((hcond0_0 t).mp h)) ((hcond0_1 t).mpr h1)
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_pos h1).trans rfl

/-! ## The invariant between points -/

/-- Before row block `n`: before the first, the class's invariant (the accumulators at anything); afterwards each
    accumulator at what block `n - 1` left, beside the second kernel's staging buffers and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.Kernel.Frame

end
-- ==== Proof.KernelFrame.Body0.lean ====
/-
  The first region's body obligation: at every row block the body, handed the input blocks, the output buffers and the
  invariant's accumulators, leaves what the proof data say. The block number selects the case: block 0 clears and
  starts the accumulators (they may hold anything before); blocks 1..48 add to what the block before left; block 49
  also copies the accumulators out. Away from block 49 the two sum outputs are idle and handed back untouched.
-/
import proofs.«102301_j38998303048417_1_alg».proof.Proof.KernelFrame.Data0

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at row block `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 50 = 0
  · -- the first row block
    have h1 : ¬t.val % 50 = 49 := by omega
    have hz : t.val = 0 := by omega
    rw [Dat.leavesExact_idle (dat0 V c) 5 t (idleAt0_5 t (fun h => h1 ((hcond0_1 t).mp h))) (noFlush0_5 t (fun h => h1 ((hcond0_1 t).mp h))),
      Dat.leavesExact_idle (dat0 V c) 6 t (idleAt0_6 t (fun h => h1 ((hcond0_1 t).mp h))) (noFlush0_6 t (fun h => h1 ((hcond0_1 t).mp h)))]
    rw [outsAt0_A V c t h0 h1]
    unfold leftA; (try dsimp only)
    rw [PhiS_castSucc V c t, PhiS_zero V c _ _ hz, PhiA0_eq]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hrest Hg]
    · isplitr [Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _ _)
    isplitl [H5]; · iexists _; iexact H5
    iexists _; iexact H6
  · by_cases h1 : t.val % 50 = 49
    · -- the last row block
      have hz : t.val ≠ 0 := by omega
      rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold leftC; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hrest Hg]
      · isplitr [Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _ _ _)
    · -- a middle row block
      have hz : t.val ≠ 0 := by omega
      rw [Dat.leavesExact_idle (dat0 V c) 5 t (idleAt0_5 t (fun h => h1 ((hcond0_1 t).mp h))) (noFlush0_5 t (fun h => h1 ((hcond0_1 t).mp h))),
        Dat.leavesExact_idle (dat0 V c) 6 t (idleAt0_6 t (fun h => h1 ((hcond0_1 t).mp h))) (noFlush0_6 t (fun h => h1 ((hcond0_1 t).mp h)))]
      rw [outsAt0_B V c t h0 h1]
      unfold leftB; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _)
      isplitl [H5]; · iexists _; iexact H5
      iexists _; iexact H6

/-- The library's body obligation, at every row block. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first row block. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last row block the invariant gives the class's back: the accumulators' contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 50 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, Hrest⟩, Hg⟩
  isplitr [Hg]
  · isplitl [HS0]; · iexists _; iexact HS0
    isplitl [HS1]; · iexists _; iexact HS1
    iexact Hrest
  iexact Hg

end Cert.Kernel.Frame

end
-- ==== Proof.KernelFrame.Run1.lean ====
/-
  The second kernel's body (batch-norm affine map and ReLU on one row block), run whole: one store of the whole output
  block; the five input blocks are left as found.
-/
import proofs.«102301_j38998303048417_1_alg».proof.Proof.KernelFrame.Common

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) :
    { L5 : List (View.Piece (Elt F) S2000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__finalize_kernel i arg1 harg1 arg2 harg2 arg3 harg3 arg4 harg4 arg5 harg5 arg6 harg6) K } := by
  refine ⟨?_, fun E K => ?run⟩
  case run =>
    simp only [cc1__finalize_kernel_eq_skeleton]; unfold cc1__finalize_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Frame

end
-- ==== Proof.KernelFrame.Data1.lean ====
/-
  The second region's proof data and body obligation, at the contents `V` the region is entered with: every point
  stores its whole output block, a function of the point's five input blocks only; nothing is carried between points.
-/
import proofs.«102301_j38998303048417_1_alg».proof.Proof.KernelFrame.Run1

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The run's one piece covers the output block. -/
theorem cover1_5 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (y : S2000x128.Idx) :
    ∃ pc ∈ (kernelRun1 c i arg1 harg1 arg2 harg2 arg3 harg3 arg4 harg4 arg5 harg5 arg6 harg6 x0 x1 x2 x3 x4).1, y ∈ pc.1.set :=
  View.cover_of_tiledL (kernelRun1 c i arg1 harg1 arg2 harg2 arg3 harg3 arg4 harg4 arg5 harg5 arg6 harg6 x0 x1 x2 x3 x4).1 S2000x128.size (by sl_kernel_rfl) y

/-- What the body leaves in the output's staging buffer at row block `t`. -/
def out1_5 (c : Dev nD) (t : Fin cfg1.N) : Vec F S2000x128 .f32 :=
  VO1_5.read (Elt F) (VO1_5.writes (Elt F) VO1_5.junk (kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)).1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at row block `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1_5
  iintro ⟨HΦ, Ho, ⟨%d0, H0⟩, ⟨%d1, H1⟩, ⟨%d2, H2⟩, ⟨%d3, H3⟩, ⟨%d4, H4⟩, ⟨%d5, H5⟩⟩
  iapply ((kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KernelFrame.Main.lean ====
/-
  THE RUN. @main is three stretches of host operations (the graph aggregation that builds the Chebyshev features), the
  first kernel region, a stretch of host operations (mean and variance from the two column sums), the second kernel
  region. The buffer contents at each boundary are a fold from the launch memory: a host stretch applies its
  operations; a region leaves its input arrays as entered and each output array at what its write-backs leave.
  Every weakly fair execution terminates with every unscoped buffer at the last boundary's contents; the arguments
  are read back through the fold to their launch contents.
-/
import proofs.«102301_j38998303048417_1_alg».proof.Proof.KernelFrame.Body0
import proofs.«102301_j38998303048417_1_alg».proof.Proof.KernelFrame.Data1
import proofs.«102301_j38998303048417_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
/-- At the first region's entry: the Chebyshev features, the weight in the narrow format and the bias row are in place. -/
abbrev W3 : Dev nD → Valuation τ sig (Elt F) := fun c => StableHlo.after hostOps0_2 (W2 m c)
/-- The same read at the TensorCore's references (what the first region's proof data take). -/
abbrev VE0 : (c : Dev nD) → (b : Ref sig .tc) → Buf (Elt F) ((c : Thread nD τ).loc b) := fun c b => W3 m c b
/-- At the first region's exit: its arrays at what the pipeline leaves, every other buffer as entered. -/
def W4 (c : Dev nD) : Valuation τ sig (Elt F) :=
  Pipeline.withArrays spec0 c (W3 m c) fun w => (dat0 (VE0 m) c).arrAt w cfg0.N
theorem W4_arr (c : Dev nD) (w : Fin cfg0.W) :
    W4 m c (Proc.devRef .tc (Pipeline.arrRef spec0 w)) = (dat0 (VE0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev VX0 : (c : Dev nD) → (b : Ref sig .tc) → Buf (Elt F) ((c : Thread nD τ).loc b) := fun c b => W4 m c b
theorem hF0 (c : Dev nD) (w : Fin cfg0.W) : (dat0 (VE0 m) c).arrAt w cfg0.N = VX0 m c (Pipeline.arrRef spec0 w) :=
  (W4_arr m c w).symm
theorem hrest0 (c : Dev nD) : ∀ b, b ∉ Finset.univ.image (Pipeline.arrRef spec0) → VX0 m c b = VE0 m c b :=
  fun b hb => W4_of_ne m c b fun w e => hb (Finset.mem_image.mpr ⟨w, Finset.mem_univ _, e⟩)

/-- At the second region's entry: mean and variance rows are in place. -/
abbrev W5 : Dev nD → Valuation τ sig (Elt F) := fun c => StableHlo.after hostOps1 (W4 m c)
abbrev VE1 : (c : Dev nD) → (b : Ref sig .tc) → Buf (Elt F) ((c : Thread nD τ).loc b) := fun c b => W5 m c b
/-- At the second region's exit, which is the end of @main. -/
def W6 (c : Dev nD) : Valuation τ sig (Elt F) :=
  Pipeline.withArrays spec1 c (W5 m c) fun w => (dat1 (VE1 m) c).arrAt w cfg1.N
theorem W6_arr (c : Dev nD) (w : Fin cfg1.W) :
    W6 m c (Proc.devRef .tc (Pipeline.arrRef spec1 w)) = (dat1 (VE1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev VX1 : (c : Dev nD) → (b : Ref sig .tc) → Buf (Elt F) ((c : Thread nD τ).loc b) := fun c b => W6 m c b
theorem hF1 (c : Dev nD) (w : Fin cfg1.W) : (dat1 (VE1 m) c).arrAt w cfg1.N = VX1 m c (Pipeline.arrRef spec1 w) :=
  (W6_arr m c w).symm
theorem hrest1 (c : Dev nD) : ∀ b, b ∉ Finset.univ.image (Pipeline.arrRef spec1) → VX1 m c b = VE1 m c b :=
  fun b hb => W6_of_ne m c b fun w e => hb (Finset.mem_image.mpr ⟨w, Finset.mem_univ _, e⟩)

/-! ## The arguments end as launched -/

/-- Argument 0 ends as launched: no host operation writes it and no region changes it. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps1 _ hostOps1_writes (by decide : main_arg0 ∉ hostOps1_W)
    _ = W3 m c (Proc.devRef .tc main_arg0) := W4_of_ne m c main_arg0 (by decide)
    _ = W2 m c (Proc.devRef .tc main_arg0) := StableHlo.after_of_writes_sub hostOps0_2 _ hostOps0_2_writes (by decide : main_arg0 ∉ hostOps0_2_W)
    _ = W1 m c (Proc.devRef .tc main_arg0) := StableHlo.after_of_writes_sub hostOps0_1 _ hostOps0_1_writes (by decide : main_arg0 ∉ hostOps0_1_W)
    _ = W0 m c (Proc.devRef .tc main_arg0) := StableHlo.after_of_writes_sub hostOps0 _ hostOps0_writes (by decide : main_arg0 ∉ hostOps0_W)
    _ = m ((c : Thread nD τ).loc main_arg0) := rfl
/-- Argument 1 ends as launched: no host operation writes it and no region changes it. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps1 _ hostOps1_writes (by decide : main_arg1 ∉ hostOps1_W)
    _ = W3 m c (Proc.devRef .tc main_arg1) := (W4_arr m c 3).trans (((dat0 (VE0 m) c).arrAt_in 3 rfl _).trans (A_eq0 (VE0 m) c 3))
    _ = W2 m c (Proc.devRef .tc main_arg1) := StableHlo.after_of_writes_sub hostOps0_2 _ hostOps0_2_writes (by decide : main_arg1 ∉ hostOps0_2_W)
    _ = W1 m c (Proc.devRef .tc main_arg1) := StableHlo.after_of_writes_sub hostOps0_1 _ hostOps0_1_writes (by decide : main_arg1 ∉ hostOps0_1_W)
    _ = W0 m c (Proc.devRef .tc main_arg1) := StableHlo.after_of_writes_sub hostOps0 _ hostOps0_writes (by decide : main_arg1 ∉ hostOps0_W)
    _ = m ((c : Thread nD τ).loc main_arg1) := rfl
/-- Argument 2 ends as launched: no host operation writes it and no region changes it. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps1 _ hostOps1_writes (by decide : main_arg2 ∉ hostOps1_W)
    _ = W3 m c (Proc.devRef .tc main_arg2) := W4_of_ne m c main_arg2 (by decide)
    _ = W2 m c (Proc.devRef .tc main_arg2) := StableHlo.after_of_writes_sub hostOps0_2 _ hostOps0_2_writes (by decide : main_arg2 ∉ hostOps0_2_W)
    _ = W1 m c (Proc.devRef .tc main_arg2) := StableHlo.after_of_writes_sub hostOps0_1 _ hostOps0_1_writes (by decide : main_arg2 ∉ hostOps0_1_W)
    _ = W0 m c (Proc.devRef .tc main_arg2) := StableHlo.after_of_writes_sub hostOps0 _ hostOps0_writes (by decide : main_arg2 ∉ hostOps0_W)
    _ = m ((c : Thread nD τ).loc main_arg2) := rfl
/-- Argument 3 ends as launched: no host operation writes it and no region changes it. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps1 _ hostOps1_writes (by decide : main_arg3 ∉ hostOps1_W)
    _ = W3 m c (Proc.devRef .tc main_arg3) := W4_of_ne m c main_arg3 (by decide)
    _ = W2 m c (Proc.devRef .tc main_arg3) := StableHlo.after_of_writes_sub hostOps0_2 _ hostOps0_2_writes (by decide : main_arg3 ∉ hostOps0_2_W)
    _ = W1 m c (Proc.devRef .tc main_arg3) := StableHlo.after_of_writes_sub hostOps0_1 _ hostOps0_1_writes (by decide : main_arg3 ∉ hostOps0_1_W)
    _ = W0 m c (Proc.devRef .tc main_arg3) := StableHlo.after_of_writes_sub hostOps0 _ hostOps0_writes (by decide : main_arg3 ∉ hostOps0_W)
    _ = m ((c : Thread nD τ).loc main_arg3) := rfl
/-- Argument 4 ends as launched: no host operation writes it and no region changes it. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps1 _ hostOps1_writes (by decide : main_arg4 ∉ hostOps1_W)
    _ = W3 m c (Proc.devRef .tc main_arg4) := W4_of_ne m c main_arg4 (by decide)
    _ = W2 m c (Proc.devRef .tc main_arg4) := StableHlo.after_of_writes_sub hostOps0_2 _ hostOps0_2_writes (by decide : main_arg4 ∉ hostOps0_2_W)
    _ = W1 m c (Proc.devRef .tc main_arg4) := StableHlo.after_of_writes_sub hostOps0_1 _ hostOps0_1_writes (by decide : main_arg4 ∉ hostOps0_1_W)
    _ = W0 m c (Proc.devRef .tc main_arg4) := StableHlo.after_of_writes_sub hostOps0 _ hostOps0_writes (by decide : main_arg4 ∉ hostOps0_W)
    _ = m ((c : Thread nD τ).loc main_arg4) := rfl
/-- Argument 5 ends as launched: no host operation writes it and no region changes it. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps1 _ hostOps1_writes (by decide : main_arg5 ∉ hostOps1_W)
    _ = W3 m c (Proc.devRef .tc main_arg5) := W4_of_ne m c main_arg5 (by decide)
    _ = W2 m c (Proc.devRef .tc main_arg5) := StableHlo.after_of_writes_sub hostOps0_2 _ hostOps0_2_writes (by decide : main_arg5 ∉ hostOps0_2_W)
    _ = W1 m c (Proc.devRef .tc main_arg5) := StableHlo.after_of_writes_sub hostOps0_1 _ hostOps0_1_writes (by decide : main_arg5 ∉ hostOps0_1_W)
    _ = W0 m c (Proc.devRef .tc main_arg5) := StableHlo.after_of_writes_sub hostOps0 _ hostOps0_writes (by decide : main_arg5 ∉ hostOps0_W)
    _ = m ((c : Thread nD τ).loc main_arg5) := rfl
/-- Argument 6 ends as launched: no host operation writes it and no region changes it. -/
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps1 _ hostOps1_writes (by decide : main_arg6 ∉ hostOps1_W)
    _ = W3 m c (Proc.devRef .tc main_arg6) := W4_of_ne m c main_arg6 (by decide)
    _ = W2 m c (Proc.devRef .tc main_arg6) := StableHlo.after_of_writes_sub hostOps0_2 _ hostOps0_2_writes (by decide : main_arg6 ∉ hostOps0_2_W)
    _ = W1 m c (Proc.devRef .tc main_arg6) := StableHlo.after_of_writes_sub hostOps0_1 _ hostOps0_1_writes (by decide : main_arg6 ∉ hostOps0_1_W)
    _ = W0 m c (Proc.devRef .tc main_arg6) := StableHlo.after_of_writes_sub hostOps0 _ hostOps0_writes (by decide : main_arg6 ∉ hostOps0_W)
    _ = m ((c : Thread nD τ).loc main_arg6) := rfl
/-- Argument 7 ends as launched: no host operation writes it and no region changes it. -/
theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_of_ne m c main_arg7 (by decide)
    _ = W4 m c (Proc.devRef .tc main_arg7) := StableHlo.after_of_writes_sub hostOps1 _ hostOps1_writes (by decide : main_arg7 ∉ hostOps1_W)
    _ = W3 m c (Proc.devRef .tc main_arg7) := W4_of_ne m c main_arg7 (by decide)
    _ = W2 m c (Proc.devRef .tc main_arg7) := StableHlo.after_of_writes_sub hostOps0_2 _ hostOps0_2_writes (by decide : main_arg7 ∉ hostOps0_2_W)
    _ = W1 m c (Proc.devRef .tc main_arg7) := StableHlo.after_of_writes_sub hostOps0_1 _ hostOps0_1_writes (by decide : main_arg7 ∉ hostOps0_1_W)
    _ = W0 m c (Proc.devRef .tc main_arg7) := StableHlo.after_of_writes_sub hostOps0 _ hostOps0_writes (by decide : main_arg7 ∉ hostOps0_W)
    _ = m ((c : Thread nD τ).loc main_arg7) := rfl

/-! ## The proof data family and the thread state -/

abbrev admT : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admT p) c
  | ⟨0, _⟩ => fun c => dat0 (VE0 m) c
  | ⟨1, _⟩ => fun c => dat1 (VE1 m) c
abbrev 𝒱T : Variants := Variants.none
abbrev LT : GSem nD τ sig → Finset Unit := fun _ => ∅
abbrev lvT : GSem nD τ sig → Unit → ℕ := fun _ _ => 0
/-- What rides beside the buffers through every segment: the generator register at some state, and the core owing nothing. -/
abbrev RT (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱T LT lvT :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RT
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnT (c : Dev nD) : sProp 𝕄 := iprop(StableHlo.held (c : Thread nD τ) (Pipeline.ucRefs τ sig) (W6 m c) ∗ ∃ r, prngReg c r)

/-! ## The regions as segments -/

set_option backward.isDefEq.respectTransparency.types false in
/-- REGION 0 over the thread state: entered from every unscoped buffer at `W3`, left at `W4`. Its arrays are
    split out of the unscoped buffers and put back at the exit contents; the generator register goes into the region's
    invariant and comes out; nothing is owed; the kernel has no semaphore of its own. -/
def reg0 : Pipeline.RegionSeg (pcfgs (F := F)) admT (pdats m) () defs₀ 𝒱T LT lvT 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ LT lvT 0 fun _ _ => rfl
  pre c := iprop(StableHlo.held (c : Thread nD τ) (Pipeline.ucRefs τ sig) (W3 m c) ∗ RT c)
  post c := iprop(StableHlo.held (c : Thread nD τ) (Pipeline.ucRefs τ sig) (W4 m c) ∗ RT c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) admT (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (admT (F := F) 0).1 ∗ Pipeline.scopedRest spec0 c) : sProp 𝕄)
        ⊢ Pipeline.ΦA spec0 c := by
      unfold Pipeline.ΦA
      iintro ⟨Hp, -, Hr⟩
      isplitl [Hr]; · iexact Hr
      iexact Hp
    exact h1.trans (hin0 (VE0 m) c)
  hout c := by
    rw [Pipeline.ownSems0_none]
    have h1 : Pipeline.ΦA spec0 c ⊢ (iprop((∃ r, prngReg c r) ∗ BI.emp ∗ Pipeline.scopedRest spec0 c) : sProp 𝕄) := by
      unfold Pipeline.ΦA
      iintro ⟨Hr, Hp⟩
      isplitl [Hp]; · iexact Hp
      isplitr; · iempintro
      iexact Hr
    exact (hout0 (VE0 m) c).trans h1
  hexit c := by
    have hjoin := Pipeline.unscopedBufs_of_arrays (p := 0) (pcfgs (F := F)) admT (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`. Its arrays are
    split out of the unscoped buffers and put back at the exit contents; the generator register goes into the region's
    invariant and comes out; nothing is owed; the kernel has no semaphore of its own. -/
def reg1 : Pipeline.RegionSeg (pcfgs (F := F)) admT (pdats m) () defs₀ 𝒱T LT lvT 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ LT lvT 1 fun _ _ => rfl
  pre c := iprop(StableHlo.held (c : Thread nD τ) (Pipeline.ucRefs τ sig) (W5 m c) ∗ RT c)
  post c := iprop(TnT m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) admT (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsT : List (Pipeline.Seg (pcfgs (F := F)) admT (pdats m) () defs₀ 𝒱T LT lvT) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m) ]

theorem main_run (c : Dev nD) : main (F := F) c = Pipeline.Seg.run (segsT m) := (main_chain c).trans (by chain_rfl)

set_option backward.isDefEq.respectTransparency.types false in
/-- Every weakly fair execution of @main from memory `m` with zero counters terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) admT (pdats m) () cellOf_inj emb₁ defs₀ 𝒱T LT lvT m ρ main (segsT m)
    (fun c Q => by rw [main_run m c])
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RT c)) (Tₙ := TnT m)
    (hch := ⟨fun _ => .rfl, fun _ => .rfl, fun _ => .rfl, fun _ => .rfl, fun _ => .rfl, fun _ => .rfl, fun _ => .rfl⟩)
    (hinit := by
      refine Pipeline.initEach LT lvT fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME at any `F`: @main runs to the end, faults nowhere, and leaves its eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W6_main_arg0 m c), (h c _ (mem_uc main_arg1 (by decide))).trans (W6_main_arg1 m c),
     (h c _ (mem_uc main_arg2 (by decide))).trans (W6_main_arg2 m c), (h c _ (mem_uc main_arg3 (by decide))).trans (W6_main_arg3 m c),
     (h c _ (mem_uc main_arg4 (by decide))).trans (W6_main_arg4 m c), (h c _ (mem_uc main_arg5 (by decide))).trans (W6_main_arg5 m c),
     (h c _ (mem_uc main_arg6 (by decide))).trans (W6_main_arg6 m c), (h c _ (mem_uc main_arg7 (by decide))).trans (W6_main_arg7 m c)⟩)
    (run_all m ρ)

end Cert.Kernel.Frame

end
-- ==== Proof.KernelIdealFrame.Common.lean ====
/-
  What the two kernel regions' proofs share. The first kernel (the linear layer, the graph norm and the running
  column sums) branches twice on the grid coordinate: it clears its two accumulators at the first row block and
  copies them into the two sum outputs at the last one; so a grid point is in one of three cases — first, middle,
  last — and the two sum outputs are idle (neither stored nor written back) everywhere but at the last point.
  Here: those two conditions in closed form over the 50 row blocks, where each window is idle, names for the
  staging and scratch memrefs at a point, and the class invariant with the two accumulators spelt as owned memrefs.
-/
import proofs.«102301_j38998303048417_1_alg».proof.Proof.Gen.KernelIdeal.Launch
import proofs.«102301_j38998303048417_1_alg».proof.Proof.Gen.KernelIdeal.Skeleton
import proofs.«102301_j38998303048417_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first kernel's two branch conditions -/

/-- "This is the first row block": the condition under which the accumulators are cleared. -/
abbrev cond0_0 (i : grid0.Coords) : Prop :=
  (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- "This is the last row block": the condition under which the accumulators are copied to the sum outputs. -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the first kernel's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last row block the two sum outputs are idle and not written back. -/
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
/-- At the last row block they are stored. -/
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-! ## The memrefs a point's body is called with -/

abbrev ms0_0 (t : Fin cfg0.N) : Memref sig .tc .vmem S2000x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2000x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2000x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
/-- The two accumulators: whole scoped buffers of the kernel's own. -/
abbrev scM0_0 : Memref sig .tc .vmem S1x128 .f32 := Memref.whole cc0_scratch0
abbrev scM0_1 : Memref sig .tc .vmem S1x128 .f32 := Memref.whole cc0_scratch1
/-- Views through which buffer contents are read back (any staging buffer of the window would do). -/
abbrev VS0_0 : View sig .tc .vmem S1x128 .f32 := scM0_0.view
abbrev VS0_1 : View sig .tc .vmem S1x128 .f32 := scM0_1.view
abbrev VO0_4 : View sig .tc .vmem S2000x128 .f32 := (Memref.whole cc0_stg4_0 : Memref sig .tc .vmem S2000x128 .f32).view
abbrev VO0_5 : View sig .tc .vmem S1x128 .f32 := (Memref.whole cc0_stg5_0 : Memref sig .tc .vmem S1x128 .f32).view
abbrev VO0_6 : View sig .tc .vmem S1x128 .f32 := (Memref.whole cc0_stg6_0 : Memref sig .tc .vmem S1x128 .f32).view

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x128 .f32 := win1_5.stage (cfg1.slots t 5)
abbrev hs1_5 (t : Fin cfg1.N) : (ms1_5 t).IsWhole := hstage1_5 ((cfg1.slots t 5).cast nbuf1_5)
abbrev VO1_5 : View sig .tc .vmem S2000x128 .f32 := (Memref.whole cc1_stg5_0 : Memref sig .tc .vmem S2000x128 .f32).view

/-! ## The class invariants, the scratch spelt out -/

/-- The second kernel's staging buffers: scoped buffers the first region neither stages nor touches, each whole at some
    contents. They ride through the first region inside its invariant. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The first region's invariant before its first point: the two accumulators at anything, the second kernel's staging
    buffers, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.KernelIdeal.Frame

end
-- ==== Proof.KernelIdealFrame.RunA.lean ====
/-
  The first kernel's body at the FIRST row block, run whole: the accumulators are cleared, the block of the linear layer's
  scaled output is stored, each accumulator takes that block's column sums, and the two sum outputs are left as found.
  What each written buffer ends with is recorded as the list of pieces the run stored (last first).
-/
import proofs.«102301_j38998303048417_1_alg».proof.Proof.KernelIdealFrame.Common

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S2000x384 .f32) (x1 : Vec F S384x128 .bf16) (x2 : Vec F S1x128 .f32) (x3 : Vec F S2000x1 .f32) :
    Σ' (L4 : List (View.Piece (Elt F) S2000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__linear_graphnorm_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__linear_graphnorm_kernel_eq_skeleton]; unfold cc0__linear_graphnorm_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Frame

end
-- ==== Proof.KernelIdealFrame.RunB.lean ====
/-
  The first kernel's body at a MIDDLE row block, run whole: nothing is cleared and nothing copied out; the block of the
  linear layer's scaled output is stored and each accumulator, found at what the block before left, takes this
  block's column sums on top. The two sum outputs are left as found.
-/
import proofs.«102301_j38998303048417_1_alg».proof.Proof.KernelIdealFrame.RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S2000x384 .f32) (x1 : Vec F S384x128 .bf16) (x2 : Vec F S1x128 .f32) (x3 : Vec F S2000x1 .f32) (xs0 xs1 : Vec F S1x128 .f32) :
    Σ' (L4 : List (View.Piece (Elt F) S2000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__linear_graphnorm_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__linear_graphnorm_kernel_eq_skeleton]; unfold cc0__linear_graphnorm_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Frame

end
-- ==== Proof.KernelIdealFrame.RunC.lean ====
/-
  The first kernel's body at the LAST row block, run whole: as at a middle block, and then each accumulator is copied
  into its sum output, whose staging buffer (at anything before) ends holding it.
-/
import proofs.«102301_j38998303048417_1_alg».proof.Proof.KernelIdealFrame.RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S2000x384 .f32) (x1 : Vec F S384x128 .bf16) (x2 : Vec F S1x128 .f32) (x3 : Vec F S2000x1 .f32) (xs0 xs1 : Vec F S1x128 .f32) :
    Σ' (L4 : List (View.Piece (Elt F) S2000x128 .f32)) (L5 L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__linear_graphnorm_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__linear_graphnorm_kernel_eq_skeleton]; unfold cc0__linear_graphnorm_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Frame

end
-- ==== Proof.KernelIdealFrame.Data0.lean ====
/-
  The first region's proof data, at the contents `V` the region is entered with.
  After the body at row block t: the block of the scaled linear output in the first output's buffer; in the two
  accumulators the running column sums (of the entries, of their squares) over blocks 0..t — each point's case run at
  what the point before left; and at the last block the accumulators copied into the two sum outputs' buffers.
  The region's invariant between points carries the two accumulators at exactly those contents (beside the second
  kernel's untouched staging buffers and the generator register); before the first point they hold anything.
  The body obligation is the three cases' runs, chosen by the block number.
-/
import proofs.«102301_j38998303048417_1_alg».proof.Proof.KernelIdealFrame.RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at row block `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The runs' pieces cover the buffers they write -/

theorem cover0_A_4 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S2000x384 .f32) (x1 : Vec F S384x128 .bf16) (x2 : Vec F S1x128 .f32) (x3 : Vec F S2000x1 .f32)  (y : S2000x128.Idx) :
    ∃ pc ∈ (kernelRun0_A c i arg1 harg1 arg2 harg2 arg3 harg3 arg4 harg4 arg5 harg5 arg6 harg6 arg7 harg7 arg8 harg8 arg9 harg9 hc0 hc1 x0 x1 x2 x3 ).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 ).1 S2000x128.size (by sl_kernel_rfl) y
theorem scover0_A_0 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S2000x384 .f32) (x1 : Vec F S384x128 .bf16) (x2 : Vec F S1x128 .f32) (x3 : Vec F S2000x1 .f32)  (y : S1x128.Idx) :
    ∃ pc ∈ (kernelRun0_A c i arg1 harg1 arg2 harg2 arg3 harg3 arg4 harg4 arg5 harg5 arg6 harg6 arg7 harg7 arg8 harg8 arg9 harg9 hc0 hc1 x0 x1 x2 x3 ).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 ).2.1 S1x128.size (by sl_kernel_rfl) y
theorem scover0_A_1 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S2000x384 .f32) (x1 : Vec F S384x128 .bf16) (x2 : Vec F S1x128 .f32) (x3 : Vec F S2000x1 .f32)  (y : S1x128.Idx) :
    ∃ pc ∈ (kernelRun0_A c i arg1 harg1 arg2 harg2 arg3 harg3 arg4 harg4 arg5 harg5 arg6 harg6 arg7 harg7 arg8 harg8 arg9 harg9 hc0 hc1 x0 x1 x2 x3 ).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 ).2.2.1 S1x128.size (by sl_kernel_rfl) y
theorem cover0_B_4 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S2000x384 .f32) (x1 : Vec F S384x128 .bf16) (x2 : Vec F S1x128 .f32) (x3 : Vec F S2000x1 .f32) (xs0 xs1 : Vec F S1x128 .f32) (y : S2000x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).1 S2000x128.size (by sl_kernel_rfl) y
theorem scover0_B_0 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S2000x384 .f32) (x1 : Vec F S384x128 .bf16) (x2 : Vec F S1x128 .f32) (x3 : Vec F S2000x1 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y
theorem scover0_B_1 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S2000x384 .f32) (x1 : Vec F S384x128 .bf16) (x2 : Vec F S1x128 .f32) (x3 : Vec F S2000x1 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y
theorem cover0_C_4 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S2000x384 .f32) (x1 : Vec F S384x128 .bf16) (x2 : Vec F S1x128 .f32) (x3 : Vec F S2000x1 .f32) (xs0 xs1 : Vec F S1x128 .f32) (y : S2000x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).1 S2000x128.size (by sl_kernel_rfl) y
theorem cover0_C_5 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S2000x384 .f32) (x1 : Vec F S384x128 .bf16) (x2 : Vec F S1x128 .f32) (x3 : Vec F S2000x1 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.1 S1x128.size (by sl_kernel_rfl) y
theorem cover0_C_6 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S2000x384 .f32) (x1 : Vec F S384x128 .bf16) (x2 : Vec F S1x128 .f32) (x3 : Vec F S2000x1 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.1 S1x128.size (by sl_kernel_rfl) y
theorem scover0_C_0 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S2000x384 .f32) (x1 : Vec F S384x128 .bf16) (x2 : Vec F S1x128 .f32) (x3 : Vec F S2000x1 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.2.1 S1x128.size (by sl_kernel_rfl) y
theorem scover0_C_1 (c : Dev nD) (i : grid0.Coords) (arg1 : Memref sig .tc .vmem S2000x384 .f32) (harg1 : arg1.IsWhole) (arg2 : Memref sig .tc .vmem S384x128 .bf16) (harg2 : arg2.IsWhole) (arg3 : Memref sig .tc .vmem S1x128 .f32) (harg3 : arg3.IsWhole) (arg4 : Memref sig .tc .vmem S2000x1 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S2000x384 .f32) (x1 : Vec F S384x128 .bf16) (x2 : Vec F S1x128 .f32) (x3 : Vec F S2000x1 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 xs0 xs1).2.2.2.2.1 S1x128.size (by sl_kernel_rfl) y

/-! ## What a point leaves, case by case -/

/-- What a point leaves: the first output's block, the two sum outputs' buffers, the two accumulators. -/
abbrev Left (F : FTy → Type) : Type := Vec F S2000x128 .f32 × Vec F S1x128 .f32 × Vec F S1x128 .f32 × Vec F S1x128 .f32 × Vec F S1x128 .f32

/-- At the first row block. The sum outputs are idle: placeholders nothing consults. -/
def leftA (c : Dev nD) (t : Fin cfg0.N) (hc0 : cond0_0 (grid0.coords t)) (hc1 : ¬cond0_1 (grid0.coords t)) : Left F :=
  (VO0_4.read (Elt F) (VO0_4.writes (Elt F) VO0_4.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t)).1),
   VO0_5.read (Elt F) (VO0_5.writes (Elt F) VO0_5.junk []),
   VO0_6.read (Elt F) (VO0_6.writes (Elt F) VO0_6.junk []),
   VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t)).2.1),
   VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t)).2.2.1))

/-- At a middle row block, over the accumulators `xs0`, `xs1` the block before left. -/
def leftB (c : Dev nD) (t : Fin cfg0.N) (hc0 : ¬cond0_0 (grid0.coords t)) (hc1 : ¬cond0_1 (grid0.coords t)) (xs0 xs1 : Vec F S1x128 .f32) : Left F :=
  (VO0_4.read (Elt F) (VO0_4.writes (Elt F) VO0_4.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).1),
   VO0_5.read (Elt F) (VO0_5.writes (Elt F) VO0_5.junk []),
   VO0_6.read (Elt F) (VO0_6.writes (Elt F) VO0_6.junk []),
   VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.1),
   VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.2.1))

/-- At the last row block, over the accumulators the block before left. -/
def leftC (c : Dev nD) (t : Fin cfg0.N) (hc0 : ¬cond0_0 (grid0.coords t)) (hc1 : cond0_1 (grid0.coords t)) (xs0 xs1 : Vec F S1x128 .f32) : Left F :=
  (VO0_4.read (Elt F) (VO0_4.writes (Elt F) VO0_4.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).1),
   VO0_5.read (Elt F) (VO0_5.writes (Elt F) VO0_5.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.1),
   VO0_6.read (Elt F) (VO0_6.writes (Elt F) VO0_6.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.2.1),
   VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.2.2.1),
   VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.2.2.2.1))

/-- A row block after the first is not the first. -/
theorem ncond0_0_succ (n : ℕ) (hn : n + 1 < cfg0.N) : ¬cond0_0 (grid0.coords ⟨n + 1, hn⟩) := fun h => by
  have h' := (hcond0_0 ⟨n + 1, hn⟩).mp h
  have hN : n + 1 < 50 := lt_of_lt_of_eq hn (show cfg0.N = 50 from N_0)
  (try dsimp only at h'); omega

/-- THE ACCUMULATION: what the buffers hold after the body at row block `n`, by recursion on `n` — the first block's
    case at 0; afterwards the middle or the last block's case over the accumulators block `n - 1` left. -/
def outsAt0 (c : Dev nD) : (n : ℕ) → n < cfg0.N → Left F
  | 0, hn => leftA V c ⟨0, hn⟩ ((hcond0_0 ⟨0, hn⟩).mpr (Nat.zero_mod _)) (fun h => (fun h => by (try dsimp only at h); omega) ((hcond0_1 ⟨0, hn⟩).mp h))
  | n + 1, hn =>
    if h1 : (n + 1) % 50 = 49 then
      leftC V c ⟨n + 1, hn⟩ (ncond0_0_succ n hn) ((hcond0_1 ⟨n + 1, hn⟩).mpr h1) (outsAt0 c n (Nat.lt_of_succ_lt hn)).2.2.2.1 (outsAt0 c n (Nat.lt_of_succ_lt hn)).2.2.2.2
    else
      leftB V c ⟨n + 1, hn⟩ (ncond0_0_succ n hn) (fun h => h1 ((hcond0_1 ⟨n + 1, hn⟩).mp h)) (outsAt0 c n (Nat.lt_of_succ_lt hn)).2.2.2.1 (outsAt0 c n (Nat.lt_of_succ_lt hn)).2.2.2.2

theorem outsAt0_A (c : Dev nD) (t : Fin cfg0.N) (h0 : t.val % 50 = 0) (h1 : ¬t.val % 50 = 49) :
    outsAt0 V c t.val t.isLt = leftA V c t ((hcond0_0 t).mpr h0) (fun h => h1 ((hcond0_1 t).mp h)) := by
  obtain ⟨n, hn⟩ := t
  cases n with
  | zero => exact rfl
  | succ n =>
    exfalso
    have hN : n + 1 < 50 := lt_of_lt_of_eq hn (show cfg0.N = 50 from N_0)
    (try dsimp only at h0); omega

theorem outsAt0_B (c : Dev nD) (t : Fin cfg0.N) (h0 : ¬t.val % 50 = 0) (h1 : ¬t.val % 50 = 49) :
    outsAt0 V c t.val t.isLt = leftB V c t (fun h => h0 ((hcond0_0 t).mp h)) (fun h => h1 ((hcond0_1 t).mp h))
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 50 = 0) (h1 : t.val % 50 = 49) :
    outsAt0 V c t.val t.isLt = leftC V c t (fun h => h0 ((hcond0_0 t).mp h)) ((hcond0_1 t).mpr h1)
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_pos h1).trans rfl

/-! ## The invariant between points -/

/-- Before row block `n`: before the first, the class's invariant (the accumulators at anything); afterwards each
    accumulator at what block `n - 1` left, beside the second kernel's staging buffers and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.KernelIdeal.Frame

end
-- ==== Proof.KernelIdealFrame.Body0.lean ====
/-
  The first region's body obligation: at every row block the body, handed the input blocks, the output buffers and the
  invariant's accumulators, leaves what the proof data say. The block number selects the case: block 0 clears and
  starts the accumulators (they may hold anything before); blocks 1..48 add to what the block before left; block 49
  also copies the accumulators out. Away from block 49 the two sum outputs are idle and handed back untouched.
-/
import proofs.«102301_j38998303048417_1_alg».proof.Proof.KernelIdealFrame.Data0

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at row block `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 50 = 0
  · -- the first row block
    have h1 : ¬t.val % 50 = 49 := by omega
    have hz : t.val = 0 := by omega
    rw [Dat.leavesExact_idle (dat0 V c) 5 t (idleAt0_5 t (fun h => h1 ((hcond0_1 t).mp h))) (noFlush0_5 t (fun h => h1 ((hcond0_1 t).mp h))),
      Dat.leavesExact_idle (dat0 V c) 6 t (idleAt0_6 t (fun h => h1 ((hcond0_1 t).mp h))) (noFlush0_6 t (fun h => h1 ((hcond0_1 t).mp h)))]
    rw [outsAt0_A V c t h0 h1]
    unfold leftA; (try dsimp only)
    rw [PhiS_castSucc V c t, PhiS_zero V c _ _ hz, PhiA0_eq]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hrest Hg]
    · isplitr [Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _ _)
    isplitl [H5]; · iexists _; iexact H5
    iexists _; iexact H6
  · by_cases h1 : t.val % 50 = 49
    · -- the last row block
      have hz : t.val ≠ 0 := by omega
      rw [show (dat0 V c).leavesExact 5 t = owns (c : Thread nD τ) (ms0_5 t) fullShare ((dat0 V c).after 5 t) from by
        unfold Dat.leavesExact; rw [liveAt0_5 t ((hcond0_1 t).mpr h1)], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold leftC; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hrest Hg]
      · isplitr [Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _ _ _)
    · -- a middle row block
      have hz : t.val ≠ 0 := by omega
      rw [Dat.leavesExact_idle (dat0 V c) 5 t (idleAt0_5 t (fun h => h1 ((hcond0_1 t).mp h))) (noFlush0_5 t (fun h => h1 ((hcond0_1 t).mp h))),
        Dat.leavesExact_idle (dat0 V c) 6 t (idleAt0_6 t (fun h => h1 ((hcond0_1 t).mp h))) (noFlush0_6 t (fun h => h1 ((hcond0_1 t).mp h)))]
      rw [outsAt0_B V c t h0 h1]
      unfold leftB; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hrest Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _)
      isplitl [H5]; · iexists _; iexact H5
      iexists _; iexact H6

/-- The library's body obligation, at every row block. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first row block. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last row block the invariant gives the class's back: the accumulators' contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 50 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, Hrest⟩, Hg⟩
  isplitr [Hg]
  · isplitl [HS0]; · iexists _; iexact HS0
    isplitl [HS1]; · iexists _; iexact HS1
    iexact Hrest
  iexact Hg

end Cert.KernelIdeal.Frame

end
-- ==== Proof.KernelIdealFrame.Run1.lean ====
/-
  The second kernel's body (batch-norm affine map and ReLU on one row block), run whole: one store of the whole output
  block; the five input blocks are left as found.
-/
import proofs.«102301_j38998303048417_1_alg».proof.Proof.KernelIdealFrame.Common

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) :
    { L5 : List (View.Piece (Elt F) S2000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__finalize_kernel i arg1 harg1 arg2 harg2 arg3 harg3 arg4 harg4 arg5 harg5 arg6 harg6) K } := by
  refine ⟨?_, fun E K => ?run⟩
  case run =>
    simp only [cc1__finalize_kernel_eq_skeleton]; unfold cc1__finalize_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Frame

end
-- ==== Proof.KernelIdealFrame.Data1.lean ====
/-
  The second region's proof data and body obligation, at the contents `V` the region is entered with: every point
  stores its whole output block, a function of the point's five input blocks only; nothing is carried between points.
-/
import proofs.«102301_j38998303048417_1_alg».proof.Proof.KernelIdealFrame.Run1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at row block `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The run's one piece covers the output block. -/
theorem cover1_5 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (y : S2000x128.Idx) :
    ∃ pc ∈ (kernelRun1 c i arg1 harg1 arg2 harg2 arg3 harg3 arg4 harg4 arg5 harg5 arg6 harg6 x0 x1 x2 x3 x4).1, y ∈ pc.1.set :=
  View.cover_of_tiledL (kernelRun1 c i arg1 harg1 arg2 harg2 arg3 harg3 arg4 harg4 arg5 harg5 arg6 harg6 x0 x1 x2 x3 x4).1 S2000x128.size (by sl_kernel_rfl) y

/-- What the body leaves in the output's staging buffer at row block `t`. -/
def out1_5 (c : Dev nD) (t : Fin cfg1.N) : Vec F S2000x128 .f32 :=
  VO1_5.read (Elt F) (VO1_5.writes (Elt F) VO1_5.junk (kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)).1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at row block `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1_5
  iintro ⟨HΦ, Ho, ⟨%d0, H0⟩, ⟨%d1, H1⟩, ⟨%d2, H2⟩, ⟨%d3, H3⟩, ⟨%d4, H4⟩, ⟨%d5, H5⟩⟩
  iapply ((kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KernelIdealFrame.Main.lean ====
/-
  THE RUN. @main is three stretches of host operations (the graph aggregation that builds the Chebyshev features), the
  first kernel region, a stretch of host operations (mean and variance from the two column sums), the second kernel
  region. The buffer contents at each boundary are a fold from the launch memory: a host stretch applies its
  operations; a region leaves its input arrays as entered and each output array at what its write-backs leave.
  Every weakly fair execution terminates with every unscoped buffer at the last boundary's contents; the arguments
  are read back through the fold to their launch contents.
-/
import proofs.«102301_j38998303048417_1_alg».proof.Proof.KernelIdealFrame.Body0
import proofs.«102301_j38998303048417_1_alg».proof.Proof.KernelIdealFrame.Data1
import proofs.«102301_j38998303048417_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
/-- At the first region's entry: the Chebyshev features, the weight in the narrow format and the bias row are in place. -/
abbrev W3 : Dev nD → Valuation τ sig (Elt F) := fun c => StableHlo.after hostOps0_2 (W2 m c)
/-- The same read at the TensorCore's references (what the first region's proof data take). -/
abbrev VE0 : (c : Dev nD) → (b : Ref sig .tc) → Buf (Elt F) ((c : Thread nD τ).loc b) := fun c b => W3 m c b
/-- At the first region's exit: its arrays at what the pipeline leaves, every other buffer as entered. -/
def W4 (c : Dev nD) : Valuation τ sig (Elt F) :=
  Pipeline.withArrays spec0 c (W3 m c) fun w => (dat0 (VE0 m) c).arrAt w cfg0.N
theorem W4_arr (c : Dev nD) (w : Fin cfg0.W) :
    W4 m c (Proc.devRef .tc (Pipeline.arrRef spec0 w)) = (dat0 (VE0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev VX0 : (c : Dev nD) → (b : Ref sig .tc) → Buf (Elt F) ((c : Thread nD τ).loc b) := fun c b => W4 m c b
theorem hF0 (c : Dev nD) (w : Fin cfg0.W) : (dat0 (VE0 m) c).arrAt w cfg0.N = VX0 m c (Pipeline.arrRef spec0 w) :=
  (W4_arr m c w).symm
theorem hrest0 (c : Dev nD) : ∀ b, b ∉ Finset.univ.image (Pipeline.arrRef spec0) → VX0 m c b = VE0 m c b :=
  fun b hb => W4_of_ne m c b fun w e => hb (Finset.mem_image.mpr ⟨w, Finset.mem_univ _, e⟩)

/-- At the second region's entry: mean and variance rows are in place. -/
abbrev W5 : Dev nD → Valuation τ sig (Elt F) := fun c => StableHlo.after hostOps1 (W4 m c)
abbrev VE1 : (c : Dev nD) → (b : Ref sig .tc) → Buf (Elt F) ((c : Thread nD τ).loc b) := fun c b => W5 m c b
/-- At the second region's exit, which is the end of @main. -/
def W6 (c : Dev nD) : Valuation τ sig (Elt F) :=
  Pipeline.withArrays spec1 c (W5 m c) fun w => (dat1 (VE1 m) c).arrAt w cfg1.N
theorem W6_arr (c : Dev nD) (w : Fin cfg1.W) :
    W6 m c (Proc.devRef .tc (Pipeline.arrRef spec1 w)) = (dat1 (VE1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev VX1 : (c : Dev nD) → (b : Ref sig .tc) → Buf (Elt F) ((c : Thread nD τ).loc b) := fun c b => W6 m c b
theorem hF1 (c : Dev nD) (w : Fin cfg1.W) : (dat1 (VE1 m) c).arrAt w cfg1.N = VX1 m c (Pipeline.arrRef spec1 w) :=
  (W6_arr m c w).symm
theorem hrest1 (c : Dev nD) : ∀ b, b ∉ Finset.univ.image (Pipeline.arrRef spec1) → VX1 m c b = VE1 m c b :=
  fun b hb => W6_of_ne m c b fun w e => hb (Finset.mem_image.mpr ⟨w, Finset.mem_univ _, e⟩)

/-! ## The arguments end as launched -/

/-- Argument 0 ends as launched: no host operation writes it and no region changes it. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps1 _ hostOps1_writes (by decide : main_arg0 ∉ hostOps1_W)
    _ = W3 m c (Proc.devRef .tc main_arg0) := W4_of_ne m c main_arg0 (by decide)
    _ = W2 m c (Proc.devRef .tc main_arg0) := StableHlo.after_of_writes_sub hostOps0_2 _ hostOps0_2_writes (by decide : main_arg0 ∉ hostOps0_2_W)
    _ = W1 m c (Proc.devRef .tc main_arg0) := StableHlo.after_of_writes_sub hostOps0_1 _ hostOps0_1_writes (by decide : main_arg0 ∉ hostOps0_1_W)
    _ = W0 m c (Proc.devRef .tc main_arg0) := StableHlo.after_of_writes_sub hostOps0 _ hostOps0_writes (by decide : main_arg0 ∉ hostOps0_W)
    _ = m ((c : Thread nD τ).loc main_arg0) := rfl
/-- Argument 1 ends as launched: no host operation writes it and no region changes it. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps1 _ hostOps1_writes (by decide : main_arg1 ∉ hostOps1_W)
    _ = W3 m c (Proc.devRef .tc main_arg1) := (W4_arr m c 3).trans (((dat0 (VE0 m) c).arrAt_in 3 rfl _).trans (A_eq0 (VE0 m) c 3))
    _ = W2 m c (Proc.devRef .tc main_arg1) := StableHlo.after_of_writes_sub hostOps0_2 _ hostOps0_2_writes (by decide : main_arg1 ∉ hostOps0_2_W)
    _ = W1 m c (Proc.devRef .tc main_arg1) := StableHlo.after_of_writes_sub hostOps0_1 _ hostOps0_1_writes (by decide : main_arg1 ∉ hostOps0_1_W)
    _ = W0 m c (Proc.devRef .tc main_arg1) := StableHlo.after_of_writes_sub hostOps0 _ hostOps0_writes (by decide : main_arg1 ∉ hostOps0_W)
    _ = m ((c : Thread nD τ).loc main_arg1) := rfl
/-- Argument 2 ends as launched: no host operation writes it and no region changes it. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps1 _ hostOps1_writes (by decide : main_arg2 ∉ hostOps1_W)
    _ = W3 m c (Proc.devRef .tc main_arg2) := W4_of_ne m c main_arg2 (by decide)
    _ = W2 m c (Proc.devRef .tc main_arg2) := StableHlo.after_of_writes_sub hostOps0_2 _ hostOps0_2_writes (by decide : main_arg2 ∉ hostOps0_2_W)
    _ = W1 m c (Proc.devRef .tc main_arg2) := StableHlo.after_of_writes_sub hostOps0_1 _ hostOps0_1_writes (by decide : main_arg2 ∉ hostOps0_1_W)
    _ = W0 m c (Proc.devRef .tc main_arg2) := StableHlo.after_of_writes_sub hostOps0 _ hostOps0_writes (by decide : main_arg2 ∉ hostOps0_W)
    _ = m ((c : Thread nD τ).loc main_arg2) := rfl
/-- Argument 3 ends as launched: no host operation writes it and no region changes it. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps1 _ hostOps1_writes (by decide : main_arg3 ∉ hostOps1_W)
    _ = W3 m c (Proc.devRef .tc main_arg3) := W4_of_ne m c main_arg3 (by decide)
    _ = W2 m c (Proc.devRef .tc main_arg3) := StableHlo.after_of_writes_sub hostOps0_2 _ hostOps0_2_writes (by decide : main_arg3 ∉ hostOps0_2_W)
    _ = W1 m c (Proc.devRef .tc main_arg3) := StableHlo.after_of_writes_sub hostOps0_1 _ hostOps0_1_writes (by decide : main_arg3 ∉ hostOps0_1_W)
    _ = W0 m c (Proc.devRef .tc main_arg3) := StableHlo.after_of_writes_sub hostOps0 _ hostOps0_writes (by decide : main_arg3 ∉ hostOps0_W)
    _ = m ((c : Thread nD τ).loc main_arg3) := rfl
/-- Argument 4 ends as launched: no host operation writes it and no region changes it. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps1 _ hostOps1_writes (by decide : main_arg4 ∉ hostOps1_W)
    _ = W3 m c (Proc.devRef .tc main_arg4) := W4_of_ne m c main_arg4 (by decide)
    _ = W2 m c (Proc.devRef .tc main_arg4) := StableHlo.after_of_writes_sub hostOps0_2 _ hostOps0_2_writes (by decide : main_arg4 ∉ hostOps0_2_W)
    _ = W1 m c (Proc.devRef .tc main_arg4) := StableHlo.after_of_writes_sub hostOps0_1 _ hostOps0_1_writes (by decide : main_arg4 ∉ hostOps0_1_W)
    _ = W0 m c (Proc.devRef .tc main_arg4) := StableHlo.after_of_writes_sub hostOps0 _ hostOps0_writes (by decide : main_arg4 ∉ hostOps0_W)
    _ = m ((c : Thread nD τ).loc main_arg4) := rfl
/-- Argument 5 ends as launched: no host operation writes it and no region changes it. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps1 _ hostOps1_writes (by decide : main_arg5 ∉ hostOps1_W)
    _ = W3 m c (Proc.devRef .tc main_arg5) := W4_of_ne m c main_arg5 (by decide)
    _ = W2 m c (Proc.devRef .tc main_arg5) := StableHlo.after_of_writes_sub hostOps0_2 _ hostOps0_2_writes (by decide : main_arg5 ∉ hostOps0_2_W)
    _ = W1 m c (Proc.devRef .tc main_arg5) := StableHlo.after_of_writes_sub hostOps0_1 _ hostOps0_1_writes (by decide : main_arg5 ∉ hostOps0_1_W)
    _ = W0 m c (Proc.devRef .tc main_arg5) := StableHlo.after_of_writes_sub hostOps0 _ hostOps0_writes (by decide : main_arg5 ∉ hostOps0_W)
    _ = m ((c : Thread nD τ).loc main_arg5) := rfl
/-- Argument 6 ends as launched: no host operation writes it and no region changes it. -/
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps1 _ hostOps1_writes (by decide : main_arg6 ∉ hostOps1_W)
    _ = W3 m c (Proc.devRef .tc main_arg6) := W4_of_ne m c main_arg6 (by decide)
    _ = W2 m c (Proc.devRef .tc main_arg6) := StableHlo.after_of_writes_sub hostOps0_2 _ hostOps0_2_writes (by decide : main_arg6 ∉ hostOps0_2_W)
    _ = W1 m c (Proc.devRef .tc main_arg6) := StableHlo.after_of_writes_sub hostOps0_1 _ hostOps0_1_writes (by decide : main_arg6 ∉ hostOps0_1_W)
    _ = W0 m c (Proc.devRef .tc main_arg6) := StableHlo.after_of_writes_sub hostOps0 _ hostOps0_writes (by decide : main_arg6 ∉ hostOps0_W)
    _ = m ((c : Thread nD τ).loc main_arg6) := rfl
/-- Argument 7 ends as launched: no host operation writes it and no region changes it. -/
theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_of_ne m c main_arg7 (by decide)
    _ = W4 m c (Proc.devRef .tc main_arg7) := StableHlo.after_of_writes_sub hostOps1 _ hostOps1_writes (by decide : main_arg7 ∉ hostOps1_W)
    _ = W3 m c (Proc.devRef .tc main_arg7) := W4_of_ne m c main_arg7 (by decide)
    _ = W2 m c (Proc.devRef .tc main_arg7) := StableHlo.after_of_writes_sub hostOps0_2 _ hostOps0_2_writes (by decide : main_arg7 ∉ hostOps0_2_W)
    _ = W1 m c (Proc.devRef .tc main_arg7) := StableHlo.after_of_writes_sub hostOps0_1 _ hostOps0_1_writes (by decide : main_arg7 ∉ hostOps0_1_W)
    _ = W0 m c (Proc.devRef .tc main_arg7) := StableHlo.after_of_writes_sub hostOps0 _ hostOps0_writes (by decide : main_arg7 ∉ hostOps0_W)
    _ = m ((c : Thread nD τ).loc main_arg7) := rfl

/-! ## The proof data family and the thread state -/

abbrev admT : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admT p) c
  | ⟨0, _⟩ => fun c => dat0 (VE0 m) c
  | ⟨1, _⟩ => fun c => dat1 (VE1 m) c
abbrev 𝒱T : Variants := Variants.none
abbrev LT : GSem nD τ sig → Finset Unit := fun _ => ∅
abbrev lvT : GSem nD τ sig → Unit → ℕ := fun _ _ => 0
/-- What rides beside the buffers through every segment: the generator register at some state, and the core owing nothing. -/
abbrev RT (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱T LT lvT :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RT
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnT (c : Dev nD) : sProp 𝕄 := iprop(StableHlo.held (c : Thread nD τ) (Pipeline.ucRefs τ sig) (W6 m c) ∗ ∃ r, prngReg c r)

/-! ## The regions as segments -/

set_option backward.isDefEq.respectTransparency.types false in
/-- REGION 0 over the thread state: entered from every unscoped buffer at `W3`, left at `W4`. Its arrays are
    split out of the unscoped buffers and put back at the exit contents; the generator register goes into the region's
    invariant and comes out; nothing is owed; the kernel has no semaphore of its own. -/
def reg0 : Pipeline.RegionSeg (pcfgs (F := F)) admT (pdats m) () defs₀ 𝒱T LT lvT 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ LT lvT 0 fun _ _ => rfl
  pre c := iprop(StableHlo.held (c : Thread nD τ) (Pipeline.ucRefs τ sig) (W3 m c) ∗ RT c)
  post c := iprop(StableHlo.held (c : Thread nD τ) (Pipeline.ucRefs τ sig) (W4 m c) ∗ RT c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) admT (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (admT (F := F) 0).1 ∗ Pipeline.scopedRest spec0 c) : sProp 𝕄)
        ⊢ Pipeline.ΦA spec0 c := by
      unfold Pipeline.ΦA
      iintro ⟨Hp, -, Hr⟩
      isplitl [Hr]; · iexact Hr
      iexact Hp
    exact h1.trans (hin0 (VE0 m) c)
  hout c := by
    rw [Pipeline.ownSems0_none]
    have h1 : Pipeline.ΦA spec0 c ⊢ (iprop((∃ r, prngReg c r) ∗ BI.emp ∗ Pipeline.scopedRest spec0 c) : sProp 𝕄) := by
      unfold Pipeline.ΦA
      iintro ⟨Hr, Hp⟩
      isplitl [Hp]; · iexact Hp
      isplitr; · iempintro
      iexact Hr
    exact (hout0 (VE0 m) c).trans h1
  hexit c := by
    have hjoin := Pipeline.unscopedBufs_of_arrays (p := 0) (pcfgs (F := F)) admT (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`. Its arrays are
    split out of the unscoped buffers and put back at the exit contents; the generator register goes into the region's
    invariant and comes out; nothing is owed; the kernel has no semaphore of its own. -/
def reg1 : Pipeline.RegionSeg (pcfgs (F := F)) admT (pdats m) () defs₀ 𝒱T LT lvT 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ LT lvT 1 fun _ _ => rfl
  pre c := iprop(StableHlo.held (c : Thread nD τ) (Pipeline.ucRefs τ sig) (W5 m c) ∗ RT c)
  post c := iprop(TnT m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) admT (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsT : List (Pipeline.Seg (pcfgs (F := F)) admT (pdats m) () defs₀ 𝒱T LT lvT) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m) ]

theorem main_run (c : Dev nD) : main (F := F) c = Pipeline.Seg.run (segsT m) := (main_chain c).trans (by chain_rfl)

set_option backward.isDefEq.respectTransparency.types false in
/-- Every weakly fair execution of @main from memory `m` with zero counters terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) admT (pdats m) () cellOf_inj emb₁ defs₀ 𝒱T LT lvT m ρ main (segsT m)
    (fun c Q => by rw [main_run m c])
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RT c)) (Tₙ := TnT m)
    (hch := ⟨fun _ => .rfl, fun _ => .rfl, fun _ => .rfl, fun _ => .rfl, fun _ => .rfl, fun _ => .rfl, fun _ => .rfl⟩)
    (hinit := by
      refine Pipeline.initEach LT lvT fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME at any `F`: @main runs to the end, faults nowhere, and leaves its eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W6_main_arg0 m c), (h c _ (mem_uc main_arg1 (by decide))).trans (W6_main_arg1 m c),
     (h c _ (mem_uc main_arg2 (by decide))).trans (W6_main_arg2 m c), (h c _ (mem_uc main_arg3 (by decide))).trans (W6_main_arg3 m c),
     (h c _ (mem_uc main_arg4 (by decide))).trans (W6_main_arg4 m c), (h c _ (mem_uc main_arg5 (by decide))).trans (W6_main_arg5 m c),
     (h c _ (mem_uc main_arg6 (by decide))).trans (W6_main_arg6 m c), (h c _ (mem_uc main_arg7 (by decide))).trans (W6_main_arg7 m c)⟩)
    (run_all m ρ)

end Cert.KernelIdeal.Frame

end
-- ==== Proof.KernelIdealFrame.Pieces.lean ====
/-
  What each case of the two kernel bodies leaves in the buffers it writes, in closed form.

  The runs of the kernel bodies record, for every buffer written, the list of pieces stored (rectangle and payload,
  last first). Every store in these kernels is of a WHOLE buffer through the unit rectangle at zero offsets, so
  what is read back from a buffer after the run is the payload of its last store, and every load of an input
  buffer reads the buffer's contents. Hence each component a point leaves is the corresponding payload function of
  the skeleton applied to the point's input blocks (and, for the two accumulators, to what the point before left).
-/
import proofs.«102301_j38998303048417_1_alg».proof.Proof.KernelIdealFrame.Data0
import proofs.«102301_j38998303048417_1_alg».proof.Proof.KernelIdealFrame.Data1
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a rank-two rectangle, spelt as a literal vector, are the constant zero. -/
theorem hz2 : (![0, 0] : Fin 2 → Nat) = fun _ => 0 := funext fun a => by fin_cases a <;> rfl

/-! ## The second kernel -/

/-- The second kernel's one store is of the whole output block: what is read back is its payload, the affine map and
    rectifier of the point's five input blocks. -/
theorem out1_5_eq (c : Dev nD) (t : Fin cfg1.N) :
    out1_5 V c t = k1_pay1 (iblk1 V c 0 t) (iblk1 V c 2 t) (iblk1 V c 1 t) (iblk1 V c 3 t) (iblk1 V c 4 t) := by
  unfold out1_5
  rw [View.read_writes_eq_canon _ _ _ (cover1_5 c _ _ _ _ _ _ _ _ _ _ _ _ _ _ _ _ _ _)]
  unfold kernelRun1
  dsimp only
  sl_unfold_words
  rw [View.canon_unit_zero (S := S2000x128) hz2]
  simp only [View.readAt_eq_ld, (hs1_0 t).read_unread, (hs1_1 t).read_unread, (hs1_2 t).read_unread, (hs1_3 t).read_unread,
    (hs1_4 t).read_unread, View.ld_unit_zero (S := S2000x128) hz2, View.ld_unit_zero (S := S1x128) hz2]

/-! ## The first kernel's components, one lemma per buffer written -/

/-- A middle row block: the one whole store into the first output's buffer leaves the scaled linear output of the point's blocks. -/
theorem leftB_4 (c : Dev nD) (t : Fin cfg0.N) (hc0 : ¬cond0_0 (grid0.coords t)) (hc1 : ¬cond0_1 (grid0.coords t)) (xs0 xs1 : Vec F S1x128 .f32) :
    VO0_4.read (Elt F) (VO0_4.writes (Elt F) VO0_4.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).1)
      = k0_pay3 (iblk0 V c 0 t) (iblk0 V c 1 t) (iblk0 V c 2 t) (iblk0 V c 3 t) := by
  rw [View.read_writes_eq_canon _ _ _ (cover0_B_4 c _ _ _ _ _ _ _ _ _ _ _ _ _ _ _ _ _ _ _ hc0 hc1 _ _ _ _ xs0 xs1)]
  unfold kernelRun0_B
  dsimp only
  sl_unfold_words
  rw [View.canon_unit_zero (S := S2000x128) hz2]
  simp only [View.readAt_eq_ld, (hs0_0 t).read_unread, (hs0_1 t).read_unread, (hs0_2 t).read_unread, (hs0_3 t).read_unread,
    (Memref.isWhole_whole _ : scM0_0.IsWhole).read_unread, (Memref.isWhole_whole _ : scM0_1.IsWhole).read_unread,
    View.readCov_unit_zero (S := S1x128) _ hz2,
    View.ld_unit_zero (S := S2000x384) hz2, View.ld_unit_zero (S := S384x128) hz2, View.ld_unit_zero (S := S1x128) hz2,
    View.ld_unit_zero (S := S2000x1) hz2]

/-- A middle row block: the one whole store into the first accumulator leaves the column sums added to what the accumulator held. -/
theorem leftB_s0 (c : Dev nD) (t : Fin cfg0.N) (hc0 : ¬cond0_0 (grid0.coords t)) (hc1 : ¬cond0_1 (grid0.coords t)) (xs0 xs1 : Vec F S1x128 .f32) :
    VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.1)
      = k0_pay4 (iblk0 V c 0 t) (iblk0 V c 1 t) (iblk0 V c 2 t) (iblk0 V c 3 t) xs0 := by
  rw [View.read_writes_eq_canon _ _ _ (scover0_B_0 c _ _ _ _ _ _ _ _ _ _ _ _ _ _ _ _ _ _ _ hc0 hc1 _ _ _ _ xs0 xs1)]
  unfold kernelRun0_B
  dsimp only
  sl_unfold_words
  rw [View.canon_unit_zero (S := S1x128) hz2]
  simp only [View.readAt_eq_ld, (hs0_0 t).read_unread, (hs0_1 t).read_unread, (hs0_2 t).read_unread, (hs0_3 t).read_unread,
    (Memref.isWhole_whole _ : scM0_0.IsWhole).read_unread, (Memref.isWhole_whole _ : scM0_1.IsWhole).read_unread,
    View.readCov_unit_zero (S := S1x128) _ hz2,
    View.ld_unit_zero (S := S2000x384) hz2, View.ld_unit_zero (S := S384x128) hz2, View.ld_unit_zero (S := S1x128) hz2,
    View.ld_unit_zero (S := S2000x1) hz2]

/-- A middle row block: the one whole store into the second accumulator leaves the column sums of squares added to what the accumulator held. -/
theorem leftB_s1 (c : Dev nD) (t : Fin cfg0.N) (hc0 : ¬cond0_0 (grid0.coords t)) (hc1 : ¬cond0_1 (grid0.coords t)) (xs0 xs1 : Vec F S1x128 .f32) :
    VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.2.1)
      = k0_pay5 (iblk0 V c 0 t) (iblk0 V c 1 t) (iblk0 V c 2 t) (iblk0 V c 3 t) xs1 := by
  rw [View.read_writes_eq_canon _ _ _ (scover0_B_1 c _ _ _ _ _ _ _ _ _ _ _ _ _ _ _ _ _ _ _ hc0 hc1 _ _ _ _ xs0 xs1)]
  unfold kernelRun0_B
  dsimp only
  sl_unfold_words
  rw [View.canon_unit_zero (S := S1x128) hz2]
  simp only [View.readAt_eq_ld, (hs0_0 t).read_unread, (hs0_1 t).read_unread, (hs0_2 t).read_unread, (hs0_3 t).read_unread,
    (Memref.isWhole_whole _ : scM0_0.IsWhole).read_unread, (Memref.isWhole_whole _ : scM0_1.IsWhole).read_unread,
    View.readCov_unit_zero (S := S1x128) _ hz2,
    View.ld_unit_zero (S := S2000x384) hz2, View.ld_unit_zero (S := S384x128) hz2, View.ld_unit_zero (S := S1x128) hz2,
    View.ld_unit_zero (S := S2000x1) hz2]

/-- The last row block: the first output's buffer holds the scaled linear output of the point's blocks. -/
theorem leftC_4 (c : Dev nD) (t : Fin cfg0.N) (hc0 : ¬cond0_0 (grid0.coords t)) (hc1 : cond0_1 (grid0.coords t)) (xs0 xs1 : Vec F S1x128 .f32) :
    VO0_4.read (Elt F) (VO0_4.writes (Elt F) VO0_4.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).1)
      = k0_pay3 (iblk0 V c 0 t) (iblk0 V c 1 t) (iblk0 V c 2 t) (iblk0 V c 3 t) := by
  rw [View.read_writes_eq_canon _ _ _ (cover0_C_4 c _ _ _ _ _ _ _ _ _ _ _ _ _ _ _ _ _ _ _ hc0 hc1 _ _ _ _ xs0 xs1)]
  unfold kernelRun0_C
  dsimp only
  sl_unfold_words
  rw [View.canon_unit_zero (S := S2000x128) hz2]
  simp only [View.readAt_eq_ld, (hs0_0 t).read_unread, (hs0_1 t).read_unread, (hs0_2 t).read_unread, (hs0_3 t).read_unread,
    (Memref.isWhole_whole _ : scM0_0.IsWhole).read_unread, (Memref.isWhole_whole _ : scM0_1.IsWhole).read_unread,
    View.readCov_unit_zero (S := S1x128) _ hz2,
    View.ld_unit_zero (S := S2000x384) hz2, View.ld_unit_zero (S := S384x128) hz2, View.ld_unit_zero (S := S1x128) hz2,
    View.ld_unit_zero (S := S2000x1) hz2]

/-- The last row block: the first sum output's buffer receives what was just stored in the first accumulator (the accumulator is loaded back after its whole store). -/
theorem leftC_5 (c : Dev nD) (t : Fin cfg0.N) (hc0 : ¬cond0_0 (grid0.coords t)) (hc1 : cond0_1 (grid0.coords t)) (xs0 xs1 : Vec F S1x128 .f32) :
    VO0_5.read (Elt F) (VO0_5.writes (Elt F) VO0_5.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.1)
      = k0_pay4 (iblk0 V c 0 t) (iblk0 V c 1 t) (iblk0 V c 2 t) (iblk0 V c 3 t) xs0 := by
  rw [View.read_writes_eq_canon _ _ _ (cover0_C_5 c _ _ _ _ _ _ _ _ _ _ _ _ _ _ _ _ _ _ _ hc0 hc1 _ _ _ _ xs0 xs1)]
  unfold kernelRun0_C
  dsimp only
  sl_unfold_words
  rw [View.canon_unit_zero (S := S1x128) hz2]
  simp only [View.readAt_eq_ld, (hs0_0 t).read_unread, (hs0_1 t).read_unread, (hs0_2 t).read_unread, (hs0_3 t).read_unread,
    (Memref.isWhole_whole _ : scM0_0.IsWhole).read_unread, (Memref.isWhole_whole _ : scM0_1.IsWhole).read_unread,
    View.readCov_unit_zero (S := S1x128) _ hz2,
    View.ld_unit_zero (S := S2000x384) hz2, View.ld_unit_zero (S := S384x128) hz2, View.ld_unit_zero (S := S1x128) hz2,
    View.ld_unit_zero (S := S2000x1) hz2]

/-- The last row block: the second sum output's buffer receives what was just stored in the second accumulator. -/
theorem leftC_6 (c : Dev nD) (t : Fin cfg0.N) (hc0 : ¬cond0_0 (grid0.coords t)) (hc1 : cond0_1 (grid0.coords t)) (xs0 xs1 : Vec F S1x128 .f32) :
    VO0_6.read (Elt F) (VO0_6.writes (Elt F) VO0_6.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.2.1)
      = k0_pay5 (iblk0 V c 0 t) (iblk0 V c 1 t) (iblk0 V c 2 t) (iblk0 V c 3 t) xs1 := by
  rw [View.read_writes_eq_canon _ _ _ (cover0_C_6 c _ _ _ _ _ _ _ _ _ _ _ _ _ _ _ _ _ _ _ hc0 hc1 _ _ _ _ xs0 xs1)]
  unfold kernelRun0_C
  dsimp only
  sl_unfold_words
  rw [View.canon_unit_zero (S := S1x128) hz2]
  simp only [View.readAt_eq_ld, (hs0_0 t).read_unread, (hs0_1 t).read_unread, (hs0_2 t).read_unread, (hs0_3 t).read_unread,
    (Memref.isWhole_whole _ : scM0_0.IsWhole).read_unread, (Memref.isWhole_whole _ : scM0_1.IsWhole).read_unread,
    View.readCov_unit_zero (S := S1x128) _ hz2,
    View.ld_unit_zero (S := S2000x384) hz2, View.ld_unit_zero (S := S384x128) hz2, View.ld_unit_zero (S := S1x128) hz2,
    View.ld_unit_zero (S := S2000x1) hz2]

/-- The last row block: the first accumulator, as at a middle block. -/
theorem leftC_s0 (c : Dev nD) (t : Fin cfg0.N) (hc0 : ¬cond0_0 (grid0.coords t)) (hc1 : cond0_1 (grid0.coords t)) (xs0 xs1 : Vec F S1x128 .f32) :
    VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.2.2.1)
      = k0_pay4 (iblk0 V c 0 t) (iblk0 V c 1 t) (iblk0 V c 2 t) (iblk0 V c 3 t) xs0 := by
  rw [View.read_writes_eq_canon _ _ _ (scover0_C_0 c _ _ _ _ _ _ _ _ _ _ _ _ _ _ _ _ _ _ _ hc0 hc1 _ _ _ _ xs0 xs1)]
  unfold kernelRun0_C
  dsimp only
  sl_unfold_words
  rw [View.canon_unit_zero (S := S1x128) hz2]
  simp only [View.readAt_eq_ld, (hs0_0 t).read_unread, (hs0_1 t).read_unread, (hs0_2 t).read_unread, (hs0_3 t).read_unread,
    (Memref.isWhole_whole _ : scM0_0.IsWhole).read_unread, (Memref.isWhole_whole _ : scM0_1.IsWhole).read_unread,
    View.readCov_unit_zero (S := S1x128) _ hz2,
    View.ld_unit_zero (S := S2000x384) hz2, View.ld_unit_zero (S := S384x128) hz2, View.ld_unit_zero (S := S1x128) hz2,
    View.ld_unit_zero (S := S2000x1) hz2]

/-- The last row block: the second accumulator, as at a middle block. -/
theorem leftC_s1 (c : Dev nD) (t : Fin cfg0.N) (hc0 : ¬cond0_0 (grid0.coords t)) (hc1 : cond0_1 (grid0.coords t)) (xs0 xs1 : Vec F S1x128 .f32) :
    VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t) xs0 xs1).2.2.2.2.1)
      = k0_pay5 (iblk0 V c 0 t) (iblk0 V c 1 t) (iblk0 V c 2 t) (iblk0 V c 3 t) xs1 := by
  rw [View.read_writes_eq_canon _ _ _ (scover0_C_1 c _ _ _ _ _ _ _ _ _ _ _ _ _ _ _ _ _ _ _ hc0 hc1 _ _ _ _ xs0 xs1)]
  unfold kernelRun0_C
  dsimp only
  sl_unfold_words
  rw [View.canon_unit_zero (S := S1x128) hz2]
  simp only [View.readAt_eq_ld, (hs0_0 t).read_unread, (hs0_1 t).read_unread, (hs0_2 t).read_unread, (hs0_3 t).read_unread,
    (Memref.isWhole_whole _ : scM0_0.IsWhole).read_unread, (Memref.isWhole_whole _ : scM0_1.IsWhole).read_unread,
    View.readCov_unit_zero (S := S1x128) _ hz2,
    View.ld_unit_zero (S := S2000x384) hz2, View.ld_unit_zero (S := S384x128) hz2, View.ld_unit_zero (S := S1x128) hz2,
    View.ld_unit_zero (S := S2000x1) hz2]

/-- The first row block: the first output's buffer holds the scaled linear output of the point's blocks. -/
theorem leftA_4 (c : Dev nD) (t : Fin cfg0.N) (hc0 : cond0_0 (grid0.coords t)) (hc1 : ¬cond0_1 (grid0.coords t)) :
    VO0_4.read (Elt F) (VO0_4.writes (Elt F) VO0_4.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t)).1)
      = k0_pay3 (iblk0 V c 0 t) (iblk0 V c 1 t) (iblk0 V c 2 t) (iblk0 V c 3 t) := by
  rw [View.read_writes_eq_canon _ _ _ (cover0_A_4 c _ _ _ _ _ _ _ _ _ _ _ _ _ _ _ _ _ _ _ hc0 hc1 _ _ _ _)]
  unfold kernelRun0_A
  dsimp only
  sl_unfold_words
  rw [View.canon_unit_zero (S := S2000x128) hz2]
  simp only [View.readAt_eq_ld, (hs0_0 t).read_unread, (hs0_1 t).read_unread, (hs0_2 t).read_unread, (hs0_3 t).read_unread,
    (Memref.isWhole_whole _ : scM0_0.IsWhole).read_unread, (Memref.isWhole_whole _ : scM0_1.IsWhole).read_unread,
    View.readCov_unit_zero (S := S1x128) _ hz2,
    View.ld_unit_zero (S := S2000x384) hz2, View.ld_unit_zero (S := S384x128) hz2, View.ld_unit_zero (S := S1x128) hz2,
    View.ld_unit_zero (S := S2000x1) hz2]

/-- The first row block: the first accumulator is cleared by a whole store, loaded back (reading the cleared contents) and stored whole again with the column sums added; the later store is what remains. -/
theorem leftA_s0 (c : Dev nD) (t : Fin cfg0.N) (hc0 : cond0_0 (grid0.coords t)) (hc1 : ¬cond0_1 (grid0.coords t)) :
    VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t)).2.1)
      = k0_pay4 (iblk0 V c 0 t) (iblk0 V c 1 t) (iblk0 V c 2 t) (iblk0 V c 3 t) (k0_pay1 (F := F)) := by
  rw [View.read_writes_eq_canon _ _ _ (scover0_A_0 c _ _ _ _ _ _ _ _ _ _ _ _ _ _ _ _ _ _ _ hc0 hc1 _ _ _ _)]
  unfold kernelRun0_A
  dsimp only
  sl_unfold_words
  rw [View.canon_cons_unit_zero (S := S1x128) hz2]
  simp only [View.readAt_eq_ld, (hs0_0 t).read_unread, (hs0_1 t).read_unread, (hs0_2 t).read_unread, (hs0_3 t).read_unread,
    (Memref.isWhole_whole _ : scM0_0.IsWhole).read_unread, (Memref.isWhole_whole _ : scM0_1.IsWhole).read_unread,
    View.readCov_unit_zero (S := S1x128) _ hz2,
    View.ld_unit_zero (S := S2000x384) hz2, View.ld_unit_zero (S := S384x128) hz2, View.ld_unit_zero (S := S1x128) hz2,
    View.ld_unit_zero (S := S2000x1) hz2]

/-- The first row block: the second accumulator, cleared then updated in the same way. -/
theorem leftA_s1 (c : Dev nD) (t : Fin cfg0.N) (hc0 : cond0_0 (grid0.coords t)) (hc1 : ¬cond0_1 (grid0.coords t)) :
    VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc0 hc1 (iblk0 V c 0 t) (iblk0 V c 1 t) (iblk0 V c 2 t) (iblk0 V c 3 t)).2.2.1)
      = k0_pay5 (iblk0 V c 0 t) (iblk0 V c 1 t) (iblk0 V c 2 t) (iblk0 V c 3 t) (k0_pay2 (F := F)) := by
  rw [View.read_writes_eq_canon _ _ _ (scover0_A_1 c _ _ _ _ _ _ _ _ _ _ _ _ _ _ _ _ _ _ _ hc0 hc1 _ _ _ _)]
  unfold kernelRun0_A
  dsimp only
  sl_unfold_words
  rw [View.canon_cons_unit_zero (S := S1x128) hz2]
  simp only [View.readAt_eq_ld, (hs0_0 t).read_unread, (hs0_1 t).read_unread, (hs0_2 t).read_unread, (hs0_3 t).read_unread,
    (Memref.isWhole_whole _ : scM0_0.IsWhole).read_unread, (Memref.isWhole_whole _ : scM0_1.IsWhole).read_unread,
    View.readCov_unit_zero (S := S1x128) _ hz2,
    View.ld_unit_zero (S := S2000x384) hz2, View.ld_unit_zero (S := S384x128) hz2, View.ld_unit_zero (S := S1x128) hz2,
    View.ld_unit_zero (S := S2000x1) hz2]

/-! ## The first kernel, case by case -/

/-- What the first row block leaves: the block's scaled linear output, the idle sum outputs, and the accumulators
    cleared then updated. -/
theorem leftA_eq (c : Dev nD) (t : Fin cfg0.N) (hc0 : cond0_0 (grid0.coords t)) (hc1 : ¬cond0_1 (grid0.coords t)) :
    leftA V c t hc0 hc1 =
      (k0_pay3 (iblk0 V c 0 t) (iblk0 V c 1 t) (iblk0 V c 2 t) (iblk0 V c 3 t),
       VO0_5.read (Elt F) (VO0_5.writes (Elt F) VO0_5.junk []), VO0_6.read (Elt F) (VO0_6.writes (Elt F) VO0_6.junk []),
       k0_pay4 (iblk0 V c 0 t) (iblk0 V c 1 t) (iblk0 V c 2 t) (iblk0 V c 3 t) (k0_pay1 (F := F)),
       k0_pay5 (iblk0 V c 0 t) (iblk0 V c 1 t) (iblk0 V c 2 t) (iblk0 V c 3 t) (k0_pay2 (F := F))) := by
  unfold leftA
  exact congr (congrArg Prod.mk (leftA_4 V c t hc0 hc1)) (congrArg (Prod.mk _) (congrArg (Prod.mk _)
    (congr (congrArg Prod.mk (leftA_s0 V c t hc0 hc1)) (leftA_s1 V c t hc0 hc1))))

/-- What a middle row block leaves, over the accumulators the block before left. -/
theorem leftB_eq (c : Dev nD) (t : Fin cfg0.N) (hc0 : ¬cond0_0 (grid0.coords t)) (hc1 : ¬cond0_1 (grid0.coords t)) (xs0 xs1 : Vec F S1x128 .f32) :
    leftB V c t hc0 hc1 xs0 xs1 =
      (k0_pay3 (iblk0 V c 0 t) (iblk0 V c 1 t) (iblk0 V c 2 t) (iblk0 V c 3 t),
       VO0_5.read (Elt F) (VO0_5.writes (Elt F) VO0_5.junk []), VO0_6.read (Elt F) (VO0_6.writes (Elt F) VO0_6.junk []),
       k0_pay4 (iblk0 V c 0 t) (iblk0 V c 1 t) (iblk0 V c 2 t) (iblk0 V c 3 t) xs0,
       k0_pay5 (iblk0 V c 0 t) (iblk0 V c 1 t) (iblk0 V c 2 t) (iblk0 V c 3 t) xs1) := by
  unfold leftB
  exact congr (congrArg Prod.mk (leftB_4 V c t hc0 hc1 xs0 xs1)) (congrArg (Prod.mk _) (congrArg (Prod.mk _)
    (congr (congrArg Prod.mk (leftB_s0 V c t hc0 hc1 xs0 xs1)) (leftB_s1 V c t hc0 hc1 xs0 xs1))))

/-- What the last row block leaves, over the accumulators the block before left: the sum outputs receive the updated
    accumulators. -/
theorem leftC_eq (c : Dev nD) (t : Fin cfg0.N) (hc0 : ¬cond0_0 (grid0.coords t)) (hc1 : cond0_1 (grid0.coords t)) (xs0 xs1 : Vec F S1x128 .f32) :
    leftC V c t hc0 hc1 xs0 xs1 =
      (k0_pay3 (iblk0 V c 0 t) (iblk0 V c 1 t) (iblk0 V c 2 t) (iblk0 V c 3 t),
       k0_pay4 (iblk0 V c 0 t) (iblk0 V c 1 t) (iblk0 V c 2 t) (iblk0 V c 3 t) xs0,
       k0_pay5 (iblk0 V c 0 t) (iblk0 V c 1 t) (iblk0 V c 2 t) (iblk0 V c 3 t) xs1,
       k0_pay4 (iblk0 V c 0 t) (iblk0 V c 1 t) (iblk0 V c 2 t) (iblk0 V c 3 t) xs0,
       k0_pay5 (iblk0 V c 0 t) (iblk0 V c 1 t) (iblk0 V c 2 t) (iblk0 V c 3 t) xs1) := by
  unfold leftC
  exact congr (congrArg Prod.mk (leftC_4 V c t hc0 hc1 xs0 xs1)) (congr (congrArg Prod.mk (leftC_5 V c t hc0 hc1 xs0 xs1))
    (congr (congrArg Prod.mk (leftC_6 V c t hc0 hc1 xs0 xs1))
      (congr (congrArg Prod.mk (leftC_s0 V c t hc0 hc1 xs0 xs1)) (leftC_s1 V c t hc0 hc1 xs0 xs1))))

end Cert.KernelIdeal.Frame

end
-- ==== Proof.KernelIdealValue.Pay.lean ====
/-
  The two kernels' arithmetic read at one element, over the extended reals.

  The first kernel's block value is h = (x · w + bias) · snorm: at row r and column j it is the sum over the 384
  contracted coordinates of x(r, k) · w(k, j), plus the bias row at j, times the row scale at r. Its two running rows
  are the previous row plus the column sums of h, and of h squared, over the block's 2000 rows. The second kernel's
  block value at (r, j) is max(((h − mean) · rsqrt(var + ε)) · γ + β, 0) with the four rows read at column j.
  Format changes are the identity on extended reals, a product into a zero accumulator is the plain sum of products,
  and a column reduction from the zero word is the plain sum.
-/
import proofs.«102301_j38998303048417_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.ValueIdx Cert.KernelIdeal Cert.KernelIdeal.Gen
open scoped BigOperators

/-! ## Layout operations at an index -/

/-- An `[a, 1]` array broadcast to `[a, b]` reads, at `(p, c)`, the operand's one column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The column sum of a `[2000, 128]` block from the zero word, at column `j`: the sum over the rows. -/
private theorem colsum_apply (src : FVec Ideal S2000x128 .f32) (h : S2000x128.Reduces [0] S128) (hφ : FKind.Formats .f32)
    (hacc : (0x00000000#32 : BitVec 32) = FKind.add.neutral .f32 hφ) (j : Fin 128) :
    multiReduction (F := Ideal) .add [0] S128 src 0x00000000#32 h hφ hacc (ix1 j) = ∑ r : Fin 2000, src (ix2 r j) := by
  refine (Ideal.multiReduction_add_single src 0x00000000#32 h hφ hacc (ix1 j)).trans ?_
  refine Finset.sum_congr rfl fun r _ => congrArg src ?_
  funext a
  refine Fin.ext ?_
  match a with
  | ⟨0, _⟩ => rfl
  | ⟨1, _⟩ => rfl

/-! ## The zero rows -/

theorem pay1_apply (j : Fin 128) : k0_pay1 (F := Ideal) (ix2 (0 : Fin 1) j) = (0 : EReal) := by
  unfold k0_pay1
  rw [shapeCast_self]
  exact Ideal.ofBits_zero_f32

theorem pay2_apply (j : Fin 128) : k0_pay2 (F := Ideal) (ix2 (0 : Fin 1) j) = (0 : EReal) := by
  unfold k0_pay2
  rw [shapeCast_self]
  exact Ideal.ofBits_zero_f32

/-! ## The block product -/

theorem lhs_mm_0 (i : S2000x128.Idx) (q : dot_S2000x384_S384x128_S2000x128_1_0_0_1_n_n.contr.Idx) :
    (dot_S2000x384_S384x128_S2000x128_1_0_0_1_n_n.lhsIdx i q 0).val = (i 0).val := by
  unfold DotDims.lhsIdx
  rw [dif_neg (show ¬(0 : Fin S2000x384.rank) ∈ dot_S2000x384_S384x128_S2000x128_1_0_0_1_n_n.lhsBatch by decide), dif_pos (show (0 : Fin S2000x384.rank) ∈ dot_S2000x384_S384x128_S2000x128_1_0_0_1_n_n.lhsNonContracting by decide)]
  rfl
theorem lhs_mm_1 (i : S2000x128.Idx) (q : dot_S2000x384_S384x128_S2000x128_1_0_0_1_n_n.contr.Idx) :
    (dot_S2000x384_S384x128_S2000x128_1_0_0_1_n_n.lhsIdx i q 1).val = (q ⟨0, by decide⟩).val :=
  dot_S2000x384_S384x128_S2000x128_1_0_0_1_n_n.lhsIdx_val_of_single rfl i q
theorem rhs_mm_0 (i : S2000x128.Idx) (q : dot_S2000x384_S384x128_S2000x128_1_0_0_1_n_n.contr.Idx) :
    (dot_S2000x384_S384x128_S2000x128_1_0_0_1_n_n.rhsIdx i q 0).val = (q ⟨0, by decide⟩).val :=
  dot_S2000x384_S384x128_S2000x128_1_0_0_1_n_n.rhsIdx_val_of_single rfl i q
theorem rhs_mm_1 (i : S2000x128.Idx) (q : dot_S2000x384_S384x128_S2000x128_1_0_0_1_n_n.contr.Idx) :
    (dot_S2000x384_S384x128_S2000x128_1_0_0_1_n_n.rhsIdx i q 1).val = (i 1).val := by
  unfold DotDims.rhsIdx
  rw [dif_neg (show ¬(1 : Fin S384x128.rank) ∈ dot_S2000x384_S384x128_S2000x128_1_0_0_1_n_n.rhsBatch by decide), dif_pos (show (1 : Fin S384x128.rank) ∈ dot_S2000x384_S384x128_S2000x128_1_0_0_1_n_n.rhsNonContracting by decide)]
  rfl

/-- The block product into the zero accumulator at `(r, j)`: the sum over the contracted coordinate of the products. -/
private theorem mm_apply (x : FVec Ideal S2000x384 .bf16) (w : FVec Ideal S384x128 .bf16) (r : Fin 2000) (j : Fin 128) :
    matmul dot_S2000x384_S384x128_S2000x128_1_0_0_1_n_n none x w (constant (F := Ideal) S2000x128 .f32 0x00000000#32) (ix2 r j)
      = ∑ k : Fin 384, x (ix2 r k) * w (ix2 k j) := by
  simp only [matmul]
  rw [Ideal.matmul_constant_zero_apply, ← Equiv.sum_comp (contrEquiv1 dot_S2000x384_S384x128_S2000x128_1_0_0_1_n_n 384 rfl rfl).symm]
  refine Finset.sum_congr rfl fun k _ => ?_
  have hk := contrEquiv1_symm_val dot_S2000x384_S384x128_S2000x128_1_0_0_1_n_n 384 rfl rfl k
  have el : dot_S2000x384_S384x128_S2000x128_1_0_0_1_n_n.lhsIdx (ix2 r j) ((contrEquiv1 dot_S2000x384_S384x128_S2000x128_1_0_0_1_n_n 384 rfl rfl).symm k) = ix2 r k := funext fun a => Fin.ext (by
    match a with
    | ⟨0, _⟩ => exact lhs_mm_0 _ _
    | ⟨1, _⟩ => exact (lhs_mm_1 _ _).trans hk)
  have er : dot_S2000x384_S384x128_S2000x128_1_0_0_1_n_n.rhsIdx (ix2 r j) ((contrEquiv1 dot_S2000x384_S384x128_S2000x128_1_0_0_1_n_n 384 rfl rfl).symm k) = ix2 k j := funext fun a => Fin.ext (by
    match a with
    | ⟨0, _⟩ => exact (rhs_mm_0 _ _).trans hk
    | ⟨1, _⟩ => exact rhs_mm_1 _ _)
  rw [el, er]

theorem pay3_apply (x : Vec Ideal S2000x384 .f32) (w : Vec Ideal S384x128 .bf16) (b : Vec Ideal S1x128 .f32) (sn : Vec Ideal S2000x1 .f32) (r : Fin 2000) (j : Fin 128) :
    k0_pay3 (F := Ideal) x w b sn (ix2 r j) = ((∑ k : Fin 384, x (ix2 r k) * w (ix2 k j)) + b (ix2 (0 : Fin 1) j)) * sn (ix2 r (0 : Fin 1)) := by
  unfold k0_pay3
  simp only [shapeCast_self]
  rw [mulf_apply, addf_apply, mm_apply, broadcastTo_1b_ab_apply, broadcastTo_a1_ab_apply]
  rfl

/-! ## The running rows -/

theorem pay4_apply (x : Vec Ideal S2000x384 .f32) (w : Vec Ideal S384x128 .bf16) (b : Vec Ideal S1x128 .f32) (sn : Vec Ideal S2000x1 .f32) (acc : Vec Ideal S1x128 .f32) (j : Fin 128) :
    k0_pay4 (F := Ideal) x w b sn acc (ix2 (0 : Fin 1) j) = acc (ix2 (0 : Fin 1) j) + ∑ r : Fin 2000, k0_pay3 (F := Ideal) x w b sn (ix2 r j) := by
  unfold k0_pay4
  simp only [shapeCast_self]
  rw [addf_apply, shapeCast_a_1a_apply]
  exact congrArg (acc (ix2 (0 : Fin 1) j) + ·) (colsum_apply _ _ _ _ j)

theorem pay5_apply (x : Vec Ideal S2000x384 .f32) (w : Vec Ideal S384x128 .bf16) (b : Vec Ideal S1x128 .f32) (sn : Vec Ideal S2000x1 .f32) (acc : Vec Ideal S1x128 .f32) (j : Fin 128) :
    k0_pay5 (F := Ideal) x w b sn acc (ix2 (0 : Fin 1) j) = acc (ix2 (0 : Fin 1) j) + ∑ r : Fin 2000, k0_pay3 (F := Ideal) x w b sn (ix2 r j) * k0_pay3 (F := Ideal) x w b sn (ix2 r j) := by
  unfold k0_pay5
  simp only [shapeCast_self]
  rw [addf_apply, shapeCast_a_1a_apply]
  exact congrArg (acc (ix2 (0 : Fin 1) j) + ·) (colsum_apply _ _ _ _ j)

/-! ## The finalizing block -/

/-- operand order as in the skeleton: k1_pay1 v0 v2 v7 v13 v17 = (h block, VARIANCE row, MEAN row, gamma row, beta row). -/
theorem k1_apply (h : Vec Ideal S2000x128 .f32) (var mean gam bet : Vec Ideal S1x128 .f32) (r : Fin 2000) (j : Fin 128) :
    k1_pay1 (F := Ideal) h var mean gam bet (ix2 r j)
      = max (((h (ix2 r j) - mean (ix2 (0 : Fin 1) j)) * Ideal.rsqrt (var (ix2 (0 : Fin 1) j) + Ideal.ofBits .f32 0x3727C5AC#32)) * gam (ix2 (0 : Fin 1) j) + bet (ix2 (0 : Fin 1) j)) (0 : EReal) := by
  unfold k1_pay1
  simp only [shapeCast_self]
  rw [maximumf_apply, addf_apply, mulf_apply, mulf_apply, subf_apply, broadcastTo_1b_ab_apply, broadcastTo_1b_ab_apply,
    broadcastTo_1b_ab_apply, broadcastTo_1b_ab_apply, broadcast_apply]
  show max _ (Ideal.ofBits .f32 0x00000000#32) = _
  rw [Ideal.ofBits_zero_f32]
  rfl

end Cert.KernelIdeal.Val

end
-- ==== Proof.Algebra.lean ====
/-
  Pure algebra on the extended reals joining two ways of computing a variance.

  One side accumulates column sums over 50 blocks of 2000 rows and forms E[h²] − (E[h])²; the other forms
  E[(h − E[h])²] over all 100000 rows at once. The lemmas here are: a double sum over (block, row in block) is
  the single sum over all rows; a running sum is its start value plus a finite sum; two 32-bit words denote the
  reals 100000 and 0; and, for real entries, the mean of the squared deviations is the mean of the squares
  minus the square of the mean.
-/
import Idealize.ShloMosaic.PureOps.Ideal
import Mathlib.Algebra.BigOperators.Fin
import Mathlib.Data.EReal.Basic
import Mathlib.Algebra.BigOperators.Ring.Finset
import Mathlib.Logic.Equiv.Fin.Basic
import Mathlib.Tactic.Ring
import Mathlib.Tactic.NormNum

noncomputable section

namespace Cert.Proof.Algebra

open Idealize.ShloMosaic
open scoped BigOperators

/-- 50 blocks of 2000 consecutive rows are the 100000 rows: a double sum over (block, row in block) is the single sum. -/
theorem sum_blocks {M : Type} [AddCommMonoid M] (f : ℕ → M) :
    ∑ t : Fin 50, ∑ r : Fin 2000, f (2000 * t.val + r.val) = ∑ i : Fin 100000, f i.val := by
  -- The pair (t, r) ↦ r + 2000 * t is a bijection from the 50 × 2000 pairs onto the 100000 rows.
  rw [← Fintype.sum_prod_type' (f := fun (t : Fin 50) (r : Fin 2000) => f (2000 * t.val + r.val))]
  exact Fintype.sum_equiv (finProdFinEquiv (m := 50) (n := 2000))
    (fun p : Fin 50 × Fin 2000 => f (2000 * p.1.val + p.2.val)) (fun i : Fin 100000 => f i.val)
    (fun p => by
      show f (2000 * p.1.val + p.2.val) = f (p.2.val + 2000 * p.1.val)
      rw [Nat.add_comm])

/-- A running sum that starts from `z` and adds `g t` at step `t`, after step `n`. -/
def accum {M : Type} [AddCommMonoid M] (z : M) (g : ℕ → M) : ℕ → M
  | 0 => z + g 0
  | n + 1 => accum z g n + g (n + 1)

theorem accum_eq {M : Type} [AddCommMonoid M] (z : M) (g : ℕ → M) (n : ℕ) :
    accum z g n = z + ∑ t ∈ Finset.range (n + 1), g t := by
  induction n with
  | zero => simp [accum]
  | succ n ih => rw [accum, ih, Finset.sum_range_succ _ (n + 1), add_assoc]

/-- The 32-bit word 0x47C35000 denotes the real number 100000; the zero word denotes 0. -/
theorem ofBits_1e5 : Ideal.ofBits .f32 0x47C35000#32 = ((100000 : ℝ) : EReal) := by
  -- sign 0, exponent field 143, fraction field 4411392: (2^23 + 4411392) · 2^(143 − 127 − 23) = 12800000 / 128.
  simp [Ideal.ofBits, Ideal.ieee, -EReal.coe_mul]
  norm_num

theorem ofBits_zero : Ideal.ofBits .f32 0x00000000#32 = (0 : EReal) := by
  -- all fields zero: the subnormal branch with fraction 0.
  simp [Ideal.ofBits, Ideal.ieee]

/-- A finite sum of real numbers, taken in the extended reals, is the real sum. -/
private theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The variance identity over the reals, with `c` the reciprocal of the number of entries. -/
private theorem var_real (g : Fin 100000 → ℝ) :
    (∑ i, (g i - (∑ i, g i) * (1 / 100000 : ℝ)) * (g i - (∑ i, g i) * (1 / 100000 : ℝ))) * (1 / 100000 : ℝ)
      = (∑ i, g i * g i) * (1 / 100000 : ℝ)
        - ((∑ i, g i) * (1 / 100000 : ℝ)) * ((∑ i, g i) * (1 / 100000 : ℝ)) := by
  -- Expand (a − μ)² = a² − 2μa + μ², sum termwise; the constant μ² summed 100000 times is 100000 μ².
  generalize hS : (∑ i, g i) = S
  have hexp : ∀ m : ℝ, ∑ i, (g i - m) * (g i - m) = (∑ i, g i * g i) - 2 * m * S + 100000 * (m * m) := by
    intro m
    have h1 : ∀ i, (g i - m) * (g i - m) = g i * g i - 2 * m * g i + m * m := fun i => by ring
    simp only [h1]
    rw [Finset.sum_add_distrib, Finset.sum_sub_distrib, ← Finset.mul_sum, hS, Finset.sum_const,
      Finset.card_univ, Fintype.card_fin, nsmul_eq_mul]
    norm_num
  rw [hexp]
  ring

/-- THE VARIANCE IDENTITY. For real entries h i (no infinity), with μ the mean: the mean of (h − μ)² is the mean of h² minus μ². -/
theorem var_identity (h : Fin 100000 → EReal) (hr : ∀ i, ∃ r : ℝ, h i = (r : EReal)) :
    Ideal.div ((0 : EReal) + ∑ i, (h i - Ideal.div ((0 : EReal) + ∑ i, h i) ((100000 : ℝ) : EReal)) * (h i - Ideal.div ((0 : EReal) + ∑ i, h i) ((100000 : ℝ) : EReal))) ((100000 : ℝ) : EReal)
      = Ideal.div ((0 : EReal) + ∑ i, h i * h i) ((100000 : ℝ) : EReal)
        - Ideal.div ((0 : EReal) + ∑ i, h i) ((100000 : ℝ) : EReal) * Ideal.div ((0 : EReal) + ∑ i, h i) ((100000 : ℝ) : EReal) := by
  -- With every entry real, each sum, difference, product and quotient by 100000 stays real, so the identity
  -- is the one over the reals.
  choose g hg using hr
  have hfun : h = fun i => (g i : EReal) := funext hg
  subst hfun
  have hne : (100000 : ℝ) ≠ 0 := by norm_num
  simp only [zero_add, Ideal.div_coe hne]
  rw [coe_sum Finset.univ g]
  simp only [← EReal.coe_mul, ← EReal.coe_sub]
  rw [coe_sum Finset.univ (fun i => g i * g i),
    coe_sum Finset.univ (fun i => (g i - (∑ i, g i) * (1 / 100000 : ℝ)) * (g i - (∑ i, g i) * (1 / 100000 : ℝ)))]
  simp only [← EReal.coe_mul, ← EReal.coe_sub]
  rw [var_real g]

/-- The same sums are real when the entries are. -/
theorem sum_real (h : Fin 100000 → EReal) (hr : ∀ i, ∃ r : ℝ, h i = (r : EReal)) : ∃ r : ℝ, ∑ i, h i = (r : EReal) := by
  choose g hg using hr
  exact ⟨∑ i, g i, by rw [← coe_sum Finset.univ g]; exact Finset.sum_congr rfl (fun i _ => hg i)⟩

end Cert.Proof.Algebra

end
-- ==== Proof.KernelIdealValue.Region0.lean ====
/-
  What the first kernel region leaves in its three output arrays, element by element, over the extended reals.

  The region runs the body at 50 row blocks of 2000 rows. At every block the body computes the block of
  h = (x · w + bias) · snorm and writes it back, so the first output ends as h, row by row. It keeps two running rows:
  cleared at the first block, then at each block increased by the column sums of the block of h, and of its squares;
  at the last block the running rows are copied into the two sum outputs, which are written back there and nowhere
  else. So the two sum outputs end as the column sums of h, and of its squares, over all 100000 rows: a running sum is
  its start plus a finite sum, and 50 blocks of 2000 rows are the 100000 rows.
-/
import proofs.«102301_j38998303048417_1_alg».proof.Proof.KernelIdealFrame.Pieces
import proofs.«102301_j38998303048417_1_alg».proof.Proof.KernelIdealValue.Pay
import proofs.«102301_j38998303048417_1_alg».proof.Proof.Algebra
import Idealize.ShloMosaic.Lib.Pipeline.Value

set_option maxRecDepth 16384

noncomputable section

namespace Cert.KernelIdeal.Val

open Idealize.ShloMosaic Idealize.ShloMosaic.ValueIdx Cert.KernelIdeal Cert.KernelIdeal.Gen Cert.KernelIdeal.Frame
open scoped BigOperators
open Idealize.ShloMosaic.TcCoe

variable (V : (c : Dev nD) → (b : Ref sig .tc) → Buf (Elt Ideal) ((c : Thread nD τ).loc b))

/-- The h block the body computes at row block t. -/
private def hblk (c : Dev nD) (t : Fin cfg0.N) : FVec Ideal S2000x128 .f32 :=
  k0_pay3 (F := Ideal) (iblk0 V c 0 t) (iblk0 V c 1 t) (iblk0 V c 2 t) (iblk0 V c 3 t)

private theorem lt50 (t : Fin cfg0.N) : t.val < 50 := lt_of_lt_of_eq t.isLt (show cfg0.N = 50 from N_0)

/-- Every point leaves the h block in the first output's buffer. -/
private theorem out_h (c : Dev nD) (t : Fin cfg0.N) : (outsAt0 V c t.val t.isLt).1 = hblk V c t := by
  have ht := lt50 t
  by_cases h0 : t.val % 50 = 0
  · have h1 : ¬ t.val % 50 = 49 := by omega
    rw [outsAt0_A V c t h0 h1, leftA_eq]; rfl
  · by_cases h1 : t.val % 50 = 49
    · rw [outsAt0_C V c t h0 h1, leftC_eq]; rfl
    · rw [outsAt0_B V c t h0 h1, leftB_eq]; rfl

/-- The printed index maps, decided over the grid. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The arrays as functions into the extended reals -/

/-- The features, the weight, the bias row and the row scale as the region finds them. -/
abbrev feat (c : Dev nD) : S100000x384.Idx → EReal := V c main_v47
abbrev wgt (c : Dev nD) : S384x128.Idx → EReal := V c main_v48
abbrev bias (c : Dev nD) : S1x128.Idx → EReal := V c main_v49
abbrev snorm (c : Dev nD) : S100000x1.Idx → EReal := V c main_arg1
/-- The three output arrays after the region. -/
abbrev hArr (c : Dev nD) : S100000x128.Idx → EReal := (dat0 (F := Ideal) V c).arrAt 4 cfg0.N
abbrev sArr (c : Dev nD) : S1x128.Idx → EReal := (dat0 (F := Ideal) V c).arrAt 5 cfg0.N
abbrev qArr (c : Dev nD) : S1x128.Idx → EReal := (dat0 (F := Ideal) V c).arrAt 6 cfg0.N

/-! ## The input blocks at an element -/

private theorem blk0_apply (c : Dev nD) (t : Fin cfg0.N) (r : Fin 2000) (k : Fin 384) (hR : 2000 * t.val + r.val < 100000) :
    iblk0 V c 0 t (ix2 r k) = V c main_v47 (ix2 (⟨2000 * t.val + r.val, hR⟩ : Fin 100000) k) := by
  obtain ⟨e0, e1, -⟩ := idx_facts t
  show V c main_v47 (((cfg0.win 0).blk t).view.emb (ix2 r k)) = _
  refine congrArg (V c main_v47) (funext fun a => Fin.ext ?_)
  match a with
  | ⟨0, _⟩ => show win0_0.index t (0 : Fin 2) * 2000 + 1 * r.val = 2000 * t.val + r.val; omega
  | ⟨1, _⟩ => show win0_0.index t (1 : Fin 2) * 384 + 1 * k.val = k.val; omega

private theorem blk1_apply (c : Dev nD) (t : Fin cfg0.N) (k : Fin 384) (j : Fin 128) :
    iblk0 V c 1 t (ix2 k j) = V c main_v48 (ix2 k j) := by
  obtain ⟨-, -, e0, e1, -⟩ := idx_facts t
  show V c main_v48 (((cfg0.win 1).blk t).view.emb (ix2 k j)) = _
  refine congrArg (V c main_v48) (funext fun a => Fin.ext ?_)
  match a with
  | ⟨0, _⟩ => show win0_1.index t (0 : Fin 2) * 384 + 1 * k.val = k.val; omega
  | ⟨1, _⟩ => show win0_1.index t (1 : Fin 2) * 128 + 1 * j.val = j.val; omega

private theorem blk2_apply (c : Dev nD) (t : Fin cfg0.N) (j : Fin 128) :
    iblk0 V c 2 t (ix2 (0 : Fin 1) j) = V c main_v49 (ix2 (0 : Fin 1) j) := by
  obtain ⟨-, -, -, -, e0, e1, -⟩ := idx_facts t
  show V c main_v49 (((cfg0.win 2).blk t).view.emb (ix2 (0 : Fin 1) j)) = _
  refine congrArg (V c main_v49) (funext fun a => Fin.ext ?_)
  match a with
  | ⟨0, _⟩ => show win0_2.index t (0 : Fin 2) * 1 + 1 * 0 = 0; omega
  | ⟨1, _⟩ => show win0_2.index t (1 : Fin 2) * 128 + 1 * j.val = j.val; omega

private theorem blk3_apply (c : Dev nD) (t : Fin cfg0.N) (r : Fin 2000) (hR : 2000 * t.val + r.val < 100000) :
    iblk0 V c 3 t (ix2 r (0 : Fin 1)) = V c main_arg1 (ix2 (⟨2000 * t.val + r.val, hR⟩ : Fin 100000) (0 : Fin 1)) := by
  obtain ⟨-, -, -, -, -, -, e0, e1, -⟩ := idx_facts t
  show V c main_arg1 (((cfg0.win 3).blk t).view.emb (ix2 r (0 : Fin 1))) = _
  refine congrArg (V c main_arg1) (funext fun a => Fin.ext ?_)
  match a with
  | ⟨0, _⟩ => show win0_3.index t (0 : Fin 2) * 2000 + 1 * r.val = 2000 * t.val + r.val; omega
  | ⟨1, _⟩ => show win0_3.index t (1 : Fin 2) * 1 + 1 * 0 = 0; omega

/-- h at row R, column j, in closed form. -/
private def hval (c : Dev nD) (R : Fin 100000) (j : Fin 128) : EReal :=
  ((∑ k : Fin 384, feat V c (ix2 R k) * wgt V c (ix2 k j)) + bias V c (ix2 (0 : Fin 1) j)) * snorm V c (ix2 R (0 : Fin 1))

/-- The h block at row block t, at (r, j): h at row 2000 t + r. -/
private theorem hblk_apply (c : Dev nD) (t : Fin cfg0.N) (r : Fin 2000) (j : Fin 128) (hR : 2000 * t.val + r.val < 100000) :
    hblk V c t (ix2 r j) = hval V c ⟨2000 * t.val + r.val, hR⟩ j := by
  unfold hblk hval
  refine (pay3_apply _ _ _ _ r j).trans ?_
  rw [blk3_apply V c t r hR, blk2_apply V c t j]
  refine congrArg (fun s => (s + _) * _) (Finset.sum_congr rfl fun k _ => ?_)
  rw [blk0_apply V c t r k hR, blk1_apply V c t k j]

/-! ## The first output: the h blocks tile the array -/

/-- h as one array. -/
private abbrev G4 (c : Dev nD) : S100000x128.Idx → EReal := fun i => hval V c (i 0) (i 1)

/-- What point t writes back is block t of h. -/
private theorem flushed4_eq (c : Dev nD) (t : Fin cfg0.N) :
    (dat0 (F := Ideal) V c).flushed 4 t = ((cfg0.win 4).blk t).view.read (Elt Ideal) (G4 V c) := by
  show (cfg0.win 4).cut (grid0.coords t) ((dat0 V c).after 4 t) = _
  rw [after0_4, out_h]
  funext y
  obtain ⟨-, -, -, -, -, -, -, -, e0, e1, -⟩ := idx_facts t
  have ht := lt50 t
  have hy0 : (y 0).val < 2000 := (y 0).isLt
  have hy1 : (y 1).val < 128 := (y 1).isLt
  show hblk V c t ((cfg0.win 4).xinj (grid0.coords t) y) = G4 V c (((cfg0.win 4).blk t).view.emb y)
  have hx : (cfg0.win 4).xinj (grid0.coords t) y = ix2 (⟨(y 0).val, hy0⟩ : Fin 2000) (⟨(y 1).val, hy1⟩ : Fin 128) :=
    funext fun a => Fin.ext (by match a with | ⟨0, _⟩ => rfl | ⟨1, _⟩ => rfl)
  rw [hx, hblk_apply V c t _ _ (by show 2000 * t.val + (y 0).val < 100000; omega)]
  show hval V c _ _ = hval V c _ _
  congr 1 <;> apply Fin.ext
  · show 2000 * t.val + (y 0).val = win0_4.index t (0 : Fin 2) * 2000 + 1 * (y 0).val; omega
  · show (y 1).val = win0_4.index t (1 : Fin 2) * 128 + 1 * (y 1).val; omega

/-- h, row r column j: the linear layer on the features' row, plus bias, times that row's graph norm. -/
theorem region0_h (c : Dev nD) (r : Fin 100000) (j : Fin 128) :
    hArr V c (ix2 r j)
      = ((∑ k : Fin 384, feat V c (ix2 r k) * wgt V c (ix2 k j)) + bias V c (ix2 (0 : Fin 1) j)) * snorm V c (ix2 r (0 : Fin 1)) := by
  have hlt : r.val / 2000 < cfg0.N := by rw [show cfg0.N = 50 from N_0]; have := r.isLt; omega
  have hy0 : r.val % 2000 < 2000 := Nat.mod_lt _ (by norm_num)
  obtain ⟨-, -, -, -, -, -, -, -, e0, e1, -⟩ := idx_facts ⟨r.val / 2000, hlt⟩
  have e0' : win0_4.index ⟨r.val / 2000, hlt⟩ (0 : Fin 2) = r.val / 2000 := e0
  have hi : (ix2 r j : S100000x128.Idx)
      = ((cfg0.win 4).blk ⟨r.val / 2000, hlt⟩).view.emb (ix2 (⟨r.val % 2000, hy0⟩ : Fin 2000) j) := funext fun a => Fin.ext (by
    match a with
    | ⟨0, _⟩ =>
      show r.val = win0_4.index ⟨r.val / 2000, hlt⟩ (0 : Fin 2) * 2000 + 1 * (r.val % 2000)
      have := Nat.div_add_mod r.val 2000; omega
    | ⟨1, _⟩ =>
      show j.val = win0_4.index ⟨r.val / 2000, hlt⟩ (1 : Fin 2) * 128 + 1 * j.val
      omega)
  have hmem : (ix2 r j : S100000x128.Idx) ∈ ((cfg0.win 4).blk ⟨r.val / 2000, hlt⟩).view.set :=
    hi ▸ ((cfg0.win 4).blk ⟨r.val / 2000, hlt⟩).view.emb_mem_set _
  exact (dat0 (F := Ideal) V c).arrAt_apply_of_mem 4 (G4 V c) (fun t _ => flushed4_eq V c t) cfg0.N ⟨r.val / 2000, hlt⟩ _
    hlt (flush0_4 _) hmem

/-! ## The running rows -/

/-- The column sums of the h block at row block t, and of its squares (zero past the grid). -/
private def colsum (c : Dev nD) (j : Fin 128) (t : ℕ) : EReal :=
  if h : t < cfg0.N then ∑ r : Fin 2000, hblk V c ⟨t, h⟩ (ix2 r j) else 0
private def colsq (c : Dev nD) (j : Fin 128) (t : ℕ) : EReal :=
  if h : t < cfg0.N then ∑ r : Fin 2000, hblk V c ⟨t, h⟩ (ix2 r j) * hblk V c ⟨t, h⟩ (ix2 r j) else 0

/-- After the first block the running rows are the body's two accumulations over the cleared rows. -/
private theorem acc_zero (c : Dev nD) (hn : 0 < cfg0.N) :
    (outsAt0 V c 0 hn).2.2.2.1 = k0_pay4 (F := Ideal) (iblk0 V c 0 ⟨0, hn⟩) (iblk0 V c 1 ⟨0, hn⟩) (iblk0 V c 2 ⟨0, hn⟩) (iblk0 V c 3 ⟨0, hn⟩) (k0_pay1 (F := Ideal))
    ∧ (outsAt0 V c 0 hn).2.2.2.2 = k0_pay5 (F := Ideal) (iblk0 V c 0 ⟨0, hn⟩) (iblk0 V c 1 ⟨0, hn⟩) (iblk0 V c 2 ⟨0, hn⟩) (iblk0 V c 3 ⟨0, hn⟩) (k0_pay2 (F := Ideal)) := by
  have h := (outsAt0_A V c ⟨0, hn⟩ (Nat.zero_mod 50) (by show ¬ 0 % 50 = 49; omega)).trans (leftA_eq V c ⟨0, hn⟩ _ _)
  exact ⟨congrArg (fun p => p.2.2.2.1) h, congrArg (fun p => p.2.2.2.2) h⟩

/-- After a later block they are the body's two accumulations over what the block before left. -/
private theorem acc_step (c : Dev nD) (n : ℕ) (hn : n + 1 < cfg0.N) :
    (outsAt0 V c (n + 1) hn).2.2.2.1 = k0_pay4 (F := Ideal) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.1
    ∧ (outsAt0 V c (n + 1) hn).2.2.2.2 = k0_pay5 (F := Ideal) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2.2.2.2 := by
  have hN : n + 1 < 50 := lt_of_lt_of_eq hn (show cfg0.N = 50 from N_0)
  have h0 : ¬ (⟨n + 1, hn⟩ : Fin cfg0.N).val % 50 = 0 := by show ¬ (n + 1) % 50 = 0; omega
  by_cases h1 : (⟨n + 1, hn⟩ : Fin cfg0.N).val % 50 = 49
  · have h := (outsAt0_C V c ⟨n + 1, hn⟩ h0 h1).trans (leftC_eq V c ⟨n + 1, hn⟩ _ _ _ _)
    exact ⟨congrArg (fun p => p.2.2.2.1) h, congrArg (fun p => p.2.2.2.2) h⟩
  · have h := (outsAt0_B V c ⟨n + 1, hn⟩ h0 h1).trans (leftB_eq V c ⟨n + 1, hn⟩ _ _ _ _)
    exact ⟨congrArg (fun p => p.2.2.2.1) h, congrArg (fun p => p.2.2.2.2) h⟩

/-- THE RUNNING ROWS after block n, at column j: the running sums, from zero, of the blocks' column sums. -/
private theorem acc_eq (c : Dev nD) (j : Fin 128) : ∀ (n : ℕ) (hn : n < cfg0.N),
    (outsAt0 V c n hn).2.2.2.1 (ix2 (0 : Fin 1) j) = Cert.Proof.Algebra.accum (0 : EReal) (colsum V c j) n
    ∧ (outsAt0 V c n hn).2.2.2.2 (ix2 (0 : Fin 1) j) = Cert.Proof.Algebra.accum (0 : EReal) (colsq V c j) n
  | 0, hn => by
    obtain ⟨h4, h5⟩ := acc_zero V c hn
    refine ⟨?_, ?_⟩
    · rw [h4]
      refine (pay4_apply _ _ _ _ _ j).trans ?_
      rw [pay1_apply j]
      show (0 : EReal) + _ = 0 + colsum V c j 0
      unfold colsum; rw [dif_pos hn]; rfl
    · rw [h5]
      refine (pay5_apply _ _ _ _ _ j).trans ?_
      rw [pay2_apply j]
      show (0 : EReal) + _ = 0 + colsq V c j 0
      unfold colsq; rw [dif_pos hn]; rfl
  | n + 1, hn => by
    obtain ⟨h4, h5⟩ := acc_step V c n hn
    obtain ⟨i4, i5⟩ := acc_eq c j n (Nat.lt_of_succ_lt hn)
    refine ⟨?_, ?_⟩
    · rw [h4]
      refine (pay4_apply _ _ _ _ _ j).trans ?_
      rw [i4]
      show _ = Cert.Proof.Algebra.accum (0 : EReal) (colsum V c j) n + colsum V c j (n + 1)
      unfold colsum; rw [dif_pos hn]; rfl
    · rw [h5]
      refine (pay5_apply _ _ _ _ _ j).trans ?_
      rw [i5]
      show _ = Cert.Proof.Algebra.accum (0 : EReal) (colsq V c j) n + colsq V c j (n + 1)
      unfold colsq; rw [dif_pos hn]; rfl

/-! ## The two sum outputs -/

/-- h at row n, column j, as a function of the row number (zero past the array), and its square. -/
private def rowf (c : Dev nD) (j : Fin 128) (n : ℕ) : EReal := if h : n < 100000 then hval V c ⟨n, h⟩ j else 0
private def rowq (c : Dev nD) (j : Fin 128) (n : ℕ) : EReal := if h : n < 100000 then hval V c ⟨n, h⟩ j * hval V c ⟨n, h⟩ j else 0

private theorem colsum_eq (c : Dev nD) (j : Fin 128) (t : Fin 50) :
    colsum V c j t.val = ∑ r : Fin 2000, rowf V c j (2000 * t.val + r.val) := by
  have ht : t.val < cfg0.N := lt_of_lt_of_eq t.isLt (show cfg0.N = 50 from N_0).symm
  unfold colsum; rw [dif_pos ht]
  refine Finset.sum_congr rfl fun r _ => ?_
  have hR : 2000 * t.val + r.val < 100000 := by have := t.isLt; have := r.isLt; omega
  rw [hblk_apply V c ⟨t.val, ht⟩ r j hR]
  unfold rowf; rw [dif_pos hR]

private theorem colsq_eq (c : Dev nD) (j : Fin 128) (t : Fin 50) :
    colsq V c j t.val = ∑ r : Fin 2000, rowq V c j (2000 * t.val + r.val) := by
  have ht : t.val < cfg0.N := lt_of_lt_of_eq t.isLt (show cfg0.N = 50 from N_0).symm
  unfold colsq; rw [dif_pos ht]
  refine Finset.sum_congr rfl fun r _ => ?_
  have hR : 2000 * t.val + r.val < 100000 := by have := t.isLt; have := r.isLt; omega
  rw [hblk_apply V c ⟨t.val, ht⟩ r j hR]
  unfold rowq; rw [dif_pos hR]

/-- The running sum after the last block is the sum over all 100000 rows. -/
private theorem total_sum (c : Dev nD) (j : Fin 128) :
    Cert.Proof.Algebra.accum (0 : EReal) (colsum V c j) 49 = ∑ R : Fin 100000, hval V c R j := by
  rw [Cert.Proof.Algebra.accum_eq, zero_add, Finset.sum_range (fun t => colsum V c j t)]
  show ∑ t : Fin 50, colsum V c j t.val = _
  rw [Finset.sum_congr rfl (fun t _ => colsum_eq V c j t), Cert.Proof.Algebra.sum_blocks (rowf V c j)]
  exact Finset.sum_congr rfl fun R _ => by unfold rowf; rw [dif_pos R.isLt]

private theorem total_sumsq (c : Dev nD) (j : Fin 128) :
    Cert.Proof.Algebra.accum (0 : EReal) (colsq V c j) 49 = ∑ R : Fin 100000, hval V c R j * hval V c R j := by
  rw [Cert.Proof.Algebra.accum_eq, zero_add, Finset.sum_range (fun t => colsq V c j t)]
  show ∑ t : Fin 50, colsq V c j t.val = _
  rw [Finset.sum_congr rfl (fun t _ => colsq_eq V c j t), Cert.Proof.Algebra.sum_blocks (rowq V c j)]
  exact Finset.sum_congr rfl fun R _ => by unfold rowq; rw [dif_pos R.isLt]

/-- At the last block the two sum outputs' buffers hold the running rows. -/
private theorem out56_eq (c : Dev nD) (t : Fin cfg0.N) (h1 : t.val % 50 = 49) :
    (outsAt0 V c t.val t.isLt).2.1 = (outsAt0 V c t.val t.isLt).2.2.2.1
    ∧ (outsAt0 V c t.val t.isLt).2.2.1 = (outsAt0 V c t.val t.isLt).2.2.2.2 := by
  have h0 : ¬ t.val % 50 = 0 := by omega
  have h := (outsAt0_C V c t h0 h1).trans (leftC_eq V c t _ _ _ _)
  exact ⟨(congrArg (fun p => p.2.1) h).trans (congrArg (fun p => p.2.2.2.1) h).symm,
    (congrArg (fun p => p.2.2.1) h).trans (congrArg (fun p => p.2.2.2.2) h).symm⟩

/-- What the last block writes back into a sum output is that output's whole array. -/
private theorem flushed5_at (c : Dev nD) (t : Fin cfg0.N) :
    (dat0 (F := Ideal) V c).flushed 5 t = ((cfg0.win 5).blk t).view.read (Elt Ideal) ((outsAt0 V c t.val t.isLt).2.1) := by
  show (cfg0.win 5).cut (grid0.coords t) ((dat0 (F := Ideal) V c).after 5 t) = _
  rw [after0_5]
  funext y
  obtain ⟨-, -, -, -, -, -, -, -, -, -, e0, e1, -⟩ := idx_facts t
  show (outsAt0 V c t.val t.isLt).2.1 ((cfg0.win 5).xinj (grid0.coords t) y) = (outsAt0 V c t.val t.isLt).2.1 (((cfg0.win 5).blk t).view.emb y)
  refine congrArg _ (funext fun a => Fin.ext ?_)
  match a with
  | ⟨0, _⟩ => show (y 0).val = win0_5.index t (0 : Fin 2) * 1 + 1 * (y 0).val; omega
  | ⟨1, _⟩ => show (y 1).val = win0_5.index t (1 : Fin 2) * 128 + 1 * (y 1).val; omega

private theorem flushed6_at (c : Dev nD) (t : Fin cfg0.N) :
    (dat0 (F := Ideal) V c).flushed 6 t = ((cfg0.win 6).blk t).view.read (Elt Ideal) ((outsAt0 V c t.val t.isLt).2.2.1) := by
  show (cfg0.win 6).cut (grid0.coords t) ((dat0 (F := Ideal) V c).after 6 t) = _
  rw [after0_6]
  funext y
  obtain ⟨-, -, -, -, -, -, -, -, -, -, -, -, e0, e1⟩ := idx_facts t
  show (outsAt0 V c t.val t.isLt).2.2.1 ((cfg0.win 6).xinj (grid0.coords t) y) = (outsAt0 V c t.val t.isLt).2.2.1 (((cfg0.win 6).blk t).view.emb y)
  refine congrArg _ (funext fun a => Fin.ext ?_)
  match a with
  | ⟨0, _⟩ => show (y 0).val = win0_6.index t (0 : Fin 2) * 1 + 1 * (y 0).val; omega
  | ⟨1, _⟩ => show (y 1).val = win0_6.index t (1 : Fin 2) * 128 + 1 * (y 1).val; omega

/-- The second output after the region, at column j: what the last block left in its buffer. -/
private theorem sArr_eq (c : Dev nD) (j : Fin 128) (t : Fin cfg0.N) (h1 : t.val % 50 = 49) :
    sArr V c (ix2 (0 : Fin 1) j) = (outsAt0 V c t.val t.isLt).2.1 (ix2 (0 : Fin 1) j) := by
  have hf : (cfg0.win 5).flush t = true := (flush0_5 t).mpr h1
  have hG : ∀ t' : Fin cfg0.N, (cfg0.win 5).flush t' = true →
      (dat0 (F := Ideal) V c).flushed 5 t' = ((cfg0.win 5).blk t').view.read (Elt Ideal) ((outsAt0 V c t.val t.isLt).2.1) := by
    intro t' hf'
    have ht' : t' = t := Fin.ext (by have := (flush0_5 t').mp hf'; have := lt50 t; have := lt50 t'; omega)
    rw [ht']; exact flushed5_at V c t
  obtain ⟨-, -, -, -, -, -, -, -, -, -, e0, e1, -⟩ := idx_facts t
  have hi : (ix2 (0 : Fin 1) j : S1x128.Idx) = ((cfg0.win 5).blk t).view.emb (ix2 (0 : Fin 1) j) := funext fun a => Fin.ext (by
    match a with
    | ⟨0, _⟩ => show 0 = win0_5.index t (0 : Fin 2) * 1 + 1 * 0; omega
    | ⟨1, _⟩ => show j.val = win0_5.index t (1 : Fin 2) * 128 + 1 * j.val; omega)
  have hmem : (ix2 (0 : Fin 1) j : S1x128.Idx) ∈ ((cfg0.win 5).blk t).view.set :=
    hi ▸ ((cfg0.win 5).blk t).view.emb_mem_set _
  exact (dat0 (F := Ideal) V c).arrAt_apply_of_mem 5 _ hG cfg0.N t _ t.isLt hf hmem

private theorem qArr_eq (c : Dev nD) (j : Fin 128) (t : Fin cfg0.N) (h1 : t.val % 50 = 49) :
    qArr V c (ix2 (0 : Fin 1) j) = (outsAt0 V c t.val t.isLt).2.2.1 (ix2 (0 : Fin 1) j) := by
  have hf : (cfg0.win 6).flush t = true := (flush0_6 t).mpr h1
  have hG : ∀ t' : Fin cfg0.N, (cfg0.win 6).flush t' = true →
      (dat0 (F := Ideal) V c).flushed 6 t' = ((cfg0.win 6).blk t').view.read (Elt Ideal) ((outsAt0 V c t.val t.isLt).2.2.1) := by
    intro t' hf'
    have ht' : t' = t := Fin.ext (by have := (flush0_6 t').mp hf'; have := lt50 t; have := lt50 t'; omega)
    rw [ht']; exact flushed6_at V c t
  obtain ⟨-, -, -, -, -, -, -, -, -, -, -, -, e0, e1⟩ := idx_facts t
  have hi : (ix2 (0 : Fin 1) j : S1x128.Idx) = ((cfg0.win 6).blk t).view.emb (ix2 (0 : Fin 1) j) := funext fun a => Fin.ext (by
    match a with
    | ⟨0, _⟩ => show 0 = win0_6.index t (0 : Fin 2) * 1 + 1 * 0; omega
    | ⟨1, _⟩ => show j.val = win0_6.index t (1 : Fin 2) * 128 + 1 * j.val; omega)
  have hmem : (ix2 (0 : Fin 1) j : S1x128.Idx) ∈ ((cfg0.win 6).blk t).view.set :=
    hi ▸ ((cfg0.win 6).blk t).view.emb_mem_set _
  exact (dat0 (F := Ideal) V c).arrAt_apply_of_mem 6 _ hG cfg0.N t _ t.isLt hf hmem

/-- the column sums of h, and of its squares, over all 100000 rows -/
theorem region0_sum (c : Dev nD) (j : Fin 128) :
    sArr V c (ix2 (0 : Fin 1) j) = ∑ r : Fin 100000, hArr V c (ix2 r j) := by
  obtain ⟨t, ht⟩ : ∃ t : Fin cfg0.N, t.val = 49 := ⟨⟨49, by rw [show cfg0.N = 50 from N_0]; norm_num⟩, rfl⟩
  have h1 : t.val % 50 = 49 := by omega
  rw [sArr_eq V c j t h1, (out56_eq V c t h1).1, (acc_eq V c j t.val t.isLt).1, ht, total_sum V c j]
  exact Finset.sum_congr rfl fun R _ => (region0_h V c R j).symm

theorem region0_sumsq (c : Dev nD) (j : Fin 128) :
    qArr V c (ix2 (0 : Fin 1) j) = ∑ r : Fin 100000, hArr V c (ix2 r j) * hArr V c (ix2 r j) := by
  obtain ⟨t, ht⟩ : ∃ t : Fin cfg0.N, t.val = 49 := ⟨⟨49, by rw [show cfg0.N = 50 from N_0]; norm_num⟩, rfl⟩
  have h1 : t.val % 50 = 49 := by omega
  rw [qArr_eq V c j t h1, (out56_eq V c t h1).2, (acc_eq V c j t.val t.isLt).2, ht, total_sumsq V c j]
  exact Finset.sum_congr rfl fun R _ => by rw [region0_h V c R j]; rfl

end Cert.KernelIdeal.Val

end
-- ==== Proof.KernelIdealValue.Region1.lean ====
/-
  What the second kernel region leaves in its output array, element by element.

  Point t of the region's grid of 50 row blocks stores, into rows 2000·t … 2000·t + 1999 of the output, the affine map
  and rectifier of the same rows of the first input and of the four 1×128 rows (mean, variance, scale, shift), which
  every point reads whole. The blocks written back tile the 100000 rows, so the output array ends holding, at row r
  and column j, max(((h(r, j) − mean(j)) · rsqrt(var(j) + ε)) · γ(j) + β(j), 0) of the arrays as the region found them.
-/
import proofs.«102301_j38998303048417_1_alg».proof.Proof.KernelIdealFrame.Pieces
import proofs.«102301_j38998303048417_1_alg».proof.Proof.KernelIdealValue.Pay
import Idealize.ShloMosaic.Lib.Pipeline.Value

set_option maxRecDepth 16384

noncomputable section

namespace Cert.KernelIdeal.Val

open Idealize.ShloMosaic Idealize.ShloMosaic.ValueIdx Cert.KernelIdeal Cert.KernelIdeal.Gen Cert.KernelIdeal.Frame
open Idealize.ShloMosaic.TcCoe Idealize.SL Idealize.SL.Sem
open Idealize.ShloMosaic.Pipeline (Dat Cfg Window)
open scoped BigOperators

variable (V : (c : Dev nD) → (b : Ref sig .tc) → Buf (Elt Ideal) ((c : Thread nD τ).loc b))

/-! ## The five arrays the region reads, as arrays of extended reals -/

/-- The first input: the scaled linear output h, 100000 × 128. -/
abbrev fin_h (c : Dev nD) : S100000x128.Idx → EReal := V c main_v50_0
/-- The row of column means. -/
abbrev fin_mean (c : Dev nD) : S1x128.Idx → EReal := V c main_v52
/-- The row of column variances. -/
abbrev fin_var (c : Dev nD) : S1x128.Idx → EReal := V c main_v56
/-- The row of scales γ. -/
abbrev fin_gam (c : Dev nD) : S1x128.Idx → EReal := V c main_v57
/-- The row of shifts β. -/
abbrev fin_bet (c : Dev nD) : S1x128.Idx → EReal := V c main_v58

/-- The region's output as one function of the five arrays it reads: at row r and column j,
    max(((h(r, j) − mean(j)) · rsqrt(var(j) + ε)) · γ(j) + β(j), 0). -/
def fin1 (c : Dev nD) : S100000x128.Idx → EReal := fun i =>
  max (((fin_h V c i - fin_mean V c (ix2 (0 : Fin 1) (i 1))) * Ideal.rsqrt (fin_var V c (ix2 (0 : Fin 1) (i 1)) + Ideal.ofBits .f32 0x3727C5AC#32))
    * fin_gam V c (ix2 (0 : Fin 1) (i 1)) + fin_bet V c (ix2 (0 : Fin 1) (i 1))) (0 : EReal)

/-! ## The index maps over the grid -/

/-- Decided over the 50 points: the first input's and the output's windows sit at row block t (and column block 0); the
    four row windows sit at block (0, 0) at every point. -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-! ## What a point writes back -/

/-- WHAT POINT t WRITES BACK is block t of the closed form: the body's payload at (r', j) reads the first input at the
    same place of the array as the output's block does (both windows sit at row block t), and the four rows at
    column j (their windows sit at block (0, 0) at every point). -/
theorem flushed1_5_eq (c : Dev nD) (t : Fin cfg1.N) :
    (dat1 (F := Ideal) V c).flushed 5 t = ((cfg1.win 5).blk t).view.read (Elt Ideal) (fin1 V c) := by
  show (cfg1.win 5).cut (grid1.coords t) ((dat1 (F := Ideal) V c).after 5 t) = _
  rw [after1_5, out1_5_eq]
  refine funext fun (y : S2000x128.Idx) => ?_
  obtain ⟨r', j', rfl⟩ : ∃ (r' : Fin 2000) (j' : Fin 128), y = ix2 r' j' := ⟨y 0, y 1, eq_ix2 y⟩
  show k1_pay1 (F := Ideal) (iblk1 V c 0 t) (iblk1 V c 2 t) (iblk1 V c 1 t) (iblk1 V c 3 t) (iblk1 V c 4 t) (ix2 r' j')
    = fin1 V c (((cfg1.win 5).blk t).view.emb (ix2 r' j'))
  refine (k1_apply (iblk1 V c 0 t) (iblk1 V c 2 t) (iblk1 V c 1 t) (iblk1 V c 3 t) (iblk1 V c 4 t) r' j').trans ?_
  obtain ⟨e00, e01, e50, e51, e10, e11, e20, e21, e30, e31, e40, e41⟩ := idx_facts1 t
  have h0 : ((cfg1.win 0).blk t).view.emb (ix2 r' j') = ((cfg1.win 5).blk t).view.emb (ix2 r' j') := by
    funext a; apply Fin.ext
    match a with
    | ⟨0, _⟩ => show win1_0.index t (0 : Fin 2) * 2000 + 1 * r'.val = win1_5.index t (0 : Fin 2) * 2000 + 1 * r'.val; omega
    | ⟨1, _⟩ => show win1_0.index t (1 : Fin 2) * 128 + 1 * j'.val = win1_5.index t (1 : Fin 2) * 128 + 1 * j'.val; omega
  have h1 : ((cfg1.win 1).blk t).view.emb (ix2 (0 : Fin 1) j') = ix2 (0 : Fin 1) ((((cfg1.win 5).blk t).view.emb (ix2 r' j')) 1) := by
    funext a; apply Fin.ext
    match a with
    | ⟨0, _⟩ => show win1_1.index t (0 : Fin 2) * 1 + 1 * 0 = 0; omega
    | ⟨1, _⟩ => show win1_1.index t (1 : Fin 2) * 128 + 1 * j'.val = win1_5.index t (1 : Fin 2) * 128 + 1 * j'.val; omega
  have h2 : ((cfg1.win 2).blk t).view.emb (ix2 (0 : Fin 1) j') = ix2 (0 : Fin 1) ((((cfg1.win 5).blk t).view.emb (ix2 r' j')) 1) := by
    funext a; apply Fin.ext
    match a with
    | ⟨0, _⟩ => show win1_2.index t (0 : Fin 2) * 1 + 1 * 0 = 0; omega
    | ⟨1, _⟩ => show win1_2.index t (1 : Fin 2) * 128 + 1 * j'.val = win1_5.index t (1 : Fin 2) * 128 + 1 * j'.val; omega
  have h3 : ((cfg1.win 3).blk t).view.emb (ix2 (0 : Fin 1) j') = ix2 (0 : Fin 1) ((((cfg1.win 5).blk t).view.emb (ix2 r' j')) 1) := by
    funext a; apply Fin.ext
    match a with
    | ⟨0, _⟩ => show win1_3.index t (0 : Fin 2) * 1 + 1 * 0 = 0; omega
    | ⟨1, _⟩ => show win1_3.index t (1 : Fin 2) * 128 + 1 * j'.val = win1_5.index t (1 : Fin 2) * 128 + 1 * j'.val; omega
  have h4 : ((cfg1.win 4).blk t).view.emb (ix2 (0 : Fin 1) j') = ix2 (0 : Fin 1) ((((cfg1.win 5).blk t).view.emb (ix2 r' j')) 1) := by
    funext a; apply Fin.ext
    match a with
    | ⟨0, _⟩ => show win1_4.index t (0 : Fin 2) * 1 + 1 * 0 = 0; omega
    | ⟨1, _⟩ => show win1_4.index t (1 : Fin 2) * 128 + 1 * j'.val = win1_5.index t (1 : Fin 2) * 128 + 1 * j'.val; omega
  show max (((fin_h V c (((cfg1.win 0).blk t).view.emb (ix2 r' j')) - fin_mean V c (((cfg1.win 1).blk t).view.emb (ix2 (0 : Fin 1) j')))
      * Ideal.rsqrt (fin_var V c (((cfg1.win 2).blk t).view.emb (ix2 (0 : Fin 1) j')) + Ideal.ofBits .f32 0x3727C5AC#32))
      * fin_gam V c (((cfg1.win 3).blk t).view.emb (ix2 (0 : Fin 1) j')) + fin_bet V c (((cfg1.win 4).blk t).view.emb (ix2 (0 : Fin 1) j'))) (0 : EReal) = _
  rw [h0, h1, h2, h3, h4]
  rfl

/-! ## The blocks written back tile the array -/

/-- An index of the output array is in point t's block iff each coordinate is in the block's range on its axis. -/
theorem mem_blk1_5 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v59).slice (win1_5.rect t)).set ↔ _
  rw [View.set_slice_whole, Rect.mem_set_unit]
  exact Iff.rfl

/-- Every index of the output array is in the block some point writes back: row r is in the block of point r / 2000. -/
theorem covered1_5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by rw [hN]; omega⟩, rfl⟩
  refine ⟨t, flush1_5 t, ?_⟩
  rw [mem_blk1_5]
  obtain ⟨-, -, e50, e51, -⟩ := idx_facts1 t
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE OUTPUT ARRAY after the region: the closed form of the five arrays as the region found them. -/
theorem final1_5 (c : Dev nD) : (dat1 (F := Ideal) V c).arrAt 5 cfg1.N = fin1 V c :=
  (dat1 (F := Ideal) V c).arrAt_eq_of_cover 5 (fin1 V c) (fun t _ => flushed1_5_eq V c t) covered1_5

/-! ## The region's value at an element -/

/-- The second kernel's arithmetic at one element, of the element of h, and the mean, variance, scale and shift of its
    column: max(((h − mean) · rsqrt(var + ε)) · γ + β, 0), ε the 32-bit word 0x3727C5AC. -/
def finalize1 (h mean var gam bet : EReal) : EReal :=
  max (((h - mean) * Ideal.rsqrt (var + Ideal.ofBits .f32 0x3727C5AC#32)) * gam + bet) (0 : EReal)

theorem finalize1_def (h mean var gam bet : EReal) :
    finalize1 h mean var gam bet = max (((h - mean) * Ideal.rsqrt (var + Ideal.ofBits .f32 0x3727C5AC#32)) * gam + bet) (0 : EReal) := rfl

/-- What the second region leaves at row r and column j of its output array, of the arrays as the region found them. -/
theorem region1_value (c : Dev nD) (r : Fin 100000) (j : Fin 128) :
    (dat1 (F := Ideal) V c).arrAt 5 cfg1.N (ix2 r j)
      = finalize1 (V c main_v50_0 (ix2 r j)) (V c main_v52 (ix2 (0 : Fin 1) j)) (V c main_v56 (ix2 (0 : Fin 1) j))
          (V c main_v57 (ix2 (0 : Fin 1) j)) (V c main_v58 (ix2 (0 : Fin 1) j)) :=
  (congrFun (final1_5 V c) (ix2 r j)).trans rfl

end Cert.KernelIdeal.Val

end
-- ==== Proof.RefImports.lean ====
/- The reference side's generated run and read-at-an-index lemmas, gathered under one import. -/
import proofs.«102301_j38998303048417_1_alg».proof.Proof.Gen.ReferenceIdeal.Run
import proofs.«102301_j38998303048417_1_alg».proof.Proof.Gen.ReferenceIdeal.Read
-- ==== Proof.KernelIdealValue.Host.lean ====
/-
  What the host stretches of the program put in the buffers the two kernel regions read, over the extended reals.

  Before the first region the host builds the Chebyshev features (the same operations, on the same inputs, as the
  reference applies), narrows the weight (the identity over the extended reals) and reshapes the bias vector to a
  row. Between the regions it divides the two column sums the first region leaves by the number of rows and forms
  the variance as the mean of squares minus the square of the mean, and reshapes the scale and shift vectors to
  rows. An argument array is written by no host operation, so it is read as launched.
-/
import proofs.«102301_j38998303048417_1_alg».proof.Proof.KernelIdealFrame.Main
import proofs.«102301_j38998303048417_1_alg».proof.Proof.RefImports
import proofs.«102301_j38998303048417_1_alg».proof.Proof.Algebra
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
set_option maxRecDepth 16384
noncomputable section
namespace Cert.KernelIdeal.Val
open Idealize.ShloMosaic Idealize.ShloMosaic.ValueIdx Cert.KernelIdeal Cert.KernelIdeal.Gen Cert.KernelIdeal.Frame

variable (m : (ℓ : Loc nD τ sig) → Buf (Elt Ideal) ℓ)
open Idealize.ShloMosaic.TcCoe

/-! ## Arguments are read as launched -/

/-- No host stretch before the first region writes a given reference outside their write lists. -/
private theorem W3_of (c : Dev nD) (r : Ref sig .tc) (h2 : r ∉ hostOps0_2_W) (h1 : r ∉ hostOps0_1_W) (h0 : r ∉ hostOps0_W) :
    W3 (F := Ideal) m c (Proc.devRef .tc r) = m ((c.tc : Thread nD τ).loc r) :=
  calc W3 m c (Proc.devRef .tc r)
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c.tc : Thread nD τ).loc r) := rfl

theorem host_sn (c : Dev nD) : VE0 (F := Ideal) m c main_arg1 = m ((c.tc : Thread nD τ).loc main_arg1) :=
  W3_of m c main_arg1 (by decide) (by decide) (by decide)

/-- The first region leaves the scale vector as launched. -/
private theorem W4_arg6 (c : Dev nD) : W4 (F := Ideal) m c (Proc.devRef .tc main_arg6) = m ((c.tc : Thread nD τ).loc main_arg6) :=
  (W4_of_ne m c main_arg6 (by decide)).trans (W3_of m c main_arg6 (by decide) (by decide) (by decide))
/-- The first region leaves the shift vector as launched. -/
private theorem W4_arg7 (c : Dev nD) : W4 (F := Ideal) m c (Proc.devRef .tc main_arg7) = m ((c.tc : Thread nD τ).loc main_arg7) :=
  (W4_of_ne m c main_arg7 (by decide)).trans (W3_of m c main_arg7 (by decide) (by decide) (by decide))

/-- The host stretch between the regions does not write the first region's main output. -/
theorem host_h (c : Dev nD) : VE1 (F := Ideal) m c main_v50_0 = VX0 (F := Ideal) m c main_v50_0 :=
  StableHlo.after_of_writes_sub hostOps1 _ hostOps1_writes (by decide : main_v50_0 ∉ hostOps1_W)

/-! ## Reshapes and the narrowing before the first region -/

theorem host_w (c : Dev nD) (k : Fin 384) (j : Fin 128) :
    VE0 (F := Ideal) m c main_v48 (ix2 k j) = m ((c.tc : Thread nD τ).loc main_arg4) (ix2 k j) := by
  have e : (VE0 (F := Ideal) m c main_v48 : S384x128.Idx → EReal)
      = truncf (F := Ideal) .bf16 (m ((c.tc : Thread nD τ).loc main_arg4)) bitsLt_bf16_f32 := by
    dsimp only [VE0, W3, W2, W1, W0]
    after_results_simp <;> rfl
  rw [e]; rfl

theorem host_b (c : Dev nD) (j : Fin 128) :
    VE0 (F := Ideal) m c main_v49 (ix2 (0 : Fin 1) j) = m ((c.tc : Thread nD τ).loc main_arg5) (ix1 j) := by
  have e : (VE0 (F := Ideal) m c main_v49 : S1x128.Idx → EReal)
      = shapeCast S1x128 (m ((c.tc : Thread nD τ).loc main_arg5)) shapeCasts_S128_S1x128 := by
    dsimp only [VE0, W3, W2, W1, W0]
    after_results_simp <;> rfl
  rw [e]; exact shapeCast_a_1a_apply _ _ 0 j

/-! ## Between the regions -/

theorem host_gam (c : Dev nD) (j : Fin 128) :
    VE1 (F := Ideal) m c main_v57 (ix2 (0 : Fin 1) j) = m ((c.tc : Thread nD τ).loc main_arg6) (ix1 j) := by
  have e : (VE1 (F := Ideal) m c main_v57 : S1x128.Idx → EReal)
      = shapeCast S1x128 (W4 (F := Ideal) m c (Proc.devRef .tc main_arg6)) shapeCasts_S128_S1x128 := by
    dsimp only [VE1, W5]
    after_results_simp <;> rfl
  rw [e, W4_arg6]; exact shapeCast_a_1a_apply _ _ 0 j

theorem host_bet (c : Dev nD) (j : Fin 128) :
    VE1 (F := Ideal) m c main_v58 (ix2 (0 : Fin 1) j) = m ((c.tc : Thread nD τ).loc main_arg7) (ix1 j) := by
  have e : (VE1 (F := Ideal) m c main_v58 : S1x128.Idx → EReal)
      = shapeCast S1x128 (W4 (F := Ideal) m c (Proc.devRef .tc main_arg7)) shapeCasts_S128_S1x128 := by
    dsimp only [VE1, W5]
    after_results_simp <;> rfl
  rw [e, W4_arg7]; exact shapeCast_a_1a_apply _ _ 0 j

/-- The mean row and the variance row at the second region's entry, read as arrays of extended reals (the element
    type of a buffer is the extended reals only after its reference's type is unfolded, so arithmetic on entries
    is stated over these readers). -/
abbrev meanRow (c : Dev nD) : S1x128.Idx → EReal := VE1 (F := Ideal) m c main_v52
abbrev varRow (c : Dev nD) : S1x128.Idx → EReal := VE1 (F := Ideal) m c main_v56

/-- The mean row: the first column sum divided, entry by entry, by the constant row of the word denoting 100000. -/
private theorem mean_row (c : Dev nD) :
    (VE1 (F := Ideal) m c main_v52 : S1x128.Idx → EReal)
      = Host.divf (F := Ideal) (VX0 (F := Ideal) m c main_v50_1)
          (broadcastInDim S1x128 ![] bcast_S_S1x128 (constant (F := Ideal) S_ .f32 0x47C35000#32)) := by
  dsimp only [VE1, W5, VX0]
  after_results_simp <;> rfl

theorem host_mean (c : Dev nD) (j : Fin 128) :
    VE1 (F := Ideal) m c main_v52 (ix2 (0 : Fin 1) j)
      = Ideal.div (VX0 (F := Ideal) m c main_v50_1 (ix2 (0 : Fin 1) j)) ((100000 : ℝ) : EReal) := by
  rw [mean_row]
  show Ideal.div (VX0 (F := Ideal) m c main_v50_1 (ix2 (0 : Fin 1) j)) (Ideal.ofBits .f32 0x47C35000#32) = _
  rw [Cert.Proof.Algebra.ofBits_1e5]

theorem host_var (c : Dev nD) (j : Fin 128) :
    varRow m c (ix2 (0 : Fin 1) j)
      = Ideal.div (VX0 (F := Ideal) m c main_v50_2 (ix2 (0 : Fin 1) j)) ((100000 : ℝ) : EReal)
        - meanRow m c (ix2 (0 : Fin 1) j) * meanRow m c (ix2 (0 : Fin 1) j) := by
  have e : (VE1 (F := Ideal) m c main_v56 : S1x128.Idx → EReal)
      = subf (F := Ideal)
          (Host.divf (F := Ideal) (VX0 (F := Ideal) m c main_v50_2)
            (broadcastInDim S1x128 ![] bcast_S_S1x128 (constant (F := Ideal) S_ .f32 0x47C35000#32)))
          (mulf (F := Ideal)
            (Host.divf (F := Ideal) (VX0 (F := Ideal) m c main_v50_1)
              (broadcastInDim S1x128 ![] bcast_S_S1x128 (constant (F := Ideal) S_ .f32 0x47C35000#32)))
            (Host.divf (F := Ideal) (VX0 (F := Ideal) m c main_v50_1)
              (broadcastInDim S1x128 ![] bcast_S_S1x128 (constant (F := Ideal) S_ .f32 0x47C35000#32)))) := by
    dsimp only [VE1, W5, VX0]
    after_results_simp <;> rfl
  dsimp only [varRow, meanRow]
  rw [e, mean_row]
  show Ideal.div (VX0 (F := Ideal) m c main_v50_2 (ix2 (0 : Fin 1) j)) (Ideal.ofBits .f32 0x47C35000#32)
      - Ideal.div (VX0 (F := Ideal) m c main_v50_1 (ix2 (0 : Fin 1) j)) (Ideal.ofBits .f32 0x47C35000#32)
        * Ideal.div (VX0 (F := Ideal) m c main_v50_1 (ix2 (0 : Fin 1) j)) (Ideal.ofBits .f32 0x47C35000#32)
    = Ideal.div (VX0 (F := Ideal) m c main_v50_2 (ix2 (0 : Fin 1) j)) ((100000 : ℝ) : EReal)
      - Ideal.div (VX0 (F := Ideal) m c main_v50_1 (ix2 (0 : Fin 1) j)) (Ideal.ofBits .f32 0x47C35000#32)
        * Ideal.div (VX0 (F := Ideal) m c main_v50_1 (ix2 (0 : Fin 1) j)) (Ideal.ofBits .f32 0x47C35000#32)
  rw [Cert.Proof.Algebra.ofBits_1e5]

/-! ## The feature array is the reference's -/

/-- The three operations of the clipping call, written over plain references: a typed reference whose type
    equation holds by computation transports contents by the identity. -/
private theorem hostOps0_1_plain : (hostOps0_1 : List (HloOp τ sig (Elt Ideal))) =
    [ StableHlo.unary main_cst_1 main_call0_v0 (id : (⟨S_, .f32⟩ : BufTy).Contents (Elt Ideal) → (⟨S_, .f32⟩ : BufTy).Contents (Elt Ideal)),
      StableHlo.unary main_call0_v0 main_call0_v1 (broadcastInDim S100000 ![] bcast_S_S100000 : (⟨S_, .f32⟩ : BufTy).Contents (Elt Ideal) → (⟨S100000, .f32⟩ : BufTy).Contents (Elt Ideal)),
      StableHlo.binary main_call0_v1 main_v3 main_v4 (maximumf (F := Ideal) (s := S100000) (φ := .f32)) ] := rfl

/-- The middle block of the feature array (the first Chebyshev term after the input) is the reference's. -/
private theorem feat26 (c : Dev nD) :
    (W3 (F := Ideal) m c (Proc.devRef .tc main_v26) : S100000x128.Idx → EReal)
      = Cert.ReferenceIdeal.Read.val_main_v26 (F := Ideal) (m ((c.tc : Thread nD τ).loc main_arg0))
          (m ((c.tc : Thread nD τ).loc main_arg2)) (m ((c.tc : Thread nD τ).loc main_arg3)) := by
  dsimp only [W3, W2, W1, W0]
  rw [hostOps0_1_plain]
  after_results_simp
  unfold Cert.ReferenceIdeal.Read.val_main_v26 Cert.ReferenceIdeal.Read.val_main_v23 Cert.ReferenceIdeal.Read.val_main_v22 Cert.ReferenceIdeal.Read.val_main_cst_5 Cert.ReferenceIdeal.Read.val_main_v21 Cert.ReferenceIdeal.Read.val_main_v19 Cert.ReferenceIdeal.Read.val_main_v17 Cert.ReferenceIdeal.Read.val_main_cst_4 Cert.ReferenceIdeal.Read.val_main_v18 Cert.ReferenceIdeal.Read.val_main_v16 Cert.ReferenceIdeal.Read.val_main_v9 Cert.ReferenceIdeal.Read.val_main_v8 Cert.ReferenceIdeal.Read.val_main_v7 Cert.ReferenceIdeal.Read.val_main_v6 Cert.ReferenceIdeal.Read.val_main_v4 Cert.ReferenceIdeal.Read.val_main_call0_v1 Cert.ReferenceIdeal.Read.val_main_call0_v0 Cert.ReferenceIdeal.Read.val_main_cst_1 Cert.ReferenceIdeal.Read.val_main_v3 Cert.ReferenceIdeal.Read.val_main_v1 Cert.ReferenceIdeal.Read.val_main_cst_0 Cert.ReferenceIdeal.Read.val_main_v2 Cert.ReferenceIdeal.Read.val_main_v0 Cert.ReferenceIdeal.Read.val_main_cst Cert.ReferenceIdeal.Read.val_main_v5 Cert.ReferenceIdeal.Read.val_main_cst_2 Cert.ReferenceIdeal.Read.val_main_v15 Cert.ReferenceIdeal.Read.val_main_v14 Cert.ReferenceIdeal.Read.val_main_v11 Cert.ReferenceIdeal.Read.val_main_v10 Cert.ReferenceIdeal.Read.val_main_c Cert.ReferenceIdeal.Read.val_main_v13 Cert.ReferenceIdeal.Read.val_main_v12 Cert.ReferenceIdeal.Read.val_main_c_3 Cert.ReferenceIdeal.Read.val_main_v20 Cert.ReferenceIdeal.Read.val_main_v25 Cert.ReferenceIdeal.Read.val_main_v24 Cert.ReferenceIdeal.Read.val_main_cst_6
  rfl

set_option maxHeartbeats 4000000 in
/-- The last block of the feature array (the second Chebyshev term) is the reference's. -/
private theorem feat46 (c : Dev nD) :
    (W3 (F := Ideal) m c (Proc.devRef .tc main_v46) : S100000x128.Idx → EReal)
      = Cert.ReferenceIdeal.Read.val_main_v46 (F := Ideal) (m ((c.tc : Thread nD τ).loc main_arg0))
          (m ((c.tc : Thread nD τ).loc main_arg2)) (m ((c.tc : Thread nD τ).loc main_arg3)) := by
  dsimp only [W3, W2, W1, W0]
  rw [hostOps0_1_plain]
  after_results_simp
  unfold Cert.ReferenceIdeal.Read.val_main_v46 Cert.ReferenceIdeal.Read.val_main_v45 Cert.ReferenceIdeal.Read.val_main_v42 Cert.ReferenceIdeal.Read.val_main_v41 Cert.ReferenceIdeal.Read.val_main_cst_10 Cert.ReferenceIdeal.Read.val_main_v40 Cert.ReferenceIdeal.Read.val_main_v38 Cert.ReferenceIdeal.Read.val_main_v36 Cert.ReferenceIdeal.Read.val_main_cst_9 Cert.ReferenceIdeal.Read.val_main_v37 Cert.ReferenceIdeal.Read.val_main_v35 Cert.ReferenceIdeal.Read.val_main_v28 Cert.ReferenceIdeal.Read.val_main_v27 Cert.ReferenceIdeal.Read.val_main_v34 Cert.ReferenceIdeal.Read.val_main_v33 Cert.ReferenceIdeal.Read.val_main_v30 Cert.ReferenceIdeal.Read.val_main_v29 Cert.ReferenceIdeal.Read.val_main_c_7 Cert.ReferenceIdeal.Read.val_main_v32 Cert.ReferenceIdeal.Read.val_main_v31 Cert.ReferenceIdeal.Read.val_main_c_8 Cert.ReferenceIdeal.Read.val_main_v39 Cert.ReferenceIdeal.Read.val_main_v44 Cert.ReferenceIdeal.Read.val_main_v43 Cert.ReferenceIdeal.Read.val_main_cst_11 Cert.ReferenceIdeal.Read.val_main_v26 Cert.ReferenceIdeal.Read.val_main_v23 Cert.ReferenceIdeal.Read.val_main_v22 Cert.ReferenceIdeal.Read.val_main_cst_5 Cert.ReferenceIdeal.Read.val_main_v21 Cert.ReferenceIdeal.Read.val_main_v19 Cert.ReferenceIdeal.Read.val_main_v17 Cert.ReferenceIdeal.Read.val_main_cst_4 Cert.ReferenceIdeal.Read.val_main_v18 Cert.ReferenceIdeal.Read.val_main_v16 Cert.ReferenceIdeal.Read.val_main_v9 Cert.ReferenceIdeal.Read.val_main_v8 Cert.ReferenceIdeal.Read.val_main_v7 Cert.ReferenceIdeal.Read.val_main_v6 Cert.ReferenceIdeal.Read.val_main_v4 Cert.ReferenceIdeal.Read.val_main_call0_v1 Cert.ReferenceIdeal.Read.val_main_call0_v0 Cert.ReferenceIdeal.Read.val_main_cst_1 Cert.ReferenceIdeal.Read.val_main_v3 Cert.ReferenceIdeal.Read.val_main_v1 Cert.ReferenceIdeal.Read.val_main_cst_0 Cert.ReferenceIdeal.Read.val_main_v2 Cert.ReferenceIdeal.Read.val_main_v0 Cert.ReferenceIdeal.Read.val_main_cst Cert.ReferenceIdeal.Read.val_main_v5 Cert.ReferenceIdeal.Read.val_main_cst_2 Cert.ReferenceIdeal.Read.val_main_v15 Cert.ReferenceIdeal.Read.val_main_v14 Cert.ReferenceIdeal.Read.val_main_v11 Cert.ReferenceIdeal.Read.val_main_v10 Cert.ReferenceIdeal.Read.val_main_c Cert.ReferenceIdeal.Read.val_main_v13 Cert.ReferenceIdeal.Read.val_main_v12 Cert.ReferenceIdeal.Read.val_main_c_3 Cert.ReferenceIdeal.Read.val_main_v20 Cert.ReferenceIdeal.Read.val_main_v25 Cert.ReferenceIdeal.Read.val_main_v24 Cert.ReferenceIdeal.Read.val_main_cst_6
  rfl

/-- Reads, by rewriting, each operation's result at its own reference as its function of the operands' contents and at
    any other reference as the contents before it, until no operation is left. -/
local macro "results_rw" : tactic =>
  `(tactic| repeat (first
      | rw [StableHlo.nullary_result] | rw [StableHlo.unary_result] | rw [StableHlo.binary_result]
      | rw [StableHlo.ternary_result] | rw [StableHlo.reshape_result] | rw [StableHlo.nary_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)
      | (rw [StableHlo.nary_result_ne]; rotate_left; decide)))

/-- The last three host operations before the first region are the concatenation into the feature array, the
    narrowing of the weight and the reshape of the bias: after them the feature array is the concatenation of the
    three operand arrays as they stood before. -/
private theorem tail3 (V : Valuation τ sig (Elt Ideal)) :
    (StableHlo.after (List.drop 53 hostOps0_2) V (Proc.devRef .tc main_v47) : S100000x384.Idx → EReal)
      = concatenate S100000x384 1
          [⟨S100000x128, V (Proc.devRef .tc main_arg0)⟩, ⟨S100000x128, V (Proc.devRef .tc main_v26)⟩,
           ⟨S100000x128, V (Proc.devRef .tc main_v46)⟩]
          concatenates_S100000x128_S100000x128_S100000x128_S100000x384_d1 := by
  simp only [List.drop_succ_cons, List.drop_zero, StableHlo.after_cons, StableHlo.after_nil]
  results_rw
  dsimp only [Matrix.cons_val]

/-- None of those three operations writes an operand of the concatenation. -/
private theorem keep_arg0 (V : Valuation τ sig (Elt Ideal)) :
    StableHlo.after (List.drop 53 hostOps0_2) V (Proc.devRef .tc main_arg0) = V (Proc.devRef .tc main_arg0) := by
  simp only [List.drop_succ_cons, List.drop_zero, StableHlo.after_cons, StableHlo.after_nil]
  results_rw
private theorem keep_v26 (V : Valuation τ sig (Elt Ideal)) :
    StableHlo.after (List.drop 53 hostOps0_2) V (Proc.devRef .tc main_v26) = V (Proc.devRef .tc main_v26) := by
  simp only [List.drop_succ_cons, List.drop_zero, StableHlo.after_cons, StableHlo.after_nil]
  results_rw
private theorem keep_v46 (V : Valuation τ sig (Elt Ideal)) :
    StableHlo.after (List.drop 53 hostOps0_2) V (Proc.devRef .tc main_v46) = V (Proc.devRef .tc main_v46) := by
  simp only [List.drop_succ_cons, List.drop_zero, StableHlo.after_cons, StableHlo.after_nil]
  results_rw

/-- The Chebyshev features the first kernel reads ARE the reference's (the two programs apply the same host
    operations to the same inputs): stated with the reference's own stage function, kept folded. -/
theorem host_xt (c : Dev nD) : VE0 (F := Ideal) m c main_v47 = Cert.ReferenceIdeal.Read.val_main_v47 (F := Ideal) (m ((c.tc : Thread nD τ).loc main_arg0)) (m ((c.tc : Thread nD τ).loc main_arg2)) (m ((c.tc : Thread nD τ).loc main_arg3)) := by
  have hW : ∀ b, W3 (F := Ideal) m c b
      = StableHlo.after (List.drop 53 hostOps0_2) (StableHlo.after (List.take 53 hostOps0_2) (W2 (F := Ideal) m c)) b := by
    intro b
    show StableHlo.after hostOps0_2 (W2 (F := Ideal) m c) b = _
    rw [← StableHlo.after_append (List.take 53 hostOps0_2) (List.drop 53 hostOps0_2), List.take_append_drop]
  have e0 := (hW (Proc.devRef .tc main_arg0)).symm.trans (W3_of m c main_arg0 (by decide) (by decide) (by decide))
  have e26 := (hW (Proc.devRef .tc main_v26)).symm.trans (feat26 m c)
  have e46 := (hW (Proc.devRef .tc main_v46)).symm.trans (feat46 m c)
  rw [keep_arg0] at e0
  rw [keep_v26] at e26
  rw [keep_v46] at e46
  show W3 (F := Ideal) m c (Proc.devRef .tc main_v47) = _
  rw [hW, tail3, e0, e26, e46]
  unfold Cert.ReferenceIdeal.Read.val_main_v47
  rfl

end Cert.KernelIdeal.Val
end
-- ==== Proof.RefApply.lean ====
/-
  The reference program read at an index, over the extended reals.

  The reference computes h = (features · W + bias) · norm, then per column j the mean μ_j of h over the 100000 rows
  and the variance σ_j of h about μ_j, and returns max(((h − μ) · rsqrt(σ + ε)) · γ + β, 0). Each statement below
  reads one of these arrays at explicit coordinates (r, j): every operation of the program is pointwise, a
  re-indexing (a broadcast reads its operand at the index with the broadcast axes dropped), a contraction (a finite
  sum over the contracted axis) or a column sum (the initial value plus a finite sum over the rows), so an entry of
  the result is the same arithmetic on entries of the operands.
-/
import proofs.«102301_j38998303048417_1_alg».proof.Proof.RefImports
import proofs.«102301_j38998303048417_1_alg».proof.Proof.Algebra
import Idealize.ShloMosaic.Lib.ValueIdx
import Idealize.ShloMosaic.PureOps.Ideal.Laws
noncomputable section
namespace Cert.ReferenceIdeal.RefVal
open Idealize.ShloMosaic Idealize.ShloMosaic.ValueIdx Cert.ReferenceIdeal Cert.ReferenceIdeal.Read
open scoped BigOperators

/-! ## Where the re-indexings send an index given by its coordinates -/

/-- The contraction reads its left operand at (row, k) … -/
private theorem lidx48 (r : Fin 100000) (j : Fin 128) (k : Fin 384) :
    lidx_main_v48 (ix2 r j) k = ix2 r k :=
  funext fun a => Fin.ext (by match a with | ⟨0, _⟩ => rfl | ⟨1, _⟩ => rfl)
/-- … and its right operand at (k, column). -/
private theorem ridx48 (r : Fin 100000) (j : Fin 128) (k : Fin 384) :
    ridx_main_v48 (ix2 r j) k = ix2 k j :=
  funext fun a => Fin.ext (by match a with | ⟨0, _⟩ => rfl | ⟨1, _⟩ => rfl)
/-- A vector of 128 entries broadcast along the rows is read at the column. -/
private theorem idx49_50 (r : Fin 100000) (j : Fin 128) :
    idx_main_v49 (idx_main_v50 (ix2 r j)) = ix1 j :=
  funext fun a => Fin.ext (by match a with | ⟨0, _⟩ => rfl)
private theorem idx57_58 (r : Fin 100000) (j : Fin 128) :
    idx_main_v57 (idx_main_v58 (ix2 r j)) = ix1 j :=
  funext fun a => Fin.ext (by match a with | ⟨0, _⟩ => rfl)
private theorem idx64_65 (r : Fin 100000) (j : Fin 128) :
    idx_main_v64 (idx_main_v65 (ix2 r j)) = ix1 j :=
  funext fun a => Fin.ext (by match a with | ⟨0, _⟩ => rfl)
private theorem idx70_71 (r : Fin 100000) (j : Fin 128) :
    idx_main_v70 (idx_main_v71 (ix2 r j)) = ix1 j :=
  funext fun a => Fin.ext (by match a with | ⟨0, _⟩ => rfl)
private theorem idx73_74 (r : Fin 100000) (j : Fin 128) :
    idx_main_v73 (idx_main_v74 (ix2 r j)) = ix1 j :=
  funext fun a => Fin.ext (by match a with | ⟨0, _⟩ => rfl)
private theorem idx76_77 (r : Fin 100000) (j : Fin 128) :
    idx_main_v76 (idx_main_v77 (ix2 r j)) = ix1 j :=
  funext fun a => Fin.ext (by match a with | ⟨0, _⟩ => rfl)
/-- A column of 100000 entries broadcast along the columns is read at the row. -/
private theorem idx52 (r : Fin 100000) (j : Fin 128) :
    idx_main_v52 (ix2 r j) = ix2 r (0 : Fin 1) :=
  funext fun a => Fin.ext (by match a with | ⟨0, _⟩ => rfl | ⟨1, _⟩ => rfl)
/-- A column sum reads its operand at (row k, the column). -/
private theorem idx54 (j : Fin 128) (k : Fin 100000) :
    idx_main_v54 (ix1 j) k = ix2 k j :=
  funext fun a => Fin.ext (by match a with | ⟨0, _⟩ => rfl | ⟨1, _⟩ => rfl)
private theorem idx61 (j : Fin 128) (k : Fin 100000) :
    idx_main_v61 (ix1 j) k = ix2 k j :=
  funext fun a => Fin.ext (by match a with | ⟨0, _⟩ => rfl | ⟨1, _⟩ => rfl)

variable (x0 : (⟨S100000x128, .f32⟩ : BufTy).Contents (Elt Ideal)) (x1 : (⟨S100000x1, .f32⟩ : BufTy).Contents (Elt Ideal))
  (x2 x3 : (⟨S1600000, .i32⟩ : BufTy).Contents (Elt Ideal)) (x4 : (⟨S384x128, .f32⟩ : BufTy).Contents (Elt Ideal)) (x5 x6 x7 : (⟨S128, .f32⟩ : BufTy).Contents (Elt Ideal))

/-- h at (r, j): the linear layer on row r of the Chebyshev features, plus bias, times row r's graph norm. -/
theorem h_apply (r : Fin 100000) (j : Fin 128) :
    val_main_v53 (F := Ideal) x0 x1 x2 x3 x4 x5 (ix2 r j)
      = ((∑ k : Fin 384, val_main_v47 (F := Ideal) x0 x2 x3 (ix2 r k) * x4 (ix2 k j)) + x5 (ix1 j)) * x1 (ix2 r (0 : Fin 1)) := by
  rw [val_main_v53_apply, val_main_v51_apply, val_main_v48_apply, val_main_v50_apply, val_main_v49_apply,
    val_main_v52_apply]
  simp only [Ideal.mulf_def, Ideal.addf_def, lidx48, ridx48, idx49_50, idx52]

/-- column j's mean of h and its variance about that mean, as the reference computes them -/
def refMean (j : Fin 128) : EReal :=
  Ideal.div ((0 : EReal) + ∑ i : Fin 100000, val_main_v53 (F := Ideal) x0 x1 x2 x3 x4 x5 (ix2 i j)) ((100000 : ℝ) : EReal)
def refVar (j : Fin 128) : EReal :=
  Ideal.div ((0 : EReal) + ∑ i : Fin 100000, (val_main_v53 (F := Ideal) x0 x1 x2 x3 x4 x5 (ix2 i j) - refMean x0 x1 x2 x3 x4 x5 j) * (val_main_v53 (F := Ideal) x0 x1 x2 x3 x4 x5 (ix2 i j) - refMean x0 x1 x2 x3 x4 x5 j)) ((100000 : ℝ) : EReal)

/-- The mean array at column j: the column sum of h from the zero word, divided by the word denoting 100000. -/
private theorem mean_apply (j : Fin 128) :
    val_main_v56 (F := Ideal) x0 x1 x2 x3 x4 x5 (ix1 j) = refMean x0 x1 x2 x3 x4 x5 j := by
  unfold refMean
  rw [val_main_v56_apply, val_main_v54_apply, val_main_v55_apply, val_main_cst_12_apply, val_main_cst_13_apply]
  simp only [Ideal.hostDivf_def, Ideal.ofBits_def, Cert.Proof.Algebra.ofBits_1e5, Cert.Proof.Algebra.ofBits_zero, idx54]

/-- The variance array at column j: the column sum of the squared deviations of h from the mean, from the zero
    word, divided by the word denoting 100000. -/
private theorem var_apply (j : Fin 128) :
    val_main_v63 (F := Ideal) x0 x1 x2 x3 x4 x5 (ix1 j) = refVar x0 x1 x2 x3 x4 x5 j := by
  unfold refVar
  rw [val_main_v63_apply, val_main_v61_apply, val_main_v62_apply, val_main_cst_14_apply, val_main_cst_15_apply]
  simp only [val_main_v60_apply, val_main_v59_apply, val_main_v58_apply, val_main_v57_apply,
    Ideal.hostDivf_def, Ideal.mulf_def, Ideal.subf_def, Ideal.ofBits_def,
    Cert.Proof.Algebra.ofBits_1e5, Cert.Proof.Algebra.ofBits_zero, idx61, idx57_58, mean_apply]

/-- the result at (r, j): batch-norm affine map and ReLU -/
theorem out_apply (r : Fin 100000) (j : Fin 128) :
    val_main_v79 (F := Ideal) x0 x1 x2 x3 x4 x5 x6 x7 (ix2 r j)
      = max (((val_main_v53 (F := Ideal) x0 x1 x2 x3 x4 x5 (ix2 r j) - refMean x0 x1 x2 x3 x4 x5 j)
              * Ideal.rsqrt (refVar x0 x1 x2 x3 x4 x5 j + Ideal.ofBits .f32 0x3727C5AC#32)) * x6 (ix1 j) + x7 (ix1 j)) (0 : EReal) := by
  rw [val_main_v79_apply, val_main_v78_apply, val_main_v75_apply, val_main_v72_apply, val_main_v66_apply,
    val_main_v65_apply, val_main_v64_apply, val_main_v71_apply, val_main_v70_apply, val_main_v69_apply,
    val_main_v68_apply, val_main_v67_apply, val_main_cst_16_apply, val_main_v74_apply, val_main_v73_apply,
    val_main_v77_apply, val_main_v76_apply, val_main_call1_v0_apply, val_main_call1_cst_apply]
  simp only [Ideal.maximumf_def, Ideal.addf_def, Ideal.mulf_def, Ideal.subf_def, Ideal.hostUnary_rsqrt_def,
    Ideal.ofBits_def, Cert.Proof.Algebra.ofBits_zero, idx64_65, idx70_71, idx73_74, idx76_77, mean_apply, var_apply]

end Cert.ReferenceIdeal.RefVal
end
-- ==== Proof.LibAllReal.lean ====
/-
  Arrays over the extended reals whose every entry is a real number, and the operations that keep them so.

  An entry of an array over the extended reals is either a real number or one of the two infinities. The lemmas
  here say, for each operation of a host program read over the extended reals, that the result has only real
  entries when the operands have: the elementwise sum, difference, product and maximum (the sum, difference,
  product and maximum of two reals is a real); a re-indexing (each entry of the result IS an entry of the
  operand: a broadcast, a gather); a constant whose word denotes a real; the accumulating scatter (an entry of the
  operand plus a finite sum of entries of the updates); the contraction of two arrays (a finite sum of products).
  For the reciprocal square root the operand has to be POSITIVE, so there is a second predicate for arrays of
  positive reals, kept by a maximum with one positive side.
-/
import Idealize.ShloMosaic.PureOps.Ideal.Laws
import Idealize.ShloMosaic.PureOps.Contract
import Idealize.ShloMosaic.PureOps.ShapeOps
import Idealize.ShloMosaic.PureOps.Vector
import Mathlib.Analysis.SpecialFunctions.Pow.Real

noncomputable section

namespace Cert.Spec

open Idealize.ShloMosaic
open scoped BigOperators

/-- Every entry of the array is a real number (neither infinity). -/
def AllReal {S : Shape} (x : S.Idx → EReal) : Prop := ∀ i, ∃ r : ℝ, x i = (r : EReal)

/-! ## Scalars -/

/-- The maximum of two real numbers, taken in the extended reals, is their maximum as real numbers. -/
theorem coe_max_real (a b : ℝ) : max (a : EReal) (b : EReal) = ((max a b : ℝ) : EReal) :=
  (EReal.coe_strictMono.monotone.map_max).symm

/-- A finite sum of real numbers, taken in the extended reals, is a real number. -/
theorem exists_real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

/-- The word `0x3F800000` of the 32-bit format denotes the number one. -/
theorem ofBits_f32_one : Ideal.ofBits .f32 0x3F800000#32 = ((1 : ℝ) : EReal) := by
  simp [Ideal.ofBits, Ideal.ieee, -EReal.coe_mul]
  norm_num

/-- The word `0x00000000` of the 32-bit format denotes the real number zero. -/
theorem ofBits_f32_zero : Ideal.ofBits .f32 0x00000000#32 = ((0 : ℝ) : EReal) := by
  rw [Ideal.ofBits_zero_f32, EReal.coe_zero]

/-! ## Arrays of positive reals -/

/-- Every entry of the array is a positive real number. -/
def AllPos {S : Shape} (x : S.Idx → EReal) : Prop := ∀ i, ∃ r : ℝ, 0 < r ∧ x i = (r : EReal)

/-- An array of positive reals is an array of reals. -/
theorem AllPos.allReal {S : Shape} {x : S.Idx → EReal} (h : AllPos x) : AllReal x :=
  fun i => let ⟨r, _, hr⟩ := h i; ⟨r, hr⟩

variable {s t : Shape} {φ : FTy}

/-! ## Elementwise operations -/

/-- The elementwise product of two arrays of reals is an array of reals. -/
theorem AllReal.mulf {x y : FVec Ideal s φ} (hx : AllReal x) (hy : AllReal y) : AllReal (mulf (F := Ideal) x y) := by
  intro i
  obtain ⟨a, ha⟩ := hx i
  obtain ⟨b, hb⟩ := hy i
  exact ⟨a * b, by show x i * y i = _; rw [ha, hb, EReal.coe_mul]⟩

/-- The elementwise sum of two arrays of reals is an array of reals. -/
theorem AllReal.addf {x y : FVec Ideal s φ} (hx : AllReal x) (hy : AllReal y) : AllReal (addf (F := Ideal) x y) := by
  intro i
  obtain ⟨a, ha⟩ := hx i
  obtain ⟨b, hb⟩ := hy i
  exact ⟨a + b, by show x i + y i = _; rw [ha, hb, EReal.coe_add]⟩

/-- The elementwise difference of two arrays of reals is an array of reals. -/
theorem AllReal.subf {x y : FVec Ideal s φ} (hx : AllReal x) (hy : AllReal y) : AllReal (subf (F := Ideal) x y) := by
  intro i
  obtain ⟨a, ha⟩ := hx i
  obtain ⟨b, hb⟩ := hy i
  exact ⟨a - b, by show x i - y i = _; rw [ha, hb, EReal.coe_sub]⟩

/-- The elementwise maximum of two arrays of reals is an array of reals. -/
theorem AllReal.maximumf {x y : FVec Ideal s φ} (hx : AllReal x) (hy : AllReal y) :
    AllReal (maximumf (F := Ideal) x y) := by
  intro i
  obtain ⟨a, ha⟩ := hx i
  obtain ⟨b, hb⟩ := hy i
  exact ⟨max a b, by show max (x i) (y i) = _; rw [ha, hb, coe_max_real]⟩

/-- The elementwise maximum of an array of positive reals and an array of reals is an array of positive reals. -/
theorem AllPos.maximumf_left {x y : FVec Ideal s φ} (hx : AllPos x) (hy : AllReal y) :
    AllPos (maximumf (F := Ideal) x y) := by
  intro i
  obtain ⟨a, ha, hxa⟩ := hx i
  obtain ⟨b, hb⟩ := hy i
  exact ⟨max a b, lt_max_of_lt_left ha, by show max (x i) (y i) = _; rw [hxa, hb, coe_max_real]⟩

/-- The reciprocal square root of an array of positive reals is an array of positive reals: at a real `r > 0` it is
    the real `(√r)⁻¹`, neither of the corners (a negative operand, zero) being met. -/
theorem AllPos.hostRsqrt {x : FVec Ideal s φ} (hx : AllPos x) : AllPos (Host.rsqrt (F := Ideal) x) := by
  intro i
  obtain ⟨r, hr, hxr⟩ := hx i
  refine ⟨(Real.sqrt r)⁻¹, inv_pos.mpr (Real.sqrt_pos.mpr hr), ?_⟩
  show Ideal.rsqrt (x i) = _
  rw [hxr, Ideal.rsqrt_coe, if_neg (not_lt.mpr hr.le), if_neg hr.ne']

/-! ## Constants -/

/-- A constant array is an array of reals when its word denotes a real. -/
theorem AllReal.constant {b : BitVec φ.bits} {r : ℝ} (hb : Ideal.ofBits φ b = (r : EReal)) :
    AllReal (constant (F := Ideal) s φ b) :=
  fun _ => ⟨r, hb⟩

/-- A constant array is an array of positive reals when its word denotes a positive real. -/
theorem AllPos.constant {b : BitVec φ.bits} {r : ℝ} (hr : 0 < r) (hb : Ideal.ofBits φ b = (r : EReal)) :
    AllPos (constant (F := Ideal) s φ b) :=
  fun _ => ⟨r, hr, hb⟩

/-- The array of zeros of the 32-bit format is an array of reals. -/
theorem AllReal.constant_zero : AllReal (Idealize.ShloMosaic.constant (F := Ideal) s .f32 0x00000000#32) :=
  AllReal.constant ofBits_f32_zero

/-- The array of ones of the 32-bit format is an array of positive reals. -/
theorem AllPos.constant_one : AllPos (Idealize.ShloMosaic.constant (F := Ideal) s .f32 0x3F800000#32) :=
  AllPos.constant one_pos ofBits_f32_one

/-! ## Re-indexings: each entry of the result is an entry of the operand -/

/-- A broadcast of an array of reals is an array of reals. -/
theorem AllReal.broadcastInDim {dims : Fin s.rank → Fin t.rank} {h : s.BroadcastsInDim t dims} {x : s.Idx → EReal}
    (hx : AllReal x) : AllReal (broadcastInDim t dims h x) :=
  fun _ => hx _

/-- A broadcast of an array of positive reals is an array of positive reals. -/
theorem AllPos.broadcastInDim {dims : Fin s.rank → Fin t.rank} {h : s.BroadcastsInDim t dims} {x : s.Idx → EReal}
    (hx : AllPos x) : AllPos (broadcastInDim t dims h x) :=
  fun _ => hx _

/-- A gather from an array of reals is an array of reals, whatever the index array holds. -/
theorem AllReal.gather {si : Shape} {w : Nat} {d : GatherDims s si t} {x : s.Idx → EReal} {idx : IVec si w}
    (hx : AllReal x) : AllReal (Host.gather d x idx) :=
  fun _ => hx _

/-! ## Finite sums -/

/-- The accumulating scatter of an array of real updates into an array of reals is an array of reals, whatever the
    index array holds: each entry is an entry of the operand plus a finite sum of entries of the updates. -/
theorem AllReal.scatterAdd {si u : Shape} {w : Nat} {d : ScatterDims s si u} {x : FVec Ideal s φ} {idx : IVec si w}
    {upd : FVec Ideal u φ} (hx : AllReal x) (hu : AllReal upd) :
    AllReal (Host.scatterAdd (F := Ideal) d x idx upd) := by
  intro i
  obtain ⟨a, ha⟩ := hx i
  have key : ∀ S : Finset u.Idx, ∃ r : ℝ, x i + ∑ j ∈ S, upd j = (r : EReal) := by
    intro S
    obtain ⟨b, hb⟩ := exists_real_sum S upd (fun j _ => hu j)
    exact ⟨a + b, by rw [ha, hb, EReal.coe_add]⟩
  exact key _

/-- The contraction of two arrays of reals is an array of reals: each entry is a finite sum of products of an entry
    of the one and an entry of the other. -/
theorem AllReal.dotGeneral {sl sr so : Shape} {φ₁ φ₂ : FTy} {d : DotDims sl sr so} {prec : Option ContractPrecision}
    {l : FVec Ideal sl φ₁} {r : FVec Ideal sr φ₂} (hl : AllReal l) (hr : AllReal r) :
    AllReal (Host.dotGeneral (F := Ideal) d prec l r) := by
  intro j
  have e : Host.dotGeneral (F := Ideal) d prec l r j = ∑ k : d.contr.Idx, l (d.lhsIdx j k) * r (d.rhsIdx j k) :=
    Ideal.dotGeneral_apply d prec .single l r j
  rw [e]
  refine exists_real_sum _ _ (fun k _ => ?_)
  obtain ⟨a, ha⟩ := hl (d.lhsIdx j k)
  obtain ⟨b, hb⟩ := hr (d.rhsIdx j k)
  exact ⟨a * b, by rw [ha, hb, EReal.coe_mul]⟩

end Cert.Spec

end
-- ==== Proof.Realness.lean ====
/-
  Realness of the reference's intermediate arrays.

  Read over the extended reals, every entry of an array is a real number or one of the two infinities. This module
  shows that each array the reference program computes on the way to h = (Xt · W + bias) ⊙ snorm has only real
  entries when the float inputs (node features, graph norm, weight, bias) have, whatever the two edge-index arrays
  hold. The argument is one step per operation, in program order: a constant whose word denotes a real; a
  re-indexing (broadcast, gather, concatenation), whose entries are entries of its operands; an elementwise sum,
  difference, product, maximum or power of reals, which is a real; an accumulating scatter and a contraction, which
  are finite sums of reals.
-/
import proofs.«102301_j38998303048417_1_alg».proof.Proof.RefImports
import proofs.«102301_j38998303048417_1_alg».proof.Proof.LibAllReal
noncomputable section
namespace Cert.Proof.Realness
open Idealize.ShloMosaic Cert.Spec Cert.ReferenceIdeal Cert.ReferenceIdeal.Read

/-! ## General lemmas: operations that keep every entry real -/

section General

variable {s t : Shape} {φ : FTy}

/-- The elementwise power of two arrays of reals is an array of reals: at two reals `a`, `b` the power over the
    extended reals is the real power `a ^ b` (total on the reals), so no sign condition is needed. -/
theorem allReal_hostPowf {x y : FVec Ideal s φ} (hx : AllReal x) (hy : AllReal y) :
    AllReal (Host.powf (F := Ideal) x y) := by
  intro i
  obtain ⟨a, ha⟩ := hx i
  obtain ⟨b, hb⟩ := hy i
  exact ⟨Real.rpow a b, by show Ideal.pow (x i) (y i) = _; rw [ha, hb, Ideal.pow_coe_coe]⟩

/-- A concatenation of arrays of reals is an array of reals: each entry of the result is an entry of one of the
    listed operands (the one whose span along the joined axis holds the entry's coordinate). -/
theorem allReal_concatenate {a : Fin t.rank} {xs : List ((r : Shape) × (r.Idx → EReal))}
    {h : Shape.Concatenates (xs.map (·.1)) t a} (hx : ∀ p ∈ xs, AllReal p.2) :
    AllReal (concatenate t a xs h) := by
  intro j
  unfold concatenate
  exact hx _ (List.getElem_mem _) _

/-- The word `0xBF800000` of the 32-bit format denotes the number minus one. -/
theorem ofBits_f32_neg_one : Ideal.ofBits .f32 0xBF800000#32 = ((-1 : ℝ) : EReal) := by
  simp [Ideal.ofBits, Ideal.ieee, -EReal.coe_mul]
  norm_num

/-- The word `0xBF000000` of the 32-bit format denotes the number minus one half. -/
theorem ofBits_f32_neg_half : Ideal.ofBits .f32 0xBF000000#32 = ((-(1/2) : ℝ) : EReal) := by
  simp [Ideal.ofBits, Ideal.ieee, -EReal.coe_mul]
  norm_num

/-- The word `0xC0000000` of the 32-bit format denotes the number minus two. -/
theorem ofBits_f32_neg_two : Ideal.ofBits .f32 0xC0000000#32 = ((-2 : ℝ) : EReal) := by
  simp [Ideal.ofBits, Ideal.ieee, -EReal.coe_mul]
  norm_num

end General

/-! ## The stages of the reference, in program order -/

section Stages

/-- The scalar one. -/
theorem one_real : AllReal (S := S_) (val_main_cst (F := Ideal)) := by
  unfold val_main_cst; exact AllPos.constant_one.allReal

/-- The array of ones, one per edge (the updates of the in-degree count). -/
theorem edge_ones_real : AllReal (S := S1600000) (val_main_v0 (F := Ideal)) := by
  unfold val_main_v0; exact AllReal.broadcastInDim one_real

/-- The scalar zero the in-degree count starts from. -/
theorem deg_zero_scalar_real : AllReal (S := S_) (val_main_cst_0 (F := Ideal)) := by
  unfold val_main_cst_0; exact AllReal.constant_zero

/-- The array of zeros, one per node, the in-degree count starts from. -/
theorem deg_init_real : AllReal (S := S100000) (val_main_v1 (F := Ideal)) := by
  unfold val_main_v1; exact AllReal.broadcastInDim deg_zero_scalar_real

/-- The in-degree count: zeros plus a finite sum of ones at each node. -/
theorem deg_real (x3 : (⟨S1600000, .i32⟩ : BufTy).Contents (Elt Ideal)) :
    AllReal (S := S100000) (val_main_v3 (F := Ideal) x3) := by
  unfold val_main_v3; exact AllReal.scatterAdd deg_init_real edge_ones_real

/-- The scalar one the in-degree is clipped below by. -/
theorem clip_one_scalar_real : AllReal (S := S_) (val_main_cst_1 (F := Ideal)) := by
  unfold val_main_cst_1; exact AllPos.constant_one.allReal

/-- The clip bound, converted to its own format (the identity). -/
theorem clip_bound_scalar_real : AllReal (S := S_) (val_main_call0_v0 (F := Ideal)) := by
  unfold val_main_call0_v0; exact clip_one_scalar_real

/-- The clip bound, one per node. -/
theorem clip_bound_real : AllReal (S := S100000) (val_main_call0_v1 (F := Ideal)) := by
  unfold val_main_call0_v1; exact AllReal.broadcastInDim clip_bound_scalar_real

/-- The clipped in-degree max(1, deg). -/
theorem deg_clipped_real (x3 : (⟨S1600000, .i32⟩ : BufTy).Contents (Elt Ideal)) :
    AllReal (S := S100000) (val_main_v4 (F := Ideal) x3) := by
  unfold val_main_v4; exact AllReal.maximumf clip_bound_real (deg_real x3)

/-- The scalar exponent minus one half. -/
theorem neg_half_scalar_real : AllReal (S := S_) (val_main_cst_2 (F := Ideal)) := by
  unfold val_main_cst_2; exact AllReal.constant ofBits_f32_neg_half

/-- The exponent minus one half, one per node. -/
theorem neg_half_real : AllReal (S := S100000) (val_main_v5 (F := Ideal)) := by
  unfold val_main_v5; exact AllReal.broadcastInDim neg_half_scalar_real

/-- D^{-1/2}: the clipped in-degree to the power minus one half. -/
theorem dinv_real (x3 : (⟨S1600000, .i32⟩ : BufTy).Contents (Elt Ideal)) :
    AllReal (S := S100000) (val_main_v6 (F := Ideal) x3) := by
  unfold val_main_v6; exact allReal_hostPowf (deg_clipped_real x3) neg_half_real

/-- D^{-1/2} as a column. -/
theorem dinv_col_real (x3 : (⟨S1600000, .i32⟩ : BufTy).Contents (Elt Ideal)) :
    AllReal (S := S100000x1) (val_main_v7 (F := Ideal) x3) := by
  unfold val_main_v7; exact AllReal.broadcastInDim (dinv_real x3)

/-- D^{-1/2} spread along the feature axis (first use). -/
theorem dinv_wide_real (x3 : (⟨S1600000, .i32⟩ : BufTy).Contents (Elt Ideal)) :
    AllReal (S := S100000x128) (val_main_v8 (F := Ideal) x3) := by
  unfold val_main_v8; exact AllReal.broadcastInDim (dinv_col_real x3)

/-- The scaled features X0 ⊙ D^{-1/2}. -/
theorem scaled0_real (x0 : (⟨S100000x128, .f32⟩ : BufTy).Contents (Elt Ideal)) (x3 : (⟨S1600000, .i32⟩ : BufTy).Contents (Elt Ideal))
    (h0 : AllReal (S := S100000x128) x0) : AllReal (S := S100000x128) (val_main_v9 (F := Ideal) x0 x3) := by
  unfold val_main_v9; exact AllReal.mulf h0 (dinv_wide_real x3)

/-- The rows of the scaled features gathered at the source nodes. -/
theorem gathered0_real (x0 : (⟨S100000x128, .f32⟩ : BufTy).Contents (Elt Ideal)) (x2 x3 : (⟨S1600000, .i32⟩ : BufTy).Contents (Elt Ideal))
    (h0 : AllReal (S := S100000x128) x0) : AllReal (S := S1600000x128) (val_main_v16 (F := Ideal) x0 x2 x3) := by
  unfold val_main_v16; exact AllReal.gather (scaled0_real x0 x3 h0)

/-- The scalar zero the first aggregation starts from. -/
theorem agg0_zero_scalar_real : AllReal (S := S_) (val_main_cst_4 (F := Ideal)) := by
  unfold val_main_cst_4; exact AllReal.constant_zero

/-- The array of zeros the first aggregation starts from. -/
theorem agg0_init_real : AllReal (S := S100000x128) (val_main_v17 (F := Ideal)) := by
  unfold val_main_v17; exact AllReal.broadcastInDim agg0_zero_scalar_real

/-- The first aggregation: at each target node, the sum of the gathered rows. -/
theorem agg0_real (x0 : (⟨S100000x128, .f32⟩ : BufTy).Contents (Elt Ideal)) (x2 x3 : (⟨S1600000, .i32⟩ : BufTy).Contents (Elt Ideal))
    (h0 : AllReal (S := S100000x128) x0) : AllReal (S := S100000x128) (val_main_v19 (F := Ideal) x0 x2 x3) := by
  unfold val_main_v19; exact AllReal.scatterAdd agg0_init_real (gathered0_real x0 x2 x3 h0)

/-- D^{-1/2} spread along the feature axis (second use). -/
theorem dinv_wide2_real (x3 : (⟨S1600000, .i32⟩ : BufTy).Contents (Elt Ideal)) :
    AllReal (S := S100000x128) (val_main_v20 (F := Ideal) x3) := by
  unfold val_main_v20; exact AllReal.broadcastInDim (dinv_col_real x3)

/-- The normalized adjacency applied to X0: D^{-1/2} A D^{-1/2} X0. -/
theorem adj0_real (x0 : (⟨S100000x128, .f32⟩ : BufTy).Contents (Elt Ideal)) (x2 x3 : (⟨S1600000, .i32⟩ : BufTy).Contents (Elt Ideal))
    (h0 : AllReal (S := S100000x128) x0) : AllReal (S := S100000x128) (val_main_v21 (F := Ideal) x0 x2 x3) := by
  unfold val_main_v21; exact AllReal.mulf (agg0_real x0 x2 x3 h0) (dinv_wide2_real x3)

/-- The scalar minus one. -/
theorem neg_one_scalar_real : AllReal (S := S_) (val_main_cst_5 (F := Ideal)) := by
  unfold val_main_cst_5; exact AllReal.constant ofBits_f32_neg_one

/-- Minus one at every entry. -/
theorem neg_one_real : AllReal (S := S100000x128) (val_main_v22 (F := Ideal)) := by
  unfold val_main_v22; exact AllReal.broadcastInDim neg_one_scalar_real

/-- Minus the normalized adjacency applied to X0. -/
theorem neg_adj0_real (x0 : (⟨S100000x128, .f32⟩ : BufTy).Contents (Elt Ideal)) (x2 x3 : (⟨S1600000, .i32⟩ : BufTy).Contents (Elt Ideal))
    (h0 : AllReal (S := S100000x128) x0) : AllReal (S := S100000x128) (val_main_v23 (F := Ideal) x0 x2 x3) := by
  unfold val_main_v23; exact AllReal.mulf neg_one_real (adj0_real x0 x2 x3 h0)

/-- The scalar zero that multiplies X0 in the rescaled Laplacian's diagonal term. -/
theorem diag0_zero_scalar_real : AllReal (S := S_) (val_main_cst_6 (F := Ideal)) := by
  unfold val_main_cst_6; exact AllReal.constant_zero

/-- Zero at every entry. -/
theorem diag0_zero_real : AllReal (S := S100000x128) (val_main_v24 (F := Ideal)) := by
  unfold val_main_v24; exact AllReal.broadcastInDim diag0_zero_scalar_real

/-- The diagonal term X0 ⊙ 0. -/
theorem diag0_real (x0 : (⟨S100000x128, .f32⟩ : BufTy).Contents (Elt Ideal))
    (h0 : AllReal (S := S100000x128) x0) : AllReal (S := S100000x128) (val_main_v25 (F := Ideal) x0) := by
  unfold val_main_v25; exact AllReal.mulf h0 diag0_zero_real

/-- X1, the rescaled Laplacian applied to X0. -/
theorem x1_real (x0 : (⟨S100000x128, .f32⟩ : BufTy).Contents (Elt Ideal)) (x2 x3 : (⟨S1600000, .i32⟩ : BufTy).Contents (Elt Ideal))
    (h0 : AllReal (S := S100000x128) x0) : AllReal (S := S100000x128) (val_main_v26 (F := Ideal) x0 x2 x3) := by
  unfold val_main_v26; exact AllReal.addf (neg_adj0_real x0 x2 x3 h0) (diag0_real x0 h0)

/-- D^{-1/2} spread along the feature axis (third use). -/
theorem dinv_wide3_real (x3 : (⟨S1600000, .i32⟩ : BufTy).Contents (Elt Ideal)) :
    AllReal (S := S100000x128) (val_main_v27 (F := Ideal) x3) := by
  unfold val_main_v27; exact AllReal.broadcastInDim (dinv_col_real x3)

/-- The scaled features X1 ⊙ D^{-1/2}. -/
theorem scaled1_real (x0 : (⟨S100000x128, .f32⟩ : BufTy).Contents (Elt Ideal)) (x2 x3 : (⟨S1600000, .i32⟩ : BufTy).Contents (Elt Ideal))
    (h0 : AllReal (S := S100000x128) x0) : AllReal (S := S100000x128) (val_main_v28 (F := Ideal) x0 x2 x3) := by
  unfold val_main_v28; exact AllReal.mulf (x1_real x0 x2 x3 h0) (dinv_wide3_real x3)

/-- The rows of the scaled X1 gathered at the source nodes. -/
theorem gathered1_real (x0 : (⟨S100000x128, .f32⟩ : BufTy).Contents (Elt Ideal)) (x2 x3 : (⟨S1600000, .i32⟩ : BufTy).Contents (Elt Ideal))
    (h0 : AllReal (S := S100000x128) x0) : AllReal (S := S1600000x128) (val_main_v35 (F := Ideal) x0 x2 x3) := by
  unfold val_main_v35; exact AllReal.gather (scaled1_real x0 x2 x3 h0)

/-- The scalar zero the second aggregation starts from. -/
theorem agg1_zero_scalar_real : AllReal (S := S_) (val_main_cst_9 (F := Ideal)) := by
  unfold val_main_cst_9; exact AllReal.constant_zero

/-- The array of zeros the second aggregation starts from. -/
theorem agg1_init_real : AllReal (S := S100000x128) (val_main_v36 (F := Ideal)) := by
  unfold val_main_v36; exact AllReal.broadcastInDim agg1_zero_scalar_real

/-- The second aggregation: at each target node, the sum of the gathered rows of the scaled X1. -/
theorem agg1_real (x0 : (⟨S100000x128, .f32⟩ : BufTy).Contents (Elt Ideal)) (x2 x3 : (⟨S1600000, .i32⟩ : BufTy).Contents (Elt Ideal))
    (h0 : AllReal (S := S100000x128) x0) : AllReal (S := S100000x128) (val_main_v38 (F := Ideal) x0 x2 x3) := by
  unfold val_main_v38; exact AllReal.scatterAdd agg1_init_real (gathered1_real x0 x2 x3 h0)

/-- D^{-1/2} spread along the feature axis (fourth use). -/
theorem dinv_wide4_real (x3 : (⟨S1600000, .i32⟩ : BufTy).Contents (Elt Ideal)) :
    AllReal (S := S100000x128) (val_main_v39 (F := Ideal) x3) := by
  unfold val_main_v39; exact AllReal.broadcastInDim (dinv_col_real x3)

/-- The normalized adjacency applied to X1. -/
theorem adj1_real (x0 : (⟨S100000x128, .f32⟩ : BufTy).Contents (Elt Ideal)) (x2 x3 : (⟨S1600000, .i32⟩ : BufTy).Contents (Elt Ideal))
    (h0 : AllReal (S := S100000x128) x0) : AllReal (S := S100000x128) (val_main_v40 (F := Ideal) x0 x2 x3) := by
  unfold val_main_v40; exact AllReal.mulf (agg1_real x0 x2 x3 h0) (dinv_wide4_real x3)

/-- The scalar minus two. -/
theorem neg_two_scalar_real : AllReal (S := S_) (val_main_cst_10 (F := Ideal)) := by
  unfold val_main_cst_10; exact AllReal.constant ofBits_f32_neg_two

/-- Minus two at every entry. -/
theorem neg_two_real : AllReal (S := S100000x128) (val_main_v41 (F := Ideal)) := by
  unfold val_main_v41; exact AllReal.broadcastInDim neg_two_scalar_real

/-- Minus twice the normalized adjacency applied to X1. -/
theorem neg_two_adj1_real (x0 : (⟨S100000x128, .f32⟩ : BufTy).Contents (Elt Ideal)) (x2 x3 : (⟨S1600000, .i32⟩ : BufTy).Contents (Elt Ideal))
    (h0 : AllReal (S := S100000x128) x0) : AllReal (S := S100000x128) (val_main_v42 (F := Ideal) x0 x2 x3) := by
  unfold val_main_v42; exact AllReal.mulf neg_two_real (adj1_real x0 x2 x3 h0)

/-- The scalar zero that multiplies X1 in the second diagonal term. -/
theorem diag1_zero_scalar_real : AllReal (S := S_) (val_main_cst_11 (F := Ideal)) := by
  unfold val_main_cst_11; exact AllReal.constant_zero

/-- Zero at every entry. -/
theorem diag1_zero_real : AllReal (S := S100000x128) (val_main_v43 (F := Ideal)) := by
  unfold val_main_v43; exact AllReal.broadcastInDim diag1_zero_scalar_real

/-- The diagonal term X1 ⊙ 0. -/
theorem diag1_real (x0 : (⟨S100000x128, .f32⟩ : BufTy).Contents (Elt Ideal)) (x2 x3 : (⟨S1600000, .i32⟩ : BufTy).Contents (Elt Ideal))
    (h0 : AllReal (S := S100000x128) x0) : AllReal (S := S100000x128) (val_main_v44 (F := Ideal) x0 x2 x3) := by
  unfold val_main_v44; exact AllReal.mulf (x1_real x0 x2 x3 h0) diag1_zero_real

/-- Twice the rescaled Laplacian applied to X1. -/
theorem two_lap_x1_real (x0 : (⟨S100000x128, .f32⟩ : BufTy).Contents (Elt Ideal)) (x2 x3 : (⟨S1600000, .i32⟩ : BufTy).Contents (Elt Ideal))
    (h0 : AllReal (S := S100000x128) x0) : AllReal (S := S100000x128) (val_main_v45 (F := Ideal) x0 x2 x3) := by
  unfold val_main_v45; exact AllReal.addf (neg_two_adj1_real x0 x2 x3 h0) (diag1_real x0 x2 x3 h0)

/-- X2 = 2 L X1 − X0, the Chebyshev recurrence. -/
theorem x2_real (x0 : (⟨S100000x128, .f32⟩ : BufTy).Contents (Elt Ideal)) (x2 x3 : (⟨S1600000, .i32⟩ : BufTy).Contents (Elt Ideal))
    (h0 : AllReal (S := S100000x128) x0) : AllReal (S := S100000x128) (val_main_v46 (F := Ideal) x0 x2 x3) := by
  unfold val_main_v46; exact AllReal.subf (two_lap_x1_real x0 x2 x3 h0) h0

/-- The concatenated Chebyshev features Xt = [X0, X1, X2] (100000×384) have real entries when the node features do, whatever the two edge-index arrays hold. -/
theorem xt_real (x0 : (⟨S100000x128, .f32⟩ : BufTy).Contents (Elt Ideal)) (x2 x3 : (⟨S1600000, .i32⟩ : BufTy).Contents (Elt Ideal))
    (h0 : AllReal x0) : AllReal (val_main_v47 (F := Ideal) x0 x2 x3) := by
  unfold val_main_v47
  refine allReal_concatenate (fun p hp => ?_)
  simp only [List.mem_cons, List.not_mem_nil, or_false] at hp
  rcases hp with rfl | rfl | rfl
  · exact h0
  · exact x1_real x0 x2 x3 h0
  · exact x2_real x0 x2 x3 h0

/-- The contraction Xt · W. -/
theorem xt_w_real (x0 : (⟨S100000x128, .f32⟩ : BufTy).Contents (Elt Ideal)) (x2 x3 : (⟨S1600000, .i32⟩ : BufTy).Contents (Elt Ideal))
    (x4 : (⟨S384x128, .f32⟩ : BufTy).Contents (Elt Ideal))
    (h0 : AllReal (S := S100000x128) x0) (h4 : AllReal (S := S384x128) x4) :
    AllReal (S := S100000x128) (val_main_v48 (F := Ideal) x0 x2 x3 x4) := by
  unfold val_main_v48; exact AllReal.dotGeneral (xt_real x0 x2 x3 h0) h4

/-- The bias as a row. -/
theorem bias_row_real (x5 : (⟨S128, .f32⟩ : BufTy).Contents (Elt Ideal)) (h5 : AllReal (S := S128) x5) :
    AllReal (S := S1x128) (val_main_v49 (F := Ideal) x5) := by
  unfold val_main_v49; exact AllReal.broadcastInDim h5

/-- The bias spread over the nodes. -/
theorem bias_wide_real (x5 : (⟨S128, .f32⟩ : BufTy).Contents (Elt Ideal)) (h5 : AllReal (S := S128) x5) :
    AllReal (S := S100000x128) (val_main_v50 (F := Ideal) x5) := by
  unfold val_main_v50; exact AllReal.broadcastInDim (bias_row_real x5 h5)

/-- The linear layer's output Xt · W + bias. -/
theorem linear_real (x0 : (⟨S100000x128, .f32⟩ : BufTy).Contents (Elt Ideal)) (x2 x3 : (⟨S1600000, .i32⟩ : BufTy).Contents (Elt Ideal))
    (x4 : (⟨S384x128, .f32⟩ : BufTy).Contents (Elt Ideal)) (x5 : (⟨S128, .f32⟩ : BufTy).Contents (Elt Ideal))
    (h0 : AllReal (S := S100000x128) x0) (h4 : AllReal (S := S384x128) x4) (h5 : AllReal (S := S128) x5) :
    AllReal (S := S100000x128) (val_main_v51 (F := Ideal) x0 x2 x3 x4 x5) := by
  unfold val_main_v51; exact AllReal.addf (xt_w_real x0 x2 x3 x4 h0 h4) (bias_wide_real x5 h5)

/-- The graph norm spread along the feature axis. -/
theorem snorm_wide_real (x1 : (⟨S100000x1, .f32⟩ : BufTy).Contents (Elt Ideal)) (h1 : AllReal (S := S100000x1) x1) :
    AllReal (S := S100000x128) (val_main_v52 (F := Ideal) x1) := by
  unfold val_main_v52; exact AllReal.broadcastInDim h1

/-- h = (Xt · W + bias) ⊙ snorm has real entries when features, snorm, weight and bias do. -/
theorem h_real (x0 : (⟨S100000x128, .f32⟩ : BufTy).Contents (Elt Ideal)) (x1 : (⟨S100000x1, .f32⟩ : BufTy).Contents (Elt Ideal))
    (x2 x3 : (⟨S1600000, .i32⟩ : BufTy).Contents (Elt Ideal)) (x4 : (⟨S384x128, .f32⟩ : BufTy).Contents (Elt Ideal)) (x5 : (⟨S128, .f32⟩ : BufTy).Contents (Elt Ideal))
    (h0 : AllReal x0) (h1 : AllReal x1) (h4 : AllReal x4) (h5 : AllReal x5) :
    AllReal (val_main_v53 (F := Ideal) x0 x1 x2 x3 x4 x5) := by
  unfold val_main_v53; exact AllReal.mulf (linear_real x0 x2 x3 x4 x5 h0 h4 h5) (snorm_wide_real x1 h1)

end Stages

end Cert.Proof.Realness
end
-- ==== Proof.PreReal.lean ====
/-
  From the finiteness precondition to "every entry of every float input is a real number".

  The precondition computes, for each of the six float inputs x, the conjunction over all indices of |x i| < +∞, and
  then the conjunction of the six results. If the whole is 1, each of the six conjunctions is 1, so every |x i| < +∞
  holds; an extended real whose absolute value max x (-x) is strictly below ⊤ is neither ⊤ nor ⊥, hence a real.
-/
import proofs.«102301_j38998303048417_1_alg».proof.Pre_finite_inputs
import proofs.«102301_j38998303048417_1_alg».proof.Proof.Gen.Pre_finite_inputs
import proofs.«102301_j38998303048417_1_alg».proof.Proof.LibAllReal
import Idealize.ShloMosaic.Lib.ReduceAll
import Idealize.ShloMosaic.PureOps.Ideal
noncomputable section
namespace Cert.Proof.PreReal
open Idealize.ShloMosaic Cert.Spec Cert.Pre_finite_inputs

/-- The rank-0 shape has exactly one index (the empty tuple). -/
instance subsingleton_S_Idx : Subsingleton S_.Idx := ⟨fun a b => funext fun d => d.elim0⟩

/-- The word 0x7F800000 of the 32-bit format denotes +∞. -/
theorem ofBits_f32_inf : Ideal.ofBits .f32 0x7F800000#32 = (⊤ : EReal) := by
  simp [Ideal.ofBits, Ideal.ieee]

/-- An extended real whose absolute value max x (-x) is strictly below +∞ is a real number:
    at ⊤ the maximum is ⊤, at ⊥ it is -⊥ = ⊤, and ⊤ < ⊤ is false. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- If the conjunction over all indices of |x i| < +∞ is 1, every entry of x is a real number. -/
theorem allReal_of_all_lt_inf {S : Shape} {axes : List (Fin S.rank)} (x : FVec Ideal S .f32)
    (hb : S_.BroadcastsInDim S (![] : Fin 0 → Fin S.rank)) (hr : S.ReducesTo axes S_) (hu : 0 < S_.numel)
    (init : IVec S_ 1) (j : S_.Idx)
    (e : Host.reduce IntOp.andi
          (cmpf .olt (Host.absf x) (broadcastInDim S ![] hb (constant (F := Ideal) S_ .f32 0x7F800000#32)))
          init hr hu j = 1#1) :
    AllReal x := by
  intro i
  have hi := Host.reduce_andi_all _ init hr hu j e i
  have hi' : Ideal.cmp .olt (max (x i) (-(x i))) (Ideal.ofBits .f32 0x7F800000#32) = 1#1 := hi
  rw [ofBits_f32_inf] at hi'
  refine real_of_abs_lt_top (x i) ?_
  by_contra hn
  simp [Ideal.cmp, hn] at hi'

/-- If the finiteness predicate holds of the eight inputs (all ones), every entry of each of the six float inputs is a real number. (The two integer inputs x2, x3 are unconstrained.) -/
theorem inputs_real [Cert.Pre_finite_inputs.Facts]
    (x0 : FVec Ideal S100000x128 .f32) (x1 : FVec Ideal S100000x1 .f32) (x2 x3 : IVec S1600000 32)
    (x4 : FVec Ideal S384x128 .f32) (x5 x6 x7 : FVec Ideal S128 .f32)
    (hpre : Cert.Pre_finite_inputs.fn (F := Ideal) x0 x1 x2 x3 x4 x5 x6 x7 = (fun _ => 1#1)) :
    AllReal x0 ∧ AllReal x1 ∧ AllReal x4 ∧ AllReal x5 ∧ AllReal x6 ∧ AllReal x7 := by
  have h := congrFun hpre (fun a => a.elim0 : S_.Idx)
  dsimp only [fn, fn_part1] at h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h0, h1⟩ := IntOp.andi_eq_one.1 h
  exact ⟨allReal_of_all_lt_inf x0 _ _ _ _ _ h0, allReal_of_all_lt_inf x1 _ _ _ _ _ h1,
    allReal_of_all_lt_inf x4 _ _ _ _ _ h4, allReal_of_all_lt_inf x5 _ _ _ _ _ h5,
    allReal_of_all_lt_inf x6 _ _ _ _ _ h6, allReal_of_all_lt_inf x7 _ _ _ _ _ h7⟩

end Cert.Proof.PreReal
end
-- ==== Proof.KernelIdealValue.Bridge.lean ====
/-
  THE VALUE of the kernel program's result, at the extended reals: it is the reference's result function of the same
  eight inputs. Both programs build the same Chebyshev features Xt by the same host operations; the first kernel
  region leaves h = (Xt·W + bias)·snorm and its column sums S = Σ h, Q = Σ h² (accumulated over 50 row blocks, which
  is the sum over all rows); the host then takes μ = S/N and Q/N − μ²; the second region applies
  max(((h − μ)·rsqrt(var + ε))·γ + β, 0). The reference takes μ the same way and the variance as the mean of (h − μ)².
  The two variances agree because every entry of h is a REAL number when the inputs are finite (the identity needs
  distributivity, which fails at the infinities), and then every later operation is applied to equal operands.
-/
import proofs.«102301_j38998303048417_1_alg».proof.Proof.KernelIdealValue.Region0
import proofs.«102301_j38998303048417_1_alg».proof.Proof.KernelIdealValue.Region1
import proofs.«102301_j38998303048417_1_alg».proof.Proof.KernelIdealValue.Host
import proofs.«102301_j38998303048417_1_alg».proof.Proof.RefApply
import proofs.«102301_j38998303048417_1_alg».proof.Proof.Realness
import proofs.«102301_j38998303048417_1_alg».proof.Proof.PreReal
import proofs.«102301_j38998303048417_1_alg».proof.Proof.Algebra

set_option maxRecDepth 16384

noncomputable section

namespace Cert.KernelIdeal.Val

open Idealize.ShloMosaic Idealize.ShloMosaic.ValueIdx Idealize.ShloMosaic.TcCoe Idealize.SL.Sem
open Cert.KernelIdeal Cert.KernelIdeal.Gen Cert.KernelIdeal.Frame
open Cert.ReferenceIdeal.Read (val_main_v47 val_main_v53 val_main_v79)
open Cert.ReferenceIdeal.RefVal (refMean refVar h_apply out_apply)
open scoped BigOperators

variable (m : (ℓ : Loc nD τ sig) → Buf (Elt Ideal) ℓ) (c : Dev nD)

/-- The eight inputs as core `c` holds them at launch. -/
abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)
abbrev A7 := m ((c.tc : Thread nD τ).loc main_arg7)

/-- The reference's h of these inputs. -/
abbrev hR : (i : Cert.ReferenceIdeal.S100000x128.Idx) → EReal :=
  val_main_v53 (F := Ideal) (A0 m c) (A1 m c) (A2 m c) (A3 m c) (A4 m c) (A5 m c)

/-- What the first region leaves in its first output IS the reference's h. -/
theorem kernel_h (r : Fin 100000) (j : Fin 128) :
    hArr (VE0 m) c (ix2 r j) = hR m c (ix2 r j) := by
  rw [region0_h (VE0 m) c r j]
  refine Eq.trans ?_ (h_apply (A0 m c) (A1 m c) (A2 m c) (A3 m c) (A4 m c) (A5 m c) r j).symm
  have e1 : feat (VE0 m) c = val_main_v47 (F := Ideal) (A0 m c) (A2 m c) (A3 m c) := host_xt m c
  have e2 : ∀ k : Fin 384, wgt (VE0 m) c (ix2 k j) = A4 m c (ix2 k j) := fun k => host_w m c k j
  have e3 : bias (VE0 m) c (ix2 (0 : Fin 1) j) = A5 m c (ix1 j) := host_b m c j
  have e4 : snorm (VE0 m) c = A1 m c := host_sn m c
  rw [e1, e3, e4]
  simp only [e2]

/-- The first sum output holds the column sums of the reference's h over all rows. -/
theorem kernel_sum (j : Fin 128) :
    sArr (VE0 m) c (ix2 (0 : Fin 1) j) = ∑ r : Fin 100000, hR m c (ix2 r j) := by
  rw [region0_sum (VE0 m) c j]
  exact Finset.sum_congr rfl fun r _ => kernel_h m c r j

/-- The second holds the column sums of its squares. -/
theorem kernel_sumsq (j : Fin 128) :
    qArr (VE0 m) c (ix2 (0 : Fin 1) j) = ∑ r : Fin 100000, hR m c (ix2 r j) * hR m c (ix2 r j) := by
  rw [region0_sumsq (VE0 m) c j]
  exact Finset.sum_congr rfl fun r _ => by rw [kernel_h m c r j]

/-- The kernel's mean row is the reference's mean. -/
theorem kernel_mean (j : Fin 128) :
    meanRow m c (ix2 (0 : Fin 1) j) = refMean (A0 m c) (A1 m c) (A2 m c) (A3 m c) (A4 m c) (A5 m c) j := by
  have h1 : meanRow m c (ix2 (0 : Fin 1) j) = Ideal.div (VX0 (F := Ideal) m c main_v50_1 (ix2 (0 : Fin 1) j)) ((100000 : ℝ) : EReal) :=
    host_mean m c j
  have e : VX0 (F := Ideal) m c main_v50_1 (ix2 (0 : Fin 1) j) = sArr (VE0 m) c (ix2 (0 : Fin 1) j) := congrFun (W4_arr m c 5) _
  rw [h1, e, kernel_sum m c j]
  unfold refMean
  rw [zero_add]

/-- The kernel's variance row, E[h²] − μ², is the reference's E[(h − μ)²]: the entries of h are real. -/
theorem kernel_var (j : Fin 128)
    (hreal : Cert.Spec.AllReal (S := Cert.ReferenceIdeal.S100000x128) (hR m c)) :
    varRow m c (ix2 (0 : Fin 1) j) = refVar (A0 m c) (A1 m c) (A2 m c) (A3 m c) (A4 m c) (A5 m c) j := by
  have e : VX0 (F := Ideal) m c main_v50_2 (ix2 (0 : Fin 1) j) = qArr (VE0 m) c (ix2 (0 : Fin 1) j) := congrFun (W4_arr m c 6) _
  rw [host_var m c j, kernel_mean m c j, e, kernel_sumsq m c j]
  have key := Cert.Proof.Algebra.var_identity (fun i : Fin 100000 => hR m c (ix2 i j)) (fun i => hreal (ix2 i j))
  rw [show (∑ r : Fin 100000, hR m c (ix2 r j) * hR m c (ix2 r j)) = (0 : EReal) + ∑ r : Fin 100000, hR m c (ix2 r j) * hR m c (ix2 r j) from (zero_add _).symm]
  unfold refVar refMean
  exact key.symm

/-- THE RESULT ARRAY of the kernel program is the reference's result function of the launch inputs. -/
theorem result_eq
    (hpre : Cert.Pre_finite_inputs.fn (F := Ideal) (A0 m c) (A1 m c) (A2 m c) (A3 m c) (A4 m c) (A5 m c) (A6 m c) (A7 m c) = (fun _ => 1#1)) :
    W6 (F := Ideal) m c (Proc.devRef .tc main_v59)
      = val_main_v79 (F := Ideal) (A0 m c) (A1 m c) (A2 m c) (A3 m c) (A4 m c) (A5 m c) (A6 m c) (A7 m c) := by
  obtain ⟨h0, h1, h4, h5, -, -⟩ := Cert.Proof.PreReal.inputs_real _ _ _ _ _ _ _ _ hpre
  have hreal : Cert.Spec.AllReal (S := Cert.ReferenceIdeal.S100000x128) (hR m c) :=
    Cert.Proof.Realness.h_real _ _ _ _ _ _ h0 h1 h4 h5
  have e : W6 (F := Ideal) m c (Proc.devRef .tc main_v59) = (dat1 (F := Ideal) (VE1 m) c).arrAt 5 cfg1.N := W6_arr m c 5
  rw [e]
  funext i
  obtain ⟨r, j, rfl⟩ : ∃ (r : Fin 100000) (j : Fin 128), i = ix2 r j := ⟨i 0, i 1, eq_ix2 i⟩
  rw [region1_value (VE1 m) c r j, out_apply]
  have hh : VE1 (F := Ideal) m c main_v50_0 (ix2 r j) = hR m c (ix2 r j) := by
    rw [host_h m c]
    exact (congrFun (W4_arr m c 4) _).trans (kernel_h m c r j)
  have hm : VE1 (F := Ideal) m c main_v52 (ix2 (0 : Fin 1) j) = refMean (A0 m c) (A1 m c) (A2 m c) (A3 m c) (A4 m c) (A5 m c) j := kernel_mean m c j
  have hv : VE1 (F := Ideal) m c main_v56 (ix2 (0 : Fin 1) j) = refVar (A0 m c) (A1 m c) (A2 m c) (A3 m c) (A4 m c) (A5 m c) j := kernel_var m c j hreal
  rw [hh, hm, hv, host_gam m c j, host_bet m c j, finalize1_def]

end Cert.KernelIdeal.Val

end
-- ==== Proof.lean ====
/-
  The certificate's five claims.
  Frames of the two kernel programs: @main is host operations, the first kernel region (the linear layer on the Chebyshev
  features, the graph norm, and running column sums of the result and of its square kept in two accumulators across the
  50 row blocks), host operations, the second kernel region (batch-norm affine map and ReLU, one row block at a time);
  each region's body is run whole, case by case, and the launch threads the buffer contents through the segments.
  Frame of the reference: its run, the result dropped. The idealization rewrote nothing, so `preserves` is trivial.
  Equal results at the extended reals: both programs compute the same h; the kernel's variance E[h²] − μ² and the
  reference's E[(h − μ)²] agree because finite inputs make every entry of h a real number; everything after that is the
  same operations on equal operands.
-/
import proofs.«102301_j38998303048417_1_alg».proof.Defs
import proofs.«102301_j38998303048417_1_alg».proof.Proof.Gen.Kernel
import proofs.«102301_j38998303048417_1_alg».proof.Proof.Gen.KernelIdeal
import proofs.«102301_j38998303048417_1_alg».proof.Proof.Gen.ReferenceIdeal
import proofs.«102301_j38998303048417_1_alg».proof.Proof.Gen.Pre_finite_inputs
import proofs.«102301_j38998303048417_1_alg».proof.Proof.KernelFrame.Main
import proofs.«102301_j38998303048417_1_alg».proof.Proof.KernelIdealFrame.Main
import proofs.«102301_j38998303048417_1_alg».proof.Proof.KernelIdealValue.Bridge
import proofs.«102301_j38998303048417_1_alg».proof.Proof.RefImports
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Frame.frame m ρ

theorem frame_kernelIdeal : Cert.frame_KernelIdeal := fun m ρ _ => Cert.KernelIdeal.Frame.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the eight inputs, both idealized programs end with the same result array: the
    reference's result function of the inputs. -/
theorem algebraic : Cert.algebraic_KernelIdeal_ReferenceIdeal := by
  intro m ρ m' ρ' hpre hagree
  refine ⟨fun c => Cert.ReferenceIdeal.Read.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Frame.run_all (F := Ideal) m ρ)
    exact ⟨(h c _ (Cert.KernelIdeal.Frame.mem_uc Cert.KernelIdeal.main_v59 (by decide))).trans (Cert.KernelIdeal.Val.result_eq m c (hpre c)),
      (h c _ (Cert.KernelIdeal.Frame.mem_uc Cert.KernelIdeal.main_arg0 (by decide))).trans (Cert.KernelIdeal.Frame.W6_main_arg0 m c),
      (h c _ (Cert.KernelIdeal.Frame.mem_uc Cert.KernelIdeal.main_arg1 (by decide))).trans (Cert.KernelIdeal.Frame.W6_main_arg1 m c),
      (h c _ (Cert.KernelIdeal.Frame.mem_uc Cert.KernelIdeal.main_arg2 (by decide))).trans (Cert.KernelIdeal.Frame.W6_main_arg2 m c),
      (h c _ (Cert.KernelIdeal.Frame.mem_uc Cert.KernelIdeal.main_arg3 (by decide))).trans (Cert.KernelIdeal.Frame.W6_main_arg3 m c),
      (h c _ (Cert.KernelIdeal.Frame.mem_uc Cert.KernelIdeal.main_arg4 (by decide))).trans (Cert.KernelIdeal.Frame.W6_main_arg4 m c),
      (h c _ (Cert.KernelIdeal.Frame.mem_uc Cert.KernelIdeal.main_arg5 (by decide))).trans (Cert.KernelIdeal.Frame.W6_main_arg5 m c),
      (h c _ (Cert.KernelIdeal.Frame.mem_uc Cert.KernelIdeal.main_arg6 (by decide))).trans (Cert.KernelIdeal.Frame.W6_main_arg6 m c),
      (h c _ (Cert.KernelIdeal.Frame.mem_uc Cert.KernelIdeal.main_arg7 (by decide))).trans (Cert.KernelIdeal.Frame.W6_main_arg7 m c)⟩
  · refine (θ_run Cert.ReferenceIdeal.defs _ _).mono (fun _ h c => ⟨?_, (h c).2⟩) (Cert.ReferenceIdeal.Value.run (F := Ideal) m' ρ')
    rw [(h c).1, Cert.ReferenceIdeal.Read.val_main_v79_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
